-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x256 : Shape := ⟨3, ![8192, 64, 256]⟩
abbrev S_ : Shape := ⟨0, ![]⟩

class Facts : Prop where
  bcast_S_S8192x64x256 : S_.BroadcastsInDim S8192x64x256 (![] : Fin 0 → Fin S8192x64x256.rank)
  reducesTo_S8192x64x256_S_d0_1_2 : S8192x64x256.ReducesTo [0, 1, 2] S_
  h_S_ : 0 < S_.numel

variable [Facts]

def fn {F : FTy → Type} [FloatOps F] (main_arg0 : FVec F S8192x64x256 .f32) : IVec S_ 1 :=
  let main_v0 : FVec F S8192x64x256 .f32 := Host.absf main_arg0
  let main_cst : FVec F S_ .f32 := constant S_ .f32 0x7F800000#32
  let main_v1 : FVec F S8192x64x256 .f32 := broadcastInDim S8192x64x256 ![] bcast_S_S8192x64x256 main_cst
  let main_v2 : IVec S8192x64x256 1 := cmpf .olt main_v0 main_v1
  let main_c : IVec S_ 1 := constantI S_ 1 1#1
  let main_v3 : IVec S_ 1 := (fun x v => Host.reduce IntOp.andi x v reducesTo_S8192x64x256_S_d0_1_2 h_S_) main_v2 main_c
  main_v3
-- ==== Kernel.lean ====
abbrev S8192x64x256 : Shape := ⟨3, ![8192, 64, 256]⟩
abbrev S8192x2016 : Shape := ⟨2, ![8192, 2016]⟩
abbrev S128x64x256 : Shape := ⟨3, ![128, 64, 256]⟩
abbrev S128x2016 : Shape := ⟨2, ![128, 2016]⟩
abbrev S128x64x64 : Shape := ⟨3, ![128, 64, 64]⟩
abbrev S128x1x1 : Shape := ⟨3, ![128, 1, 1]⟩
abbrev S128x1 : Shape := ⟨2, ![128, 1]⟩
abbrev S128x1x2 : Shape := ⟨3, ![128, 1, 2]⟩
abbrev S128x2 : Shape := ⟨2, ![128, 2]⟩
abbrev S128x1x3 : Shape := ⟨3, ![128, 1, 3]⟩
abbrev S128x3 : Shape := ⟨2, ![128, 3]⟩
abbrev S128x1x4 : Shape := ⟨3, ![128, 1, 4]⟩
abbrev S128x4 : Shape := ⟨2, ![128, 4]⟩
abbrev S128x1x5 : Shape := ⟨3, ![128, 1, 5]⟩
abbrev S128x5 : Shape := ⟨2, ![128, 5]⟩
abbrev S128x1x6 : Shape := ⟨3, ![128, 1, 6]⟩
abbrev S128x6 : Shape := ⟨2, ![128, 6]⟩
abbrev S128x1x7 : Shape := ⟨3, ![128, 1, 7]⟩
abbrev S128x7 : Shape := ⟨2, ![128, 7]⟩
abbrev S128x1x8 : Shape := ⟨3, ![128, 1, 8]⟩
abbrev S128x8 : Shape := ⟨2, ![128, 8]⟩
abbrev S128x1x9 : Shape := ⟨3, ![128, 1, 9]⟩
abbrev S128x9 : Shape := ⟨2, ![128, 9]⟩
abbrev S128x1x10 : Shape := ⟨3, ![128, 1, 10]⟩
abbrev S128x10 : Shape := ⟨2, ![128, 10]⟩
abbrev S128x1x11 : Shape := ⟨3, ![128, 1, 11]⟩
abbrev S128x11 : Shape := ⟨2, ![128, 11]⟩
abbrev S128x1x12 : Shape := ⟨3, ![128, 1, 12]⟩
abbrev S128x12 : Shape := ⟨2, ![128, 12]⟩
abbrev S128x1x13 : Shape := ⟨3, ![128, 1, 13]⟩
abbrev S128x13 : Shape := ⟨2, ![128, 13]⟩
abbrev S128x1x14 : Shape := ⟨3, ![128, 1, 14]⟩
abbrev S128x14 : Shape := ⟨2, ![128, 14]⟩
abbrev S128x1x15 : Shape := ⟨3, ![128, 1, 15]⟩
abbrev S128x15 : Shape := ⟨2, ![128, 15]⟩
abbrev S128x1x16 : Shape := ⟨3, ![128, 1, 16]⟩
abbrev S128x16 : Shape := ⟨2, ![128, 16]⟩
abbrev S128x1x17 : Shape := ⟨3, ![128, 1, 17]⟩
abbrev S128x17 : Shape := ⟨2, ![128, 17]⟩
abbrev S128x1x18 : Shape := ⟨3, ![128, 1, 18]⟩
abbrev S128x18 : Shape := ⟨2, ![128, 18]⟩
abbrev S128x1x19 : Shape := ⟨3, ![128, 1, 19]⟩
abbrev S128x19 : Shape := ⟨2, ![128, 19]⟩
abbrev S128x1x20 : Shape := ⟨3, ![128, 1, 20]⟩
abbrev S128x20 : Shape := ⟨2, ![128, 20]⟩
abbrev S128x1x21 : Shape := ⟨3, ![128, 1, 21]⟩
abbrev S128x21 : Shape := ⟨2, ![128, 21]⟩
abbrev S128x1x22 : Shape := ⟨3, ![128, 1, 22]⟩
abbrev S128x22 : Shape := ⟨2, ![128, 22]⟩
abbrev S128x1x23 : Shape := ⟨3, ![128, 1, 23]⟩
abbrev S128x23 : Shape := ⟨2, ![128, 23]⟩
abbrev S128x1x24 : Shape := ⟨3, ![128, 1, 24]⟩
abbrev S128x24 : Shape := ⟨2, ![128, 24]⟩
abbrev S128x1x25 : Shape := ⟨3, ![128, 1, 25]⟩
abbrev S128x25 : Shape := ⟨2, ![128, 25]⟩
abbrev S128x1x26 : Shape := ⟨3, ![128, 1, 26]⟩
abbrev S128x26 : Shape := ⟨2, ![128, 26]⟩
abbrev S128x1x27 : Shape := ⟨3, ![128, 1, 27]⟩
abbrev S128x27 : Shape := ⟨2, ![128, 27]⟩
abbrev S128x1x28 : Shape := ⟨3, ![128, 1, 28]⟩
abbrev S128x28 : Shape := ⟨2, ![128, 28]⟩
abbrev S128x1x29 : Shape := ⟨3, ![128, 1, 29]⟩
abbrev S128x29 : Shape := ⟨2, ![128, 29]⟩
abbrev S128x1x30 : Shape := ⟨3, ![128, 1, 30]⟩
abbrev S128x30 : Shape := ⟨2, ![128, 30]⟩
abbrev S128x1x31 : Shape := ⟨3, ![128, 1, 31]⟩
abbrev S128x31 : Shape := ⟨2, ![128, 31]⟩
abbrev S128x1x32 : Shape := ⟨3, ![128, 1, 32]⟩
abbrev S128x32 : Shape := ⟨2, ![128, 32]⟩
abbrev S128x1x33 : Shape := ⟨3, ![128, 1, 33]⟩
abbrev S128x33 : Shape := ⟨2, ![128, 33]⟩
abbrev S128x1x34 : Shape := ⟨3, ![128, 1, 34]⟩
abbrev S128x34 : Shape := ⟨2, ![128, 34]⟩
abbrev S128x1x35 : Shape := ⟨3, ![128, 1, 35]⟩
abbrev S128x35 : Shape := ⟨2, ![128, 35]⟩
abbrev S128x1x36 : Shape := ⟨3, ![128, 1, 36]⟩
abbrev S128x36 : Shape := ⟨2, ![128, 36]⟩
abbrev S128x1x37 : Shape := ⟨3, ![128, 1, 37]⟩
abbrev S128x37 : Shape := ⟨2, ![128, 37]⟩
abbrev S128x1x38 : Shape := ⟨3, ![128, 1, 38]⟩
abbrev S128x38 : Shape := ⟨2, ![128, 38]⟩
abbrev S128x1x39 : Shape := ⟨3, ![128, 1, 39]⟩
abbrev S128x39 : Shape := ⟨2, ![128, 39]⟩
abbrev S128x1x40 : Shape := ⟨3, ![128, 1, 40]⟩
abbrev S128x40 : Shape := ⟨2, ![128, 40]⟩
abbrev S128x1x41 : Shape := ⟨3, ![128, 1, 41]⟩
abbrev S128x41 : Shape := ⟨2, ![128, 41]⟩
abbrev S128x1x42 : Shape := ⟨3, ![128, 1, 42]⟩
abbrev S128x42 : Shape := ⟨2, ![128, 42]⟩
abbrev S128x1x43 : Shape := ⟨3, ![128, 1, 43]⟩
abbrev S128x43 : Shape := ⟨2, ![128, 43]⟩
abbrev S128x1x44 : Shape := ⟨3, ![128, 1, 44]⟩
abbrev S128x44 : Shape := ⟨2, ![128, 44]⟩
abbrev S128x1x45 : Shape := ⟨3, ![128, 1, 45]⟩
abbrev S128x45 : Shape := ⟨2, ![128, 45]⟩
abbrev S128x1x46 : Shape := ⟨3, ![128, 1, 46]⟩
abbrev S128x46 : Shape := ⟨2, ![128, 46]⟩
abbrev S128x1x47 : Shape := ⟨3, ![128, 1, 47]⟩
abbrev S128x47 : Shape := ⟨2, ![128, 47]⟩
abbrev S128x1x48 : Shape := ⟨3, ![128, 1, 48]⟩
abbrev S128x48 : Shape := ⟨2, ![128, 48]⟩
abbrev S128x1x49 : Shape := ⟨3, ![128, 1, 49]⟩
abbrev S128x49 : Shape := ⟨2, ![128, 49]⟩
abbrev S128x1x50 : Shape := ⟨3, ![128, 1, 50]⟩
abbrev S128x50 : Shape := ⟨2, ![128, 50]⟩
abbrev S128x1x51 : Shape := ⟨3, ![128, 1, 51]⟩
abbrev S128x51 : Shape := ⟨2, ![128, 51]⟩
abbrev S128x1x52 : Shape := ⟨3, ![128, 1, 52]⟩
abbrev S128x52 : Shape := ⟨2, ![128, 52]⟩
abbrev S128x1x53 : Shape := ⟨3, ![128, 1, 53]⟩
abbrev S128x53 : Shape := ⟨2, ![128, 53]⟩
abbrev S128x1x54 : Shape := ⟨3, ![128, 1, 54]⟩
abbrev S128x54 : Shape := ⟨2, ![128, 54]⟩
abbrev S128x1x55 : Shape := ⟨3, ![128, 1, 55]⟩
abbrev S128x55 : Shape := ⟨2, ![128, 55]⟩
abbrev S128x1x56 : Shape := ⟨3, ![128, 1, 56]⟩
abbrev S128x56 : Shape := ⟨2, ![128, 56]⟩
abbrev S128x1x57 : Shape := ⟨3, ![128, 1, 57]⟩
abbrev S128x57 : Shape := ⟨2, ![128, 57]⟩
abbrev S128x1x58 : Shape := ⟨3, ![128, 1, 58]⟩
abbrev S128x58 : Shape := ⟨2, ![128, 58]⟩
abbrev S128x1x59 : Shape := ⟨3, ![128, 1, 59]⟩
abbrev S128x59 : Shape := ⟨2, ![128, 59]⟩
abbrev S128x1x60 : Shape := ⟨3, ![128, 1, 60]⟩
abbrev S128x60 : Shape := ⟨2, ![128, 60]⟩
abbrev S128x1x61 : Shape := ⟨3, ![128, 1, 61]⟩
abbrev S128x61 : Shape := ⟨2, ![128, 61]⟩
abbrev S128x1x62 : Shape := ⟨3, ![128, 1, 62]⟩
abbrev S128x62 : Shape := ⟨2, ![128, 62]⟩
abbrev S128x1x63 : Shape := ⟨3, ![128, 1, 63]⟩
abbrev S128x63 : Shape := ⟨2, ![128, 63]⟩

abbrev nBuf : Space → Nat
  | .hbm => 2
  | .vmem => 4
  | .smem => 0
  | _ => 0

abbrev bufTy : (tb : Table) → Fin (tcTables nBuf tb) → BufTy
  | .hbm, ⟨0, _⟩ => ⟨S8192x64x256, .f32⟩
  | .hbm, ⟨1, _⟩ => ⟨S8192x2016, .f32⟩
  | .local _ .vmem, ⟨0, _⟩ => ⟨S128x64x256, .f32⟩
  | .local _ .vmem, ⟨1, _⟩ => ⟨S128x64x256, .f32⟩
  | .local _ .vmem, ⟨2, _⟩ => ⟨S128x2016, .f32⟩
  | .local _ .vmem, ⟨3, _⟩ => ⟨S128x2016, .f32⟩
  | _, _ => ⟨S8192x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x64x256_S128x64x256_0_0_0 : ∀ a, (![0, 0, 0] : Fin 3 → Nat) a + S128x64x256.size a ≤ S128x64x256.size a
  h_S128x64x256 : 0 < S128x64x256.numel
  bitsLt_bf16_f32 : FTy.bits .bf16 < FTy.bits .f32
  slices_S128x64x64_o0_1_0_S128x1x1 : S128x64x64.Slices ![0, 1, 0] S128x1x1
  shapeCasts_S128x1x1_S128x1 : S128x1x1.ShapeCasts S128x1
  inb_S128x2016_S128x1_0_0 : ∀ a, (![0, 0] : Fin 2 → Nat) a + S128x1.size a ≤ S128x2016.size a
  h_S128x1 : 0 < S128x1.numel
  slices_S128x64x64_o0_2_0_S128x1x2 : S128x64x64.Slices ![0, 2, 0] S128x1x2
  shapeCasts_S128x1x2_S128x2 : S128x1x2.ShapeCasts S128x2
  inb_S128x2016_S128x2_0_1 : ∀ a, (![0, 1] : Fin 2 → Nat) a + S128x2.size a ≤ S128x2016.size a
  h_S128x2 : 0 < S128x2.numel
  slices_S128x64x64_o0_3_0_S128x1x3 : S128x64x64.Slices ![0, 3, 0] S128x1x3
  shapeCasts_S128x1x3_S128x3 : S128x1x3.ShapeCasts S128x3
  inb_S128x2016_S128x3_0_3 : ∀ a, (![0, 3] : Fin 2 → Nat) a + S128x3.size a ≤ S128x2016.size a
  h_S128x3 : 0 < S128x3.numel
  slices_S128x64x64_o0_4_0_S128x1x4 : S128x64x64.Slices ![0, 4, 0] S128x1x4
  shapeCasts_S128x1x4_S128x4 : S128x1x4.ShapeCasts S128x4
  inb_S128x2016_S128x4_0_6 : ∀ a, (![0, 6] : Fin 2 → Nat) a + S128x4.size a ≤ S128x2016.size a
  h_S128x4 : 0 < S128x4.numel
  slices_S128x64x64_o0_5_0_S128x1x5 : S128x64x64.Slices ![0, 5, 0] S128x1x5
  shapeCasts_S128x1x5_S128x5 : S128x1x5.ShapeCasts S128x5
  inb_S128x2016_S128x5_0_10 : ∀ a, (![0, 10] : Fin 2 → Nat) a + S128x5.size a ≤ S128x2016.size a
  h_S128x5 : 0 < S128x5.numel
  slices_S128x64x64_o0_6_0_S128x1x6 : S128x64x64.Slices ![0, 6, 0] S128x1x6
  shapeCasts_S128x1x6_S128x6 : S128x1x6.ShapeCasts S128x6
  inb_S128x2016_S128x6_0_15 : ∀ a, (![0, 15] : Fin 2 → Nat) a + S128x6.size a ≤ S128x2016.size a
  h_S128x6 : 0 < S128x6.numel
  slices_S128x64x64_o0_7_0_S128x1x7 : S128x64x64.Slices ![0, 7, 0] S128x1x7
  shapeCasts_S128x1x7_S128x7 : S128x1x7.ShapeCasts S128x7
  inb_S128x2016_S128x7_0_21 : ∀ a, (![0, 21] : Fin 2 → Nat) a + S128x7.size a ≤ S128x2016.size a
  h_S128x7 : 0 < S128x7.numel
  slices_S128x64x64_o0_8_0_S128x1x8 : S128x64x64.Slices ![0, 8, 0] S128x1x8
  shapeCasts_S128x1x8_S128x8 : S128x1x8.ShapeCasts S128x8
  inb_S128x2016_S128x8_0_28 : ∀ a, (![0, 28] : Fin 2 → Nat) a + S128x8.size a ≤ S128x2016.size a
  h_S128x8 : 0 < S128x8.numel
  slices_S128x64x64_o0_9_0_S128x1x9 : S128x64x64.Slices ![0, 9, 0] S128x1x9
  shapeCasts_S128x1x9_S128x9 : S128x1x9.ShapeCasts S128x9
  inb_S128x2016_S128x9_0_36 : ∀ a, (![0, 36] : Fin 2 → Nat) a + S128x9.size a ≤ S128x2016.size a
  h_S128x9 : 0 < S128x9.numel
  slices_S128x64x64_o0_10_0_S128x1x10 : S128x64x64.Slices ![0, 10, 0] S128x1x10
  shapeCasts_S128x1x10_S128x10 : S128x1x10.ShapeCasts S128x10
  inb_S128x2016_S128x10_0_45 : ∀ a, (![0, 45] : Fin 2 → Nat) a + S128x10.size a ≤ S128x2016.size a
  h_S128x10 : 0 < S128x10.numel
  slices_S128x64x64_o0_11_0_S128x1x11 : S128x64x64.Slices ![0, 11, 0] S128x1x11
  shapeCasts_S128x1x11_S128x11 : S128x1x11.ShapeCasts S128x11
  inb_S128x2016_S128x11_0_55 : ∀ a, (![0, 55] : Fin 2 → Nat) a + S128x11.size a ≤ S128x2016.size a
  h_S128x11 : 0 < S128x11.numel
  slices_S128x64x64_o0_12_0_S128x1x12 : S128x64x64.Slices ![0, 12, 0] S128x1x12
  shapeCasts_S128x1x12_S128x12 : S128x1x12.ShapeCasts S128x12
  inb_S128x2016_S128x12_0_66 : ∀ a, (![0, 66] : Fin 2 → Nat) a + S128x12.size a ≤ S128x2016.size a
  h_S128x12 : 0 < S128x12.numel
  slices_S128x64x64_o0_13_0_S128x1x13 : S128x64x64.Slices ![0, 13, 0] S128x1x13
  shapeCasts_S128x1x13_S128x13 : S128x1x13.ShapeCasts S128x13
  inb_S128x2016_S128x13_0_78 : ∀ a, (![0, 78] : Fin 2 → Nat) a + S128x13.size a ≤ S128x2016.size a
  h_S128x13 : 0 < S128x13.numel
  slices_S128x64x64_o0_14_0_S128x1x14 : S128x64x64.Slices ![0, 14, 0] S128x1x14
  shapeCasts_S128x1x14_S128x14 : S128x1x14.ShapeCasts S128x14
  inb_S128x2016_S128x14_0_91 : ∀ a, (![0, 91] : Fin 2 → Nat) a + S128x14.size a ≤ S128x2016.size a
  h_S128x14 : 0 < S128x14.numel
  slices_S128x64x64_o0_15_0_S128x1x15 : S128x64x64.Slices ![0, 15, 0] S128x1x15
  shapeCasts_S128x1x15_S128x15 : S128x1x15.ShapeCasts S128x15
  inb_S128x2016_S128x15_0_105 : ∀ a, (![0, 105] : Fin 2 → Nat) a + S128x15.size a ≤ S128x2016.size a
  h_S128x15 : 0 < S128x15.numel
  slices_S128x64x64_o0_16_0_S128x1x16 : S128x64x64.Slices ![0, 16, 0] S128x1x16
  shapeCasts_S128x1x16_S128x16 : S128x1x16.ShapeCasts S128x16
  inb_S128x2016_S128x16_0_120 : ∀ a, (![0, 120] : Fin 2 → Nat) a + S128x16.size a ≤ S128x2016.size a
  h_S128x16 : 0 < S128x16.numel
  slices_S128x64x64_o0_17_0_S128x1x17 : S128x64x64.Slices ![0, 17, 0] S128x1x17
  shapeCasts_S128x1x17_S128x17 : S128x1x17.ShapeCasts S128x17
  inb_S128x2016_S128x17_0_136 : ∀ a, (![0, 136] : Fin 2 → Nat) a + S128x17.size a ≤ S128x2016.size a
  h_S128x17 : 0 < S128x17.numel
  slices_S128x64x64_o0_18_0_S128x1x18 : S128x64x64.Slices ![0, 18, 0] S128x1x18
  shapeCasts_S128x1x18_S128x18 : S128x1x18.ShapeCasts S128x18
  inb_S128x2016_S128x18_0_153 : ∀ a, (![0, 153] : Fin 2 → Nat) a + S128x18.size a ≤ S128x2016.size a
  h_S128x18 : 0 < S128x18.numel
  slices_S128x64x64_o0_19_0_S128x1x19 : S128x64x64.Slices ![0, 19, 0] S128x1x19
  shapeCasts_S128x1x19_S128x19 : S128x1x19.ShapeCasts S128x19
  inb_S128x2016_S128x19_0_171 : ∀ a, (![0, 171] : Fin 2 → Nat) a + S128x19.size a ≤ S128x2016.size a
  h_S128x19 : 0 < S128x19.numel
  slices_S128x64x64_o0_20_0_S128x1x20 : S128x64x64.Slices ![0, 20, 0] S128x1x20
  shapeCasts_S128x1x20_S128x20 : S128x1x20.ShapeCasts S128x20
  inb_S128x2016_S128x20_0_190 : ∀ a, (![0, 190] : Fin 2 → Nat) a + S128x20.size a ≤ S128x2016.size a
  h_S128x20 : 0 < S128x20.numel
  slices_S128x64x64_o0_21_0_S128x1x21 : S128x64x64.Slices ![0, 21, 0] S128x1x21
  shapeCasts_S128x1x21_S128x21 : S128x1x21.ShapeCasts S128x21
  inb_S128x2016_S128x21_0_210 : ∀ a, (![0, 210] : Fin 2 → Nat) a + S128x21.size a ≤ S128x2016.size a
  h_S128x21 : 0 < S128x21.numel
  slices_S128x64x64_o0_22_0_S128x1x22 : S128x64x64.Slices ![0, 22, 0] S128x1x22
  shapeCasts_S128x1x22_S128x22 : S128x1x22.ShapeCasts S128x22
  inb_S128x2016_S128x22_0_231 : ∀ a, (![0, 231] : Fin 2 → Nat) a + S128x22.size a ≤ S128x2016.size a
  h_S128x22 : 0 < S128x22.numel
  slices_S128x64x64_o0_23_0_S128x1x23 : S128x64x64.Slices ![0, 23, 0] S128x1x23
  shapeCasts_S128x1x23_S128x23 : S128x1x23.ShapeCasts S128x23
  inb_S128x2016_S128x23_0_253 : ∀ a, (![0, 253] : Fin 2 → Nat) a + S128x23.size a ≤ S128x2016.size a
  h_S128x23 : 0 < S128x23.numel
  slices_S128x64x64_o0_24_0_S128x1x24 : S128x64x64.Slices ![0, 24, 0] S128x1x24
  shapeCasts_S128x1x24_S128x24 : S128x1x24.ShapeCasts S128x24
  inb_S128x2016_S128x24_0_276 : ∀ a, (![0, 276] : Fin 2 → Nat) a + S128x24.size a ≤ S128x2016.size a
  h_S128x24 : 0 < S128x24.numel
  slices_S128x64x64_o0_25_0_S128x1x25 : S128x64x64.Slices ![0, 25, 0] S128x1x25
  shapeCasts_S128x1x25_S128x25 : S128x1x25.ShapeCasts S128x25
  inb_S128x2016_S128x25_0_300 : ∀ a, (![0, 300] : Fin 2 → Nat) a + S128x25.size a ≤ S128x2016.size a
  h_S128x25 : 0 < S128x25.numel
  slices_S128x64x64_o0_26_0_S128x1x26 : S128x64x64.Slices ![0, 26, 0] S128x1x26
  shapeCasts_S128x1x26_S128x26 : S128x1x26.ShapeCasts S128x26
  inb_S128x2016_S128x26_0_325 : ∀ a, (![0, 325] : Fin 2 → Nat) a + S128x26.size a ≤ S128x2016.size a
  h_S128x26 : 0 < S128x26.numel
  slices_S128x64x64_o0_27_0_S128x1x27 : S128x64x64.Slices ![0, 27, 0] S128x1x27
  shapeCasts_S128x1x27_S128x27 : S128x1x27.ShapeCasts S128x27
  inb_S128x2016_S128x27_0_351 : ∀ a, (![0, 351] : Fin 2 → Nat) a + S128x27.size a ≤ S128x2016.size a
  h_S128x27 : 0 < S128x27.numel
  slices_S128x64x64_o0_28_0_S128x1x28 : S128x64x64.Slices ![0, 28, 0] S128x1x28
  shapeCasts_S128x1x28_S128x28 : S128x1x28.ShapeCasts S128x28
  inb_S128x2016_S128x28_0_378 : ∀ a, (![0, 378] : Fin 2 → Nat) a + S128x28.size a ≤ S128x2016.size a
  h_S128x28 : 0 < S128x28.numel
  slices_S128x64x64_o0_29_0_S128x1x29 : S128x64x64.Slices ![0, 29, 0] S128x1x29
  shapeCasts_S128x1x29_S128x29 : S128x1x29.ShapeCasts S128x29
  inb_S128x2016_S128x29_0_406 : ∀ a, (![0, 406] : Fin 2 → Nat) a + S128x29.size a ≤ S128x2016.size a
  h_S128x29 : 0 < S128x29.numel
  slices_S128x64x64_o0_30_0_S128x1x30 : S128x64x64.Slices ![0, 30, 0] S128x1x30
  shapeCasts_S128x1x30_S128x30 : S128x1x30.ShapeCasts S128x30
  inb_S128x2016_S128x30_0_435 : ∀ a, (![0, 435] : Fin 2 → Nat) a + S128x30.size a ≤ S128x2016.size a
  h_S128x30 : 0 < S128x30.numel
  slices_S128x64x64_o0_31_0_S128x1x31 : S128x64x64.Slices ![0, 31, 0] S128x1x31
  shapeCasts_S128x1x31_S128x31 : S128x1x31.ShapeCasts S128x31
  inb_S128x2016_S128x31_0_465 : ∀ a, (![0, 465] : Fin 2 → Nat) a + S128x31.size a ≤ S128x2016.size a
  h_S128x31 : 0 < S128x31.numel
  slices_S128x64x64_o0_32_0_S128x1x32 : S128x64x64.Slices ![0, 32, 0] S128x1x32
  shapeCasts_S128x1x32_S128x32 : S128x1x32.ShapeCasts S128x32
  inb_S128x2016_S128x32_0_496 : ∀ a, (![0, 496] : Fin 2 → Nat) a + S128x32.size a ≤ S128x2016.size a
  h_S128x32 : 0 < S128x32.numel
  slices_S128x64x64_o0_33_0_S128x1x33 : S128x64x64.Slices ![0, 33, 0] S128x1x33
  shapeCasts_S128x1x33_S128x33 : S128x1x33.ShapeCasts S128x33
  inb_S128x2016_S128x33_0_528 : ∀ a, (![0, 528] : Fin 2 → Nat) a + S128x33.size a ≤ S128x2016.size a
  h_S128x33 : 0 < S128x33.numel
  slices_S128x64x64_o0_34_0_S128x1x34 : S128x64x64.Slices ![0, 34, 0] S128x1x34
  shapeCasts_S128x1x34_S128x34 : S128x1x34.ShapeCasts S128x34
  inb_S128x2016_S128x34_0_561 : ∀ a, (![0, 561] : Fin 2 → Nat) a + S128x34.size a ≤ S128x2016.size a
  h_S128x34 : 0 < S128x34.numel
  slices_S128x64x64_o0_35_0_S128x1x35 : S128x64x64.Slices ![0, 35, 0] S128x1x35
  shapeCasts_S128x1x35_S128x35 : S128x1x35.ShapeCasts S128x35
  inb_S128x2016_S128x35_0_595 : ∀ a, (![0, 595] : Fin 2 → Nat) a + S128x35.size a ≤ S128x2016.size a
  h_S128x35 : 0 < S128x35.numel
  slices_S128x64x64_o0_36_0_S128x1x36 : S128x64x64.Slices ![0, 36, 0] S128x1x36
  shapeCasts_S128x1x36_S128x36 : S128x1x36.ShapeCasts S128x36
  inb_S128x2016_S128x36_0_630 : ∀ a, (![0, 630] : Fin 2 → Nat) a + S128x36.size a ≤ S128x2016.size a
  h_S128x36 : 0 < S128x36.numel
  slices_S128x64x64_o0_37_0_S128x1x37 : S128x64x64.Slices ![0, 37, 0] S128x1x37
  shapeCasts_S128x1x37_S128x37 : S128x1x37.ShapeCasts S128x37
  inb_S128x2016_S128x37_0_666 : ∀ a, (![0, 666] : Fin 2 → Nat) a + S128x37.size a ≤ S128x2016.size a
  h_S128x37 : 0 < S128x37.numel
  slices_S128x64x64_o0_38_0_S128x1x38 : S128x64x64.Slices ![0, 38, 0] S128x1x38
  shapeCasts_S128x1x38_S128x38 : S128x1x38.ShapeCasts S128x38
  inb_S128x2016_S128x38_0_703 : ∀ a, (![0, 703] : Fin 2 → Nat) a + S128x38.size a ≤ S128x2016.size a
  h_S128x38 : 0 < S128x38.numel
  slices_S128x64x64_o0_39_0_S128x1x39 : S128x64x64.Slices ![0, 39, 0] S128x1x39
  shapeCasts_S128x1x39_S128x39 : S128x1x39.ShapeCasts S128x39
  inb_S128x2016_S128x39_0_741 : ∀ a, (![0, 741] : Fin 2 → Nat) a + S128x39.size a ≤ S128x2016.size a
  h_S128x39 : 0 < S128x39.numel
  slices_S128x64x64_o0_40_0_S128x1x40 : S128x64x64.Slices ![0, 40, 0] S128x1x40
  shapeCasts_S128x1x40_S128x40 : S128x1x40.ShapeCasts S128x40
  inb_S128x2016_S128x40_0_780 : ∀ a, (![0, 780] : Fin 2 → Nat) a + S128x40.size a ≤ S128x2016.size a
  h_S128x40 : 0 < S128x40.numel
  slices_S128x64x64_o0_41_0_S128x1x41 : S128x64x64.Slices ![0, 41, 0] S128x1x41
  shapeCasts_S128x1x41_S128x41 : S128x1x41.ShapeCasts S128x41
  inb_S128x2016_S128x41_0_820 : ∀ a, (![0, 820] : Fin 2 → Nat) a + S128x41.size a ≤ S128x2016.size a
  h_S128x41 : 0 < S128x41.numel
  slices_S128x64x64_o0_42_0_S128x1x42 : S128x64x64.Slices ![0, 42, 0] S128x1x42
  shapeCasts_S128x1x42_S128x42 : S128x1x42.ShapeCasts S128x42
  inb_S128x2016_S128x42_0_861 : ∀ a, (![0, 861] : Fin 2 → Nat) a + S128x42.size a ≤ S128x2016.size a
  h_S128x42 : 0 < S128x42.numel
  slices_S128x64x64_o0_43_0_S128x1x43 : S128x64x64.Slices ![0, 43, 0] S128x1x43
  shapeCasts_S128x1x43_S128x43 : S128x1x43.ShapeCasts S128x43
  inb_S128x2016_S128x43_0_903 : ∀ a, (![0, 903] : Fin 2 → Nat) a + S128x43.size a ≤ S128x2016.size a
  h_S128x43 : 0 < S128x43.numel
  slices_S128x64x64_o0_44_0_S128x1x44 : S128x64x64.Slices ![0, 44, 0] S128x1x44
  shapeCasts_S128x1x44_S128x44 : S128x1x44.ShapeCasts S128x44
  inb_S128x2016_S128x44_0_946 : ∀ a, (![0, 946] : Fin 2 → Nat) a + S128x44.size a ≤ S128x2016.size a
  h_S128x44 : 0 < S128x44.numel
  slices_S128x64x64_o0_45_0_S128x1x45 : S128x64x64.Slices ![0, 45, 0] S128x1x45
  shapeCasts_S128x1x45_S128x45 : S128x1x45.ShapeCasts S128x45
  inb_S128x2016_S128x45_0_990 : ∀ a, (![0, 990] : Fin 2 → Nat) a + S128x45.size a ≤ S128x2016.size a
  h_S128x45 : 0 < S128x45.numel
  slices_S128x64x64_o0_46_0_S128x1x46 : S128x64x64.Slices ![0, 46, 0] S128x1x46
  shapeCasts_S128x1x46_S128x46 : S128x1x46.ShapeCasts S128x46
  inb_S128x2016_S128x46_0_1035 : ∀ a, (![0, 1035] : Fin 2 → Nat) a + S128x46.size a ≤ S128x2016.size a
  h_S128x46 : 0 < S128x46.numel
  slices_S128x64x64_o0_47_0_S128x1x47 : S128x64x64.Slices ![0, 47, 0] S128x1x47
  shapeCasts_S128x1x47_S128x47 : S128x1x47.ShapeCasts S128x47
  inb_S128x2016_S128x47_0_1081 : ∀ a, (![0, 1081] : Fin 2 → Nat) a + S128x47.size a ≤ S128x2016.size a
  h_S128x47 : 0 < S128x47.numel
  slices_S128x64x64_o0_48_0_S128x1x48 : S128x64x64.Slices ![0, 48, 0] S128x1x48
  shapeCasts_S128x1x48_S128x48 : S128x1x48.ShapeCasts S128x48
  inb_S128x2016_S128x48_0_1128 : ∀ a, (![0, 1128] : Fin 2 → Nat) a + S128x48.size a ≤ S128x2016.size a
  h_S128x48 : 0 < S128x48.numel
  slices_S128x64x64_o0_49_0_S128x1x49 : S128x64x64.Slices ![0, 49, 0] S128x1x49
  shapeCasts_S128x1x49_S128x49 : S128x1x49.ShapeCasts S128x49
  inb_S128x2016_S128x49_0_1176 : ∀ a, (![0, 1176] : Fin 2 → Nat) a + S128x49.size a ≤ S128x2016.size a
  h_S128x49 : 0 < S128x49.numel
  slices_S128x64x64_o0_50_0_S128x1x50 : S128x64x64.Slices ![0, 50, 0] S128x1x50
  shapeCasts_S128x1x50_S128x50 : S128x1x50.ShapeCasts S128x50
  inb_S128x2016_S128x50_0_1225 : ∀ a, (![0, 1225] : Fin 2 → Nat) a + S128x50.size a ≤ S128x2016.size a
  h_S128x50 : 0 < S128x50.numel
  slices_S128x64x64_o0_51_0_S128x1x51 : S128x64x64.Slices ![0, 51, 0] S128x1x51
  shapeCasts_S128x1x51_S128x51 : S128x1x51.ShapeCasts S128x51
  inb_S128x2016_S128x51_0_1275 : ∀ a, (![0, 1275] : Fin 2 → Nat) a + S128x51.size a ≤ S128x2016.size a
  h_S128x51 : 0 < S128x51.numel
  slices_S128x64x64_o0_52_0_S128x1x52 : S128x64x64.Slices ![0, 52, 0] S128x1x52
  shapeCasts_S128x1x52_S128x52 : S128x1x52.ShapeCasts S128x52
  inb_S128x2016_S128x52_0_1326 : ∀ a, (![0, 1326] : Fin 2 → Nat) a + S128x52.size a ≤ S128x2016.size a
  h_S128x52 : 0 < S128x52.numel
  slices_S128x64x64_o0_53_0_S128x1x53 : S128x64x64.Slices ![0, 53, 0] S128x1x53
  shapeCasts_S128x1x53_S128x53 : S128x1x53.ShapeCasts S128x53
  inb_S128x2016_S128x53_0_1378 : ∀ a, (![0, 1378] : Fin 2 → Nat) a + S128x53.size a ≤ S128x2016.size a
  h_S128x53 : 0 < S128x53.numel
  slices_S128x64x64_o0_54_0_S128x1x54 : S128x64x64.Slices ![0, 54, 0] S128x1x54
  shapeCasts_S128x1x54_S128x54 : S128x1x54.ShapeCasts S128x54
  inb_S128x2016_S128x54_0_1431 : ∀ a, (![0, 1431] : Fin 2 → Nat) a + S128x54.size a ≤ S128x2016.size a
  h_S128x54 : 0 < S128x54.numel
  slices_S128x64x64_o0_55_0_S128x1x55 : S128x64x64.Slices ![0, 55, 0] S128x1x55
  shapeCasts_S128x1x55_S128x55 : S128x1x55.ShapeCasts S128x55
  inb_S128x2016_S128x55_0_1485 : ∀ a, (![0, 1485] : Fin 2 → Nat) a + S128x55.size a ≤ S128x2016.size a
  h_S128x55 : 0 < S128x55.numel
  slices_S128x64x64_o0_56_0_S128x1x56 : S128x64x64.Slices ![0, 56, 0] S128x1x56
  shapeCasts_S128x1x56_S128x56 : S128x1x56.ShapeCasts S128x56
  inb_S128x2016_S128x56_0_1540 : ∀ a, (![0, 1540] : Fin 2 → Nat) a + S128x56.size a ≤ S128x2016.size a
  h_S128x56 : 0 < S128x56.numel
  slices_S128x64x64_o0_57_0_S128x1x57 : S128x64x64.Slices ![0, 57, 0] S128x1x57
  shapeCasts_S128x1x57_S128x57 : S128x1x57.ShapeCasts S128x57
  inb_S128x2016_S128x57_0_1596 : ∀ a, (![0, 1596] : Fin 2 → Nat) a + S128x57.size a ≤ S128x2016.size a
  h_S128x57 : 0 < S128x57.numel
  slices_S128x64x64_o0_58_0_S128x1x58 : S128x64x64.Slices ![0, 58, 0] S128x1x58
  shapeCasts_S128x1x58_S128x58 : S128x1x58.ShapeCasts S128x58
  inb_S128x2016_S128x58_0_1653 : ∀ a, (![0, 1653] : Fin 2 → Nat) a + S128x58.size a ≤ S128x2016.size a
  h_S128x58 : 0 < S128x58.numel
  slices_S128x64x64_o0_59_0_S128x1x59 : S128x64x64.Slices ![0, 59, 0] S128x1x59
  shapeCasts_S128x1x59_S128x59 : S128x1x59.ShapeCasts S128x59
  inb_S128x2016_S128x59_0_1711 : ∀ a, (![0, 1711] : Fin 2 → Nat) a + S128x59.size a ≤ S128x2016.size a
  h_S128x59 : 0 < S128x59.numel
  slices_S128x64x64_o0_60_0_S128x1x60 : S128x64x64.Slices ![0, 60, 0] S128x1x60
  shapeCasts_S128x1x60_S128x60 : S128x1x60.ShapeCasts S128x60
  inb_S128x2016_S128x60_0_1770 : ∀ a, (![0, 1770] : Fin 2 → Nat) a + S128x60.size a ≤ S128x2016.size a
  h_S128x60 : 0 < S128x60.numel
  slices_S128x64x64_o0_61_0_S128x1x61 : S128x64x64.Slices ![0, 61, 0] S128x1x61
  shapeCasts_S128x1x61_S128x61 : S128x1x61.ShapeCasts S128x61
  inb_S128x2016_S128x61_0_1830 : ∀ a, (![0, 1830] : Fin 2 → Nat) a + S128x61.size a ≤ S128x2016.size a
  h_S128x61 : 0 < S128x61.numel
  slices_S128x64x64_o0_62_0_S128x1x62 : S128x64x64.Slices ![0, 62, 0] S128x1x62
  shapeCasts_S128x1x62_S128x62 : S128x1x62.ShapeCasts S128x62
  inb_S128x2016_S128x62_0_1891 : ∀ a, (![0, 1891] : Fin 2 → Nat) a + S128x62.size a ≤ S128x2016.size a
  h_S128x62 : 0 < S128x62.numel
  slices_S128x64x64_o0_63_0_S128x1x63 : S128x64x64.Slices ![0, 63, 0] S128x1x63
  shapeCasts_S128x1x63_S128x63 : S128x1x63.ShapeCasts S128x63
  inb_S128x2016_S128x63_0_1953 : ∀ a, (![0, 1953] : Fin 2 → Nat) a + S128x63.size a ≤ S128x2016.size a
  h_S128x63 : 0 < S128x63.numel
  dot_S128x64x256_S128x64x256_S128x64x64_2_2_1_1_0_0_wf : DotDims.WF S128x64x256 S128x64x256 S128x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x256.size a ≤ S8192x64x256.size a
  hwx0_0 : ∀ i : grid0.Coords, EltTy.bits .f32 = 32 ∨ (Rect.block (s := S8192x64x256) S128x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2016.size a ≤ S8192x2016.size a
  hwx0_1 : ∀ i : grid0.Coords, EltTy.bits .f32 = 32 ∨ (Rect.block (s := S8192x2016) S128x2016.size (cc0_transform_1 i) (hinb0_1 i)).WholeWords (EltTy.packing .f32)

variable [Facts₀]

def dot_S128x64x256_S128x64x256_S128x64x64_2_2_1_1_0_0 : DotDims S128x64x256 S128x64x256 S128x64x64 where
  lhsContracting := [2]
  rhsContracting := [2]
  lhsNonContracting := [1]
  rhsNonContracting := [1]
  lhsBatch := [0]
  rhsBatch := [0]
  wf := dot_S128x64x256_S128x64x256_S128x64x64_2_2_1_1_0_0_wf

abbrev win0_0 : Pipeline.Window sig grid0 :=
  Pipeline.Window.ofSpec (Memref.whole main_arg0) S128x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2016.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x256 : Shape := ⟨3, ![8192, 64, 256]⟩
abbrev S8192x64x64 : Shape := ⟨3, ![8192, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S8192x2016 : Shape := ⟨2, ![8192, 2016]⟩

abbrev nBuf : Space → Nat
  | .hbm => 137
  | .vmem => 0
  | .smem => 0
  | _ => 0

abbrev hbmTy0_0 (i : Nat) : BufTy := match i % 128 with
  | 0 => ⟨S8192x64x256, .f32⟩
  | 1 => ⟨S8192x64x64, .f32⟩
  | 2 => ⟨S_, .f32⟩
  | 3 => ⟨S64x64, .f32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .f32⟩
  | 11 => ⟨S64x64, .f32⟩
  | 12 => ⟨S64x64, .f32⟩
  | 13 => ⟨S_, .f32⟩
  | 14 => ⟨S64x64, .f32⟩
  | 15 => ⟨S64x64, .i1⟩
  | 16 => ⟨S4096, .i1⟩
  | 17 => ⟨S4096, .i32⟩
  | 18 => ⟨S_, .i32⟩
  | 19 => ⟨S_, .i32⟩
  | 20 => ⟨S4096, .i32⟩
  | 21 => ⟨S_, .i32⟩
  | 22 => ⟨S2016, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S_, .i32⟩
  | 36 => ⟨S4096, .i32⟩
  | 37 => ⟨S2016, .i32⟩
  | 38 => ⟨S_, .i32⟩
  | 39 => ⟨S_, .i32⟩
  | 40 => ⟨S2016, .i32⟩
  | 41 => ⟨S_, .i32⟩
  | 42 => ⟨S2016, .i32⟩
  | 43 => ⟨S2016, .i32⟩
  | 44 => ⟨S2016, .i32⟩
  | 45 => ⟨S_, .i32⟩
  | 46 => ⟨S2016, .i32⟩
  | 47 => ⟨S2016, .i1⟩
  | 48 => ⟨S2016, .i32⟩
  | 49 => ⟨S2016, .i32⟩
  | 50 => ⟨S_, .i32⟩
  | 51 => ⟨S2016, .i32⟩
  | 52 => ⟨S2016, .i1⟩
  | 53 => ⟨S2016, .i1⟩
  | 54 => ⟨S_, .i32⟩
  | 55 => ⟨S2016, .i32⟩
  | 56 => ⟨S2016, .i32⟩
  | 57 => ⟨S2016, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2016, .i32⟩
  | 65 => ⟨S2016, .i32⟩
  | 66 => ⟨S_, .i32⟩
  | 67 => ⟨S2016, .i32⟩
  | 68 => ⟨S2016, .i1⟩
  | 69 => ⟨S_, .i32⟩
  | 70 => ⟨S2016, .i32⟩
  | 71 => ⟨S2016, .i1⟩
  | 72 => ⟨S_, .i32⟩
  | 73 => ⟨S_, .i1⟩
  | 74 => ⟨S2016, .i1⟩
  | 75 => ⟨S2016, .i1⟩
  | 76 => ⟨S2016, .i1⟩
  | 77 => ⟨S2016, .i32⟩
  | 78 => ⟨S2016, .i32⟩
  | 79 => ⟨S2016, .i32⟩
  | 80 => ⟨S_, .i32⟩
  | 81 => ⟨S2016, .i32⟩
  | 82 => ⟨S2016, .i32⟩
  | 83 => ⟨S2016, .i32⟩
  | 84 => ⟨S_, .i32⟩
  | 85 => ⟨S2016, .i32⟩
  | 86 => ⟨S2016, .i1⟩
  | 87 => ⟨S2016, .i32⟩
  | 88 => ⟨S2016, .i32⟩
  | 89 => ⟨S_, .i32⟩
  | 90 => ⟨S2016, .i32⟩
  | 91 => ⟨S2016, .i1⟩
  | 92 => ⟨S2016, .i1⟩
  | 93 => ⟨S_, .i32⟩
  | 94 => ⟨S2016, .i32⟩
  | 95 => ⟨S2016, .i32⟩
  | 96 => ⟨S2016, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2016, .i32⟩
  | 104 => ⟨S2016, .i32⟩
  | 105 => ⟨S_, .i32⟩
  | 106 => ⟨S2016, .i32⟩
  | 107 => ⟨S2016, .i1⟩
  | 108 => ⟨S_, .i32⟩
  | 109 => ⟨S2016, .i32⟩
  | 110 => ⟨S2016, .i1⟩
  | 111 => ⟨S_, .i32⟩
  | 112 => ⟨S_, .i1⟩
  | 113 => ⟨S2016, .i1⟩
  | 114 => ⟨S2016, .i1⟩
  | 115 => ⟨S2016, .i1⟩
  | 116 => ⟨S2016, .i32⟩
  | 117 => ⟨S2016, .i32⟩
  | 118 => ⟨S2016, .i32⟩
  | 119 => ⟨S_, .i32⟩
  | 120 => ⟨S2016, .i32⟩
  | 121 => ⟨S2016, .i1⟩
  | 122 => ⟨S_, .i32⟩
  | 123 => ⟨S2016, .i32⟩
  | 124 => ⟨S2016, .i32⟩
  | 125 => ⟨S2016, .i32⟩
  | 126 => ⟨S_, .i32⟩
  | 127 => ⟨S2016, .i32⟩
  | _ => ⟨S8192x64x256, .f32⟩

abbrev hbmTy0_1 (i : Nat) : BufTy := match i % 128 with
  | 0 => ⟨S2016, .i1⟩
  | 1 => ⟨S_, .i32⟩
  | 2 => ⟨S2016, .i32⟩
  | 3 => ⟨S2016, .i32⟩
  | 4 => ⟨S2016, .i32⟩
  | 5 => ⟨S2016x1, .i32⟩
  | 6 => ⟨S2016x1, .i32⟩
  | 7 => ⟨S2016x2, .i32⟩
  | 8 => ⟨S8192x2016, .f32⟩
  | _ => ⟨S8192x64x256, .f32⟩

abbrev hbmTy (i : Nat) : BufTy := match i / 128 with
  | 0 => hbmTy0_0 i
  | 1 => hbmTy0_1 i
  | _ => ⟨S8192x64x256, .f32⟩

abbrev bufTy : (tb : Table) → Fin (tcTables nBuf tb) → BufTy
  | .hbm, ⟨i, _⟩ => hbmTy i
  | _, _ => ⟨S8192x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S8192x64x256_S8192x64x256_S8192x64x64_2_2_1_1_0_0_wf : DotDims.WF S8192x64x256 S8192x64x256 S8192x64x64 [2] [2] [1] [1] [0] [0]
  scatter_S2016_S4096x1_S4096_n_0_0_1_wf : ScatterDims.WF S2016 S4096x1 S4096 [] [0] [0] 1
  gather_S8192x64x64_S2016x2_S8192x2016_0_12_n_n_12_1_819211_wf : GatherDims.WF S8192x64x64 S2016x2 S8192x2016 [0] [1, 2] [] [1, 2] [] 1 ![8192, 1, 1]

variable [Facts₀]

def dot_S8192x64x256_S8192x64x256_S8192x64x64_2_2_1_1_0_0 : DotDims S8192x64x256 S8192x64x256 S8192x64x64 where
  lhsContracting := [2]
  rhsContracting := [2]
  lhsNonContracting := [1]
  rhsNonContracting := [1]
  lhsBatch := [0]
  rhsBatch := [0]
  wf := dot_S8192x64x256_S8192x64x256_S8192x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S8192x64x64_S2016x2_S8192x2016_0_12_n_n_12_1_819211 : GatherDims S8192x64x64 S2016x2 S8192x2016 where
  offsetDims := [0]
  collapsedSliceDims := [1, 2]
  operandBatchingDims := []
  startIndicesBatchingDims := []
  startIndexMap := [1, 2]
  indexVectorDim := 1
  sliceSizes := ![8192, 1, 1]
  wf := gather_S8192x64x64_S2016x2_S8192x2016_0_12_n_n_12_1_819211_wf

class Facts : Prop extends Facts₀ where

variable [Facts]
-- ==== Proof.LibStrips.lean ====
/-
  A two-axis buffer written in full-height column strips.

  A list of stores (last made first) whose rectangles are unit-stride, span every row, and stack
  side by side — the first of the list ending at column `hi`, each next one ending where the one
  before it begins, the last beginning at column 0 — covers every element in a column below `hi`.
  The stacking is a computation on the rectangles' numerals alone (the payloads are never looked at),
  one step per store.
-/
import Idealize.ShloMosaic.Lib.Pipeline.Value

namespace Idealize.ShloMosaic.View

variable {Val : EltTy → Type} {R C : ℕ} {e : EltTy}

/-- Whether the stores are full-height unit-stride strips stacked leftwards from column `hi` down to column 0. -/
def Piece.strips : List (Piece Val (⟨2, ![R, C]⟩ : Shape) e) → ℕ → Bool
  | [], hi => decide (hi = 0)
  | p :: L, hi =>
    decide (p.1.off (0 : Fin 2) = 0 ∧ p.1.size (0 : Fin 2) = R ∧ p.1.stride (0 : Fin 2) = 1 ∧ p.1.stride (1 : Fin 2) = 1
      ∧ p.1.off (1 : Fin 2) + p.1.size (1 : Fin 2) = hi) && Piece.strips L (p.1.off (1 : Fin 2))

/-- Stacked strips cover every element whose column is below `hi`. -/
theorem cover_of_strips : ∀ (L : List (Piece Val (⟨2, ![R, C]⟩ : Shape) e)) (hi : ℕ), Piece.strips L hi = true →
    ∀ y : (⟨2, ![R, C]⟩ : Shape).Idx, (y (1 : Fin 2)).val < hi → ∃ p ∈ L, y ∈ p.1.set
  | [], hi, h, y, hy => by
    simp only [Piece.strips, decide_eq_true_eq] at h
    omega
  | p :: L, hi, h, y, hy => by
    simp only [Piece.strips, Bool.and_eq_true, decide_eq_true_eq] at h
    obtain ⟨⟨h0, hR, hs0, hs1, hhi⟩, hL⟩ := h
    by_cases hlo : p.1.off (1 : Fin 2) ≤ (y (1 : Fin 2)).val
    · refine ⟨p, List.mem_cons_self, p.1.toLoadRect.mem_set.mpr fun a => ?_⟩
      match a with
      | ⟨0, _⟩ =>
        refine ⟨(y (0 : Fin 2)).val, ?_, ?_⟩
        · have := (y (0 : Fin 2)).isLt
          show (y (0 : Fin 2)).val < p.1.size (0 : Fin 2)
          rw [hR]; exact this
        · show (y (0 : Fin 2)).val = p.1.off (0 : Fin 2) + p.1.stride (0 : Fin 2) * (y (0 : Fin 2)).val
          rw [h0, hs0]; omega
      | ⟨1, _⟩ =>
        refine ⟨(y (1 : Fin 2)).val - p.1.off (1 : Fin 2), ?_, ?_⟩
        · show (y (1 : Fin 2)).val - p.1.off (1 : Fin 2) < p.1.size (1 : Fin 2)
          omega
        · show (y (1 : Fin 2)).val = p.1.off (1 : Fin 2) + p.1.stride (1 : Fin 2) * ((y (1 : Fin 2)).val - p.1.off (1 : Fin 2))
          rw [hs1]; omega
    · obtain ⟨q, hq, hyq⟩ := cover_of_strips L _ hL y (by omega)
      exact ⟨q, List.mem_cons_of_mem _ hq, hyq⟩

end Idealize.ShloMosaic.View
-- ==== Proof.KGram.lean ====
/-
  The kernel's Gram block read at an entry.

  The block of shape `[128, 64, 256]` is cast to bf16 — at the ideal values a change of float format
  is the identity — and multiplied with itself by the kernel's matrix product (batch axes `[0] × [0]`, contracted axes
  `[2] × [2]`) into a zero accumulator.  At entry `(b, i, j)` the product is the sum over the
  contraction index of the operands' products at the dot's operand indices; the contraction index has
  one coordinate `d < 256`, the left operand's index is `(b, i, d)` and the right operand's `(b, j, d)`.
  So the entry is `∑ d < 256, x (b, i, d) · x (b, j, d)`.
-/
import proofs.«140513_j44092134261025_1_alg».proof.Proof.Gen.KernelIdeal.Skeleton
import Idealize.ShloMosaic.Lib.ValueIdx
import Idealize.ShloMosaic.PureOps.Ideal.Laws

noncomputable section

open scoped BigOperators

namespace Cert.KernelIdeal.KGram

open Cert.KernelIdeal Idealize.ShloMosaic Idealize.ShloMosaic.ValueIdx

/-- The dot contracts one axis … -/
theorem contr_rank : (dot_S128x64x256_S128x64x256_S128x64x64_2_2_1_1_0_0).contr.rank = 1 := rfl
/-- … of extent 256. -/
theorem contr_size :
    (dot_S128x64x256_S128x64x256_S128x64x64_2_2_1_1_0_0).contr.size ⟨0, by rw [contr_rank]; exact Nat.one_pos⟩ = 256 := rfl

/-- The left operand's batch axis reads the result's batch coordinate. -/
theorem lhs_0 (j : S128x64x64.Idx) (k : (dot_S128x64x256_S128x64x256_S128x64x64_2_2_1_1_0_0).contr.Idx) :
    ((dot_S128x64x256_S128x64x256_S128x64x64_2_2_1_1_0_0).lhsIdx j k 0).val = (j 0).val := rfl

/-- The left operand's row axis reads the result's row coordinate. -/
theorem lhs_1 (j : S128x64x64.Idx) (k : (dot_S128x64x256_S128x64x256_S128x64x64_2_2_1_1_0_0).contr.Idx) :
    ((dot_S128x64x256_S128x64x256_S128x64x64_2_2_1_1_0_0).lhsIdx j k 1).val = (j 1).val := rfl

/-- The left operand's contracted axis reads the contraction coordinate. -/
theorem lhs_2 (j : S128x64x64.Idx) (k : (dot_S128x64x256_S128x64x256_S128x64x64_2_2_1_1_0_0).contr.Idx) :
    ((dot_S128x64x256_S128x64x256_S128x64x64_2_2_1_1_0_0).lhsIdx j k 2).val = (k ⟨0, by rw [contr_rank]; exact Nat.one_pos⟩).val :=
  DotDims.lhsIdx_val_of_single _ rfl j k

/-- The right operand's batch axis reads the result's batch coordinate. -/
theorem rhs_0 (j : S128x64x64.Idx) (k : (dot_S128x64x256_S128x64x256_S128x64x64_2_2_1_1_0_0).contr.Idx) :
    ((dot_S128x64x256_S128x64x256_S128x64x64_2_2_1_1_0_0).rhsIdx j k 0).val = (j 0).val := rfl

/-- The right operand's row axis reads the result's column coordinate. -/
theorem rhs_1 (j : S128x64x64.Idx) (k : (dot_S128x64x256_S128x64x256_S128x64x64_2_2_1_1_0_0).contr.Idx) :
    ((dot_S128x64x256_S128x64x256_S128x64x64_2_2_1_1_0_0).rhsIdx j k 1).val = (j 2).val := rfl

/-- The right operand's contracted axis reads the contraction coordinate. -/
theorem rhs_2 (j : S128x64x64.Idx) (k : (dot_S128x64x256_S128x64x256_S128x64x64_2_2_1_1_0_0).contr.Idx) :
    ((dot_S128x64x256_S128x64x256_S128x64x64_2_2_1_1_0_0).rhsIdx j k 2).val = (k ⟨0, by rw [contr_rank]; exact Nat.one_pos⟩).val :=
  DotDims.rhsIdx_val_of_single _ rfl j k

/-- The left operand's index at result entry `(b, i, j)` and contraction coordinate `d` is `(b, i, d)`. -/
theorem lhsIdx_eq (b : Fin 128) (i j : Fin 64) (d : Fin 256) :
    (dot_S128x64x256_S128x64x256_S128x64x64_2_2_1_1_0_0).lhsIdx (ix3 b i j) ((contrEquiv1 dot_S128x64x256_S128x64x256_S128x64x64_2_2_1_1_0_0 256 contr_rank contr_size).symm d) = ix3 b i d := by
  funext a
  match a with
  | ⟨0, _⟩ => exact Fin.ext (lhs_0 _ _)
  | ⟨1, _⟩ => exact Fin.ext (lhs_1 _ _)
  | ⟨2, _⟩ => exact Fin.ext ((lhs_2 _ _).trans (contrEquiv1_symm_val _ 256 contr_rank contr_size d))

/-- The right operand's index there is `(b, j, d)`. -/
theorem rhsIdx_eq (b : Fin 128) (i j : Fin 64) (d : Fin 256) :
    (dot_S128x64x256_S128x64x256_S128x64x64_2_2_1_1_0_0).rhsIdx (ix3 b i j) ((contrEquiv1 dot_S128x64x256_S128x64x256_S128x64x64_2_2_1_1_0_0 256 contr_rank contr_size).symm d) = ix3 b j d := by
  funext a
  match a with
  | ⟨0, _⟩ => exact Fin.ext (rhs_0 _ _)
  | ⟨1, _⟩ => exact Fin.ext (rhs_1 _ _)
  | ⟨2, _⟩ => exact Fin.ext ((rhs_2 _ _).trans (contrEquiv1_symm_val _ 256 contr_rank contr_size d))

/-- The Gram block read at an entry: the inner product of rows `i` and `j` of batch `b`. -/
theorem pay5_apply (x0 : Vec Ideal S128x64x256 .f32) (b : Fin 128) (i j : Fin 64) :
    Gen.k0_pay5 (F := Ideal) x0 (ix3 b i j) = ∑ d : Fin 256, x0 (ix3 b i d) * x0 (ix3 b j d) := by
  unfold Gen.k0_pay5
  simp only [matmul]
  rw [Ideal.matmul_constant_zero_apply,
    ← Equiv.sum_comp (contrEquiv1 dot_S128x64x256_S128x64x256_S128x64x64_2_2_1_1_0_0 256 contr_rank contr_size).symm]
  exact Finset.sum_congr rfl fun d _ => by rw [lhsIdx_eq, rhsIdx_eq]; rfl

end Cert.KernelIdeal.KGram

end
-- ==== Proof.Tri.lean ====
/-
  The strict lower triangle of a 64 × 64 grid, enumerated row by row.

  The pairs (i, j) with j < i < 64, listed in row-major order, are numbered k = off i + j with
  off i = i (i - 1) / 2 = 0 + 1 + … + (i - 1); there are off 64 = 2016 of them.  `row k` and `col k`
  invert that numbering.  On the flattened grid (position q = 64 i + j) the triangle is the set
  { q | q % 64 < q / 64 } (`mask`); `cnt p` counts its members at positions ≤ p, and `flat k` counts
  the positions whose count is at most k — which is the position of the k-th member of the triangle,
  64 · row k + col k.
-/
import Mathlib.Data.Finset.Card
import Mathlib.Data.Finset.Interval
import Mathlib.Algebra.BigOperators.Intervals
import Mathlib.Tactic.Ring
import Mathlib.Tactic.Linarith

namespace Cert.Tri

/-- Number of pairs in the rows before row `i`. -/
def off (i : ℕ) : ℕ := i * (i - 1) / 2

/-- Position `q = 64 i + j` of the flattened grid lies strictly below the diagonal. -/
def mask (q : ℕ) : Bool := decide (q % 64 < q / 64)

/-- How many positions `≤ p` lie strictly below the diagonal. -/
def cnt (p : ℕ) : ℕ := ((Finset.range (p + 1)).filter (fun q => mask q = true)).card

/-- How many of the 4096 positions have count at most `k`. -/
def flat (k : ℕ) : ℕ := ((Finset.range 4096).filter (fun p => cnt p ≤ k)).card

/-- The row of the `k`-th pair: the number of rows `1 ≤ i ≤ 63` that start at or before `k`. -/
def row (k : ℕ) : ℕ := ((Finset.Icc 1 63).filter (fun i => off i ≤ k)).card

/-- The column of the `k`-th pair. -/
def col (k : ℕ) : ℕ := k - off (row k)

theorem off_succ (i : ℕ) : off (i + 1) = off i + i := by
  unfold off
  cases i with
  | zero => simp
  | succ n =>
    simp only [Nat.add_sub_cancel]
    have h : (n + 1 + 1) * (n + 1) = (n + 1) * n + 2 * (n + 1) := by ring
    rw [h, Nat.add_mul_div_left _ _ (by norm_num : 0 < 2)]

theorem off_zero : off 0 = 0 := by simp [off]

theorem off_one : off 1 = 0 := by simp [off]

theorem off_two : off 2 = 1 := by simp [off]

theorem off_sixtyfour : off 64 = 2016 := by simp [off]

/-- `off` is monotone: each step adds `i ≥ 0`. -/
theorem off_mono : Monotone off :=
  monotone_nat_of_le_succ (fun i => by rw [off_succ]; exact Nat.le_add_right _ _)

/-- If `off i ≤ k < off (i + 1)` with `1 ≤ i ≤ 63`, the rows starting at or before `k` are exactly
`1, …, i`. -/
theorem row_eq_of (k i : ℕ) (hi1 : 1 ≤ i) (hi : i ≤ 63) (h1 : off i ≤ k) (h2 : k < off (i + 1)) :
    row k = i := by
  unfold row
  have hset : (Finset.Icc 1 63).filter (fun i' => off i' ≤ k) = Finset.Icc 1 i := by
    ext x
    simp only [Finset.mem_filter, Finset.mem_Icc]
    constructor
    · rintro ⟨⟨hx1, _⟩, hx3⟩
      refine ⟨hx1, ?_⟩
      by_contra hlt
      have hlt' : i < x := not_le.mp hlt
      have hm : off (i + 1) ≤ off x := off_mono (Nat.succ_le_of_lt hlt')
      omega
    · rintro ⟨hx1, hx2⟩
      exact ⟨⟨hx1, by omega⟩, le_trans (off_mono hx2) h1⟩
  rw [hset, Nat.card_Icc]
  omega

/-- Every `k < off (n + 1)` lies in exactly one interval `[off i, off (i + 1))` with `1 ≤ i ≤ n`. -/
theorem exists_row (k n : ℕ) (hn : 1 ≤ n) (hk : k < off (n + 1)) :
    ∃ i, 1 ≤ i ∧ i ≤ n ∧ off i ≤ k ∧ k < off (i + 1) := by
  induction n, hn using Nat.le_induction with
  | base => exact ⟨1, le_refl _, le_refl _, by simp [off], hk⟩
  | succ n hn ih =>
    by_cases h : k < off (n + 1)
    · obtain ⟨i, h1, h2, h3, h4⟩ := ih h
      exact ⟨i, h1, by omega, h3, h4⟩
    · exact ⟨n + 1, by omega, le_refl _, by omega, hk⟩

theorem row_spec (k : ℕ) (hk : k < 2016) :
    1 ≤ row k ∧ row k ≤ 63 ∧ off (row k) ≤ k ∧ k < off (row k + 1) := by
  obtain ⟨i, h1, h2, h3, h4⟩ := exists_row k 63 (by norm_num) (by rw [off_sixtyfour]; exact hk)
  have hr : row k = i := row_eq_of k i h1 h2 h3 h4
  rw [hr]
  exact ⟨h1, h2, h3, h4⟩

theorem row_off_add (i j : ℕ) (hi : i < 64) (hj : j < i) : row (off i + j) = i := by
  apply row_eq_of
  · omega
  · omega
  · omega
  · rw [off_succ]; omega

theorem col_off_add (i j : ℕ) (hi : i < 64) (hj : j < i) : col (off i + j) = j := by
  unfold col
  rw [row_off_add i j hi hj]
  omega

theorem row_lt (k : ℕ) (hk : k < 2016) : row k < 64 := by
  have := row_spec k hk
  omega

theorem col_lt_row (k : ℕ) (hk : k < 2016) : col k < row k := by
  obtain ⟨_, _, h3, h4⟩ := row_spec k hk
  rw [off_succ] at h4
  unfold col
  omega

theorem off_row_add_col (k : ℕ) (hk : k < 2016) : off (row k) + col k = k := by
  obtain ⟨_, _, h3, _⟩ := row_spec k hk
  unfold col
  omega

theorem cnt_zero : cnt 0 = 0 := by
  simp [cnt, mask]

/-- Position `p + 1` adds one to the count exactly when it lies below the diagonal. -/
theorem cnt_succ (p : ℕ) : cnt (p + 1) = cnt p + (if mask (p + 1) = true then 1 else 0) := by
  unfold cnt
  rw [Finset.range_add_one (n := p + 1), Finset.filter_insert]
  split_ifs with h
  · rw [Finset.card_insert_of_notMem]
    simp
  · rfl

theorem cnt_mono : Monotone cnt :=
  monotone_nat_of_le_succ (fun p => by rw [cnt_succ]; exact Nat.le_add_right _ _)

/-- Closed form: at position `64 i + j` the count is the `off i` members of the rows before row `i`
plus the `min (j + 1) i` members among the first `j + 1` positions of row `i`. -/
theorem cnt_closed (p : ℕ) (hp : p < 4096) :
    cnt p = off (p / 64) + min (p % 64 + 1) (p / 64) := by
  induction p with
  | zero => simp [cnt_zero, off]
  | succ p ih =>
    have ih := ih (by omega)
    rw [cnt_succ, ih]
    by_cases hj : p % 64 = 63
    · have h1 : (p + 1) / 64 = p / 64 + 1 := by omega
      have h2 : (p + 1) % 64 = 0 := by omega
      have hm : mask (p + 1) = true := by simp [mask, h1, h2]
      rw [h1, h2, off_succ, if_pos hm]
      omega
    · have h1 : (p + 1) / 64 = p / 64 := by omega
      have h2 : (p + 1) % 64 = p % 64 + 1 := by omega
      rw [h1, h2]
      simp only [mask, h1, h2, decide_eq_true_eq]
      split_ifs <;> omega

theorem cnt_le (p : ℕ) (hp : p < 4096) : cnt p ≤ 2016 := by
  have h := cnt_mono (show p ≤ 4095 by omega)
  have h2 := cnt_closed 4095 (by norm_num)
  have h3 : off 63 = 1953 := by simp [off]
  norm_num [h3] at h2
  omega

/-- The position of the `k`-th member of the triangle. -/
theorem flat_eq (k : ℕ) (hk : k < 2016) : flat k = 64 * row k + col k := by
  obtain ⟨hr1, hr63, _, _⟩ := row_spec k hk
  have hc := col_lt_row k hk
  have hkk := off_row_add_col k hk
  generalize row k = i at *
  generalize col k = j at *
  unfold flat
  have hset : (Finset.range 4096).filter (fun p => cnt p ≤ k) = Finset.range (64 * i + j) := by
    ext p
    simp only [Finset.mem_filter, Finset.mem_range]
    constructor
    · rintro ⟨hp, hle⟩
      by_contra hge
      have hge' : 64 * i + j ≤ p := not_lt.mp hge
      have hm := cnt_mono hge'
      have hcl := cnt_closed (64 * i + j) (by omega)
      have d1 : (64 * i + j) / 64 = i := by omega
      have d2 : (64 * i + j) % 64 = j := by omega
      rw [d1, d2] at hcl
      omega
    · intro hlt
      refine ⟨by omega, ?_⟩
      have hm := cnt_mono (show p ≤ 64 * i + j - 1 by omega)
      have hcl := cnt_closed (64 * i + j - 1) (by omega)
      by_cases hj0 : j = 0
      · have d1 : (64 * i + j - 1) / 64 = i - 1 := by omega
        have d2 : (64 * i + j - 1) % 64 = 63 := by omega
        rw [d1, d2] at hcl
        have hs := off_succ (i - 1)
        have he : i - 1 + 1 = i := by omega
        rw [he] at hs
        omega
      · have d1 : (64 * i + j - 1) / 64 = i := by omega
        have d2 : (64 * i + j - 1) % 64 = j - 1 := by omega
        rw [d1, d2] at hcl
        omega
  rw [hset, Finset.card_range]

end Cert.Tri
-- ==== Proof.Spec.lean ====
/-
  What both programs compute, as one function of the input array.

  For a batch `b` and a pair number `k < 2016`, with `(i, j) = (row k, col k)` the `k`-th pair of the
  strict lower triangle `j < i < 64` in row-major order, the result is the inner product of rows
  `i` and `j` of batch `b`:  `G x (b, k) = ∑ d < 256, x (b, i, d) · x (b, j, d)`  on the extended reals.
-/
import Idealize.ShloMosaic.PureOps.Ideal
import Idealize.ShloMosaic.Lib.ValueIdx
import proofs.«140513_j44092134261025_1_alg».proof.Proof.Tri

noncomputable section

open scoped BigOperators

namespace Cert.Spec

open Idealize.ShloMosaic Idealize.ShloMosaic.ValueIdx

/-- The row of pair `k` as a coordinate of the 64-row axis. -/
def rowF (k : Fin 2016) : Fin 64 := ⟨Cert.Tri.row k.val % 64, Nat.mod_lt _ (by norm_num)⟩
/-- The column of pair `k` as a coordinate of the 64-row axis. -/
def colF (k : Fin 2016) : Fin 64 := ⟨Cert.Tri.col k.val % 64, Nat.mod_lt _ (by norm_num)⟩

/-- One entry of the Gram array: the inner product of rows `i` and `j` of batch `b`. -/
def gramAt (x : (⟨3, ![8192, 64, 256]⟩ : Shape).Idx → EReal) (b : Fin 8192) (i j : Fin 64) : EReal :=
  ∑ d : Fin 256, x (ix3 b i d) * x (ix3 b j d)

/-- The result: entry `(b, k)` is the Gram entry of batch `b` at the `k`-th pair of the strict lower triangle. -/
def G (x : (⟨3, ![8192, 64, 256]⟩ : Shape).Idx → EReal) : (⟨2, ![8192, 2016]⟩ : Shape).Idx → EReal :=
  fun y => gramAt x (y 0) (rowF (y 1)) (colF (y 1))

theorem G_apply (x : (⟨3, ![8192, 64, 256]⟩ : Shape).Idx → EReal) (b : Fin 8192) (k : Fin 2016) :
    G x (ix2 b k) = gramAt x b (rowF k) (colF k) := rfl

/-- The pair numbered `off i + j` is `(i, j)`. -/
theorem rowF_off (i j : ℕ) (hi : i < 64) (hj : j < i) (h : Cert.Tri.off i + j < 2016) :
    rowF ⟨Cert.Tri.off i + j, h⟩ = ⟨i, hi⟩ := by
  apply Fin.ext
  show Cert.Tri.row (Cert.Tri.off i + j) % 64 = i
  rw [Cert.Tri.row_off_add i j hi hj, Nat.mod_eq_of_lt hi]

theorem colF_off (i j : ℕ) (hi : i < 64) (hj : j < i) (h : Cert.Tri.off i + j < 2016) :
    colF ⟨Cert.Tri.off i + j, h⟩ = ⟨j, by omega⟩ := by
  apply Fin.ext
  show Cert.Tri.col (Cert.Tri.off i + j) % 64 = j
  rw [Cert.Tri.col_off_add i j hi hj, Nat.mod_eq_of_lt (by omega)]

end Cert.Spec

end
-- ==== Proof.KPieces.lean ====
/-
  What the kernel body leaves in its output block, as one function of the input block.

  The body forms the Gram block `Z[b, i, j] = ∑ d < 256, x[b, i, d] · x[b, j, d]` of its `[128, 64, 256]` input
  block and stores, for `n = 1, …, 63`, row `n` of `Z` cut to its first `n` columns — the `[128, n]` array
  `Z[:, n, 0:n]` — at columns `[off n, off n + n)` of the `[128, 2016]` output block, `off n = n (n - 1) / 2`.
  Column `off n + j` with `j < n` is the pair numbered `off n + j` of the strict lower triangle, which is
  `(n, j)`; so every strip is the ONE function `(b, k) ↦ ∑ d, x[b, row k, d] · x[b, col k, d]` read under its
  rectangle.  The strips cover the block, hence the block read back is that function everywhere.
-/
import proofs.«140513_j44092134261025_1_alg».proof.Proof.KernelIdealFrameP
import proofs.«140513_j44092134261025_1_alg».proof.Proof.KGram
import proofs.«140513_j44092134261025_1_alg».proof.Proof.Spec
import proofs.«140513_j44092134261025_1_alg».proof.Proof.Tri
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KPieces

open Cert.KernelIdeal Cert.KernelIdeal.Gen Cert.KernelIdeal.GenP Idealize.ShloMosaic Idealize.ShloMosaic.ValueIdx
open Idealize.ShloMosaic.Tactic

/-- The inner product of rows `i` and `j` of batch `b` of the input block. -/
def dotRows (x0 : Vec Ideal S128x64x256 .f32) (b : Fin 128) (i j : Fin 64) : EReal :=
  ∑ d : Fin 256, x0 (ix3 b i d) * x0 (ix3 b j d)

theorem dotRows_congr (x0 : Vec Ideal S128x64x256 .f32) {b b' : Fin 128} {i i' j j' : Fin 64}
    (hb : b = b') (hi : i = i') (hj : j = j') : dotRows x0 b i j = dotRows x0 b' i' j' := by
  subst hb hi hj; rfl

/-- What the output block holds, as a function of the input block: at `(b, k)` the inner product of rows
    `row k` and `col k` of batch `b`. -/
def G (x0 : Vec Ideal S128x64x256 .f32) : S128x2016.Idx → EReal :=
  fun y => dotRows x0 (y 0) (Cert.Spec.rowF (y 1)) (Cert.Spec.colF (y 1))

/-- Row `n` of a `[128, 64, 64]` array cut to its first `n` columns and viewed `[128, n]`: at `(b, j)` it reads
    the array at `(b, n, j)`. -/
theorem sliceRow_apply {α : Type} (n : ℕ) (hn : n < 64) (z : (⟨3, ![128, 64, 64]⟩ : Shape).Idx → α)
    (hs : (⟨3, ![128, 64, 64]⟩ : Shape).Slices ![0, n, 0] ⟨3, ![128, 1, n]⟩)
    (hc : (⟨3, ![128, 1, n]⟩ : Shape).ShapeCasts ⟨2, ![128, n]⟩)
    (x : (⟨2, ![128, n]⟩ : Shape).Idx) :
    shapeCast ⟨2, ![128, n]⟩ (extractStridedSlice ⟨3, ![128, 1, n]⟩ ![0, n, 0] z hs) hc x
      = z (ix3 (x 0 : Fin 128) (⟨n, hn⟩ : Fin 64) (⟨(x 1).val, lt_trans (idx2_lt1 x) hn⟩ : Fin 64)) := by
  refine (shapeCast_apply _ hc x (ix3 (x 0 : Fin 128) (0 : Fin 1) (x 1 : Fin n)) ?_).trans ?_
  · rw [Shape.rowMajor_val_three, Shape.rowMajor_val_two]
    show ((x 0).val * 1 + 0) * n + (x 1).val = (x 0).val * n + (x 1).val
    rw [Nat.mul_one, Nat.add_zero]
  · refine extractStridedSlice_apply _ z hs _ _ (fun a => ?_)
    match a with
    | ⟨0, _⟩ => show (x 0).val = 0 + (x 0).val; omega
    | ⟨1, _⟩ => show n = n + 0; omega
    | ⟨2, _⟩ => show (x 1).val = 0 + (x 1).val; omega

/-- The same of the Gram block: the inner product of rows `n` and `j` of batch `b`. -/
theorem piece_apply (n : ℕ) (hn : n < 64) (x0 : Vec Ideal S128x64x256 .f32)
    (hs : (⟨3, ![128, 64, 64]⟩ : Shape).Slices ![0, n, 0] ⟨3, ![128, 1, n]⟩)
    (hc : (⟨3, ![128, 1, n]⟩ : Shape).ShapeCasts ⟨2, ![128, n]⟩)
    (x : (⟨2, ![128, n]⟩ : Shape).Idx) :
    shapeCast ⟨2, ![128, n]⟩ (extractStridedSlice ⟨3, ![128, 1, n]⟩ ![0, n, 0] (Gen.k0_pay5 (F := Ideal) x0) hs) hc x
      = dotRows x0 (x 0) (⟨n, hn⟩ : Fin 64) (⟨(x 1).val, lt_trans (idx2_lt1 x) hn⟩ : Fin 64) :=
  (sliceRow_apply n hn (Gen.k0_pay5 (F := Ideal) x0) hs hc x).trans (KGram.pay5_apply x0 _ _ _)

/-- The block's function under the strip of row `n` — columns `[off n, off n + n)` —: at the strip's `(b, j)` the
    pair numbered `off n + j` is `(n, j)`. -/
theorem G_emb (n : ℕ) (hn : n < 64) (o : ℕ) (ho : o = Cert.Tri.off n)
    (inb : ∀ a, (![0, o] : Fin 2 → ℕ) a + (![128, n] : Fin 2 → ℕ) a ≤ S128x2016.size a)
    (x0 : Vec Ideal S128x64x256 .f32) (x : (⟨2, ![128, n]⟩ : Shape).Idx) :
    G x0 ((Rect.unit (s := S128x2016) ![0, o] ![128, n] inb).emb x)
      = dotRows x0 (x 0) (⟨n, hn⟩ : Fin 64) (⟨(x 1).val, lt_trans (idx2_lt1 x) hn⟩ : Fin 64) := by
  have hx1 : (x 1).val < n := idx2_lt1 x
  have hb : o + n ≤ 2016 := inb 1
  have h : Cert.Tri.off n + (x 1).val < 2016 := by omega
  have e0 : ((Rect.unit (s := S128x2016) ![0, o] ![128, n] inb).emb x 0 : Fin 128) = x 0 :=
    Fin.ext (by show 0 + 1 * (x 0).val = (x 0).val; omega)
  have e1 : ((Rect.unit (s := S128x2016) ![0, o] ![128, n] inb).emb x 1 : Fin 2016) = ⟨Cert.Tri.off n + (x 1).val, h⟩ :=
    Fin.ext (by show o + 1 * (x 1).val = Cert.Tri.off n + (x 1).val; omega)
  exact dotRows_congr x0 e0 ((congrArg Cert.Spec.rowF e1).trans (Cert.Spec.rowF_off n (x 1).val hn hx1 h))
    ((congrArg Cert.Spec.colF e1).trans (Cert.Spec.colF_off n (x 1).val hn hx1 h))

/-- A strip's payload is the block's function under the strip. -/
theorem strip_eq (n : ℕ) (hn : n < 64) (o : ℕ) (ho : o = Cert.Tri.off n)
    (inb : ∀ a, (![0, o] : Fin 2 → ℕ) a + (![128, n] : Fin 2 → ℕ) a ≤ S128x2016.size a)
    (x0 : Vec Ideal S128x64x256 .f32)
    (hs : (⟨3, ![128, 64, 64]⟩ : Shape).Slices ![0, n, 0] ⟨3, ![128, 1, n]⟩)
    (hc : (⟨3, ![128, 1, n]⟩ : Shape).ShapeCasts ⟨2, ![128, n]⟩)
    (x : (⟨2, ![128, n]⟩ : Shape).Idx) :
    shapeCast ⟨2, ![128, n]⟩ (extractStridedSlice ⟨3, ![128, 1, n]⟩ ![0, n, 0] (Gen.k0_pay5 (F := Ideal) x0) hs) hc x
      = G x0 ((Rect.unit (s := S128x2016) ![0, o] ![128, n] inb).emb x) :=
  (piece_apply n hn x0 hs hc x).trans (G_emb n hn o ho inb x0 x).symm

/-- THE OUTPUT BLOCK after the body: the 63 stored strips — row `n` of the Gram block cut to its first `n` columns, at
    columns `[off n, off n + n)`, for `n = 1, …, 63` — cover the block, and each is the block's function under its
    strip; so the block read back at `(b, k)` is the inner product of rows `row k` and `col k` of batch `b`. -/
theorem out_apply (c : Dev nD) (i : grid0.Coords) (arg1 : Memref sig .tc .vmem S128x64x256 .f32) (harg1 : arg1.IsWhole) (arg2 : Memref sig .tc .vmem S128x2016 .f32) (harg2 : arg2.IsWhole)
    (x0 : Vec Ideal S128x64x256 .f32) (b : Fin 128) (k : Fin 2016) :
    GenP.out0_A_1 (F := Ideal) c i arg1 harg1 arg2 harg2 x0 (ix2 b k)
      = ∑ d : Fin 256, x0 (ix3 b (Cert.Spec.rowF k) d) * x0 (ix3 b (Cert.Spec.colF k) d) := by
  have hz : (![0, 0, 0] : Fin 3 → ℕ) = fun _ => 0 := by
    funext a; match a with | ⟨0, _⟩ => rfl | ⟨1, _⟩ => rfl | ⟨2, _⟩ => rfl
  unfold GenP.out0_A_1
  rw [View.read_writes_eq_canon _ _ _ (GenP.cover0_A_1 c i arg1 harg1 arg2 harg2 x0)]
  refine (View.canon_apply_of_pieces (G x0) _ ?_ (ix2 b k) (GenP.cover0_A_1 c i arg1 harg1 arg2 harg2 x0 (ix2 b k))).trans rfl
  unfold kernelRun0_A
  dsimp only
  sl_unfold_words
  simp only [View.readAt_eq_ld, harg1.read_unread, View.ld_unit_zero (S := S128x64x256) hz]
  simp only [List.mem_cons, forall_eq_or_imp, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun x => strip_eq 63 (by norm_num) 1953 (by decide) _ x0 _ _ x
  · exact fun x => strip_eq 62 (by norm_num) 1891 (by decide) _ x0 _ _ x
  · exact fun x => strip_eq 61 (by norm_num) 1830 (by decide) _ x0 _ _ x
  · exact fun x => strip_eq 60 (by norm_num) 1770 (by decide) _ x0 _ _ x
  · exact fun x => strip_eq 59 (by norm_num) 1711 (by decide) _ x0 _ _ x
  · exact fun x => strip_eq 58 (by norm_num) 1653 (by decide) _ x0 _ _ x
  · exact fun x => strip_eq 57 (by norm_num) 1596 (by decide) _ x0 _ _ x
  · exact fun x => strip_eq 56 (by norm_num) 1540 (by decide) _ x0 _ _ x
  · exact fun x => strip_eq 55 (by norm_num) 1485 (by decide) _ x0 _ _ x
  · exact fun x => strip_eq 54 (by norm_num) 1431 (by decide) _ x0 _ _ x
  · exact fun x => strip_eq 53 (by norm_num) 1378 (by decide) _ x0 _ _ x
  · exact fun x => strip_eq 52 (by norm_num) 1326 (by decide) _ x0 _ _ x
  · exact fun x => strip_eq 51 (by norm_num) 1275 (by decide) _ x0 _ _ x
  · exact fun x => strip_eq 50 (by norm_num) 1225 (by decide) _ x0 _ _ x
  · exact fun x => strip_eq 49 (by norm_num) 1176 (by decide) _ x0 _ _ x
  · exact fun x => strip_eq 48 (by norm_num) 1128 (by decide) _ x0 _ _ x
  · exact fun x => strip_eq 47 (by norm_num) 1081 (by decide) _ x0 _ _ x
  · exact fun x => strip_eq 46 (by norm_num) 1035 (by decide) _ x0 _ _ x
  · exact fun x => strip_eq 45 (by norm_num) 990 (by decide) _ x0 _ _ x
  · exact fun x => strip_eq 44 (by norm_num) 946 (by decide) _ x0 _ _ x
  · exact fun x => strip_eq 43 (by norm_num) 903 (by decide) _ x0 _ _ x
  · exact fun x => strip_eq 42 (by norm_num) 861 (by decide) _ x0 _ _ x
  · exact fun x => strip_eq 41 (by norm_num) 820 (by decide) _ x0 _ _ x
  · exact fun x => strip_eq 40 (by norm_num) 780 (by decide) _ x0 _ _ x
  · exact fun x => strip_eq 39 (by norm_num) 741 (by decide) _ x0 _ _ x
  · exact fun x => strip_eq 38 (by norm_num) 703 (by decide) _ x0 _ _ x
  · exact fun x => strip_eq 37 (by norm_num) 666 (by decide) _ x0 _ _ x
  · exact fun x => strip_eq 36 (by norm_num) 630 (by decide) _ x0 _ _ x
  · exact fun x => strip_eq 35 (by norm_num) 595 (by decide) _ x0 _ _ x
  · exact fun x => strip_eq 34 (by norm_num) 561 (by decide) _ x0 _ _ x
  · exact fun x => strip_eq 33 (by norm_num) 528 (by decide) _ x0 _ _ x
  · exact fun x => strip_eq 32 (by norm_num) 496 (by decide) _ x0 _ _ x
  · exact fun x => strip_eq 31 (by norm_num) 465 (by decide) _ x0 _ _ x
  · exact fun x => strip_eq 30 (by norm_num) 435 (by decide) _ x0 _ _ x
  · exact fun x => strip_eq 29 (by norm_num) 406 (by decide) _ x0 _ _ x
  · exact fun x => strip_eq 28 (by norm_num) 378 (by decide) _ x0 _ _ x
  · exact fun x => strip_eq 27 (by norm_num) 351 (by decide) _ x0 _ _ x
  · exact fun x => strip_eq 26 (by norm_num) 325 (by decide) _ x0 _ _ x
  · exact fun x => strip_eq 25 (by norm_num) 300 (by decide) _ x0 _ _ x
  · exact fun x => strip_eq 24 (by norm_num) 276 (by decide) _ x0 _ _ x
  · exact fun x => strip_eq 23 (by norm_num) 253 (by decide) _ x0 _ _ x
  · exact fun x => strip_eq 22 (by norm_num) 231 (by decide) _ x0 _ _ x
  · exact fun x => strip_eq 21 (by norm_num) 210 (by decide) _ x0 _ _ x
  · exact fun x => strip_eq 20 (by norm_num) 190 (by decide) _ x0 _ _ x
  · exact fun x => strip_eq 19 (by norm_num) 171 (by decide) _ x0 _ _ x
  · exact fun x => strip_eq 18 (by norm_num) 153 (by decide) _ x0 _ _ x
  · exact fun x => strip_eq 17 (by norm_num) 136 (by decide) _ x0 _ _ x
  · exact fun x => strip_eq 16 (by norm_num) 120 (by decide) _ x0 _ _ x
  · exact fun x => strip_eq 15 (by norm_num) 105 (by decide) _ x0 _ _ x
  · exact fun x => strip_eq 14 (by norm_num) 91 (by decide) _ x0 _ _ x
  · exact fun x => strip_eq 13 (by norm_num) 78 (by decide) _ x0 _ _ x
  · exact fun x => strip_eq 12 (by norm_num) 66 (by decide) _ x0 _ _ x
  · exact fun x => strip_eq 11 (by norm_num) 55 (by decide) _ x0 _ _ x
  · exact fun x => strip_eq 10 (by norm_num) 45 (by decide) _ x0 _ _ x
  · exact fun x => strip_eq 9 (by norm_num) 36 (by decide) _ x0 _ _ x
  · exact fun x => strip_eq 8 (by norm_num) 28 (by decide) _ x0 _ _ x
  · exact fun x => strip_eq 7 (by norm_num) 21 (by decide) _ x0 _ _ x
  · exact fun x => strip_eq 6 (by norm_num) 15 (by decide) _ x0 _ _ x
  · exact fun x => strip_eq 5 (by norm_num) 10 (by decide) _ x0 _ _ x
  · exact fun x => strip_eq 4 (by norm_num) 6 (by decide) _ x0 _ _ x
  · exact fun x => strip_eq 3 (by norm_num) 3 (by decide) _ x0 _ _ x
  · exact fun x => strip_eq 2 (by norm_num) 1 (by decide) _ x0 _ _ x
  · exact fun x => strip_eq 1 (by norm_num) 0 (by decide) _ x0 _ _ x

end Cert.KernelIdeal.KPieces

end
-- ==== Proof.KValue.lean ====
/-
  From the kernel's blocks to its result array.

  The grid has 64 points.  Point `t` stages block `t` of the argument — rows `128 t … 128 t + 127` of the
  [8192, 64, 256] array — and writes back block `t` of the [8192, 2016] result: the same rows, all 2016
  columns.  What the body leaves at `(b, k)` of its block is the inner product of rows `row k` and `col k`
  of batch `b` of the staged block, which is the specification `G` of the argument at `(128 t + b, k)`.
  The 64 row blocks tile the result (row `r` lies in the block of point `r / 128`), so the result array
  after the run is `G` of the argument.
-/
import proofs.«140513_j44092134261025_1_alg».proof.Proof.KernelIdealValueP
import proofs.«140513_j44092134261025_1_alg».proof.Proof.KPieces
import proofs.«140513_j44092134261025_1_alg».proof.Proof.Spec
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.GenP Idealize.ShloMosaic Idealize.ShloMosaic.TcCoe Idealize.SL.Sem
open Idealize.ShloMosaic.ValueIdx

variable (m : (ℓ : Loc nD τ sig) → Buf (Elt Ideal) ℓ) (ρ : Dev nD → PrngReg)

/-- The printed index maps over the 64 grid points: point `t` stages input block `(t, 0, 0)` and writes output block `(t, 0)`. -/
theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- The input block at point `t` is rows `128 t … 128 t + 127` of the argument. -/
theorem iblk_apply (c : Dev nD) (t : Fin cfg0.N) (x : S128x64x256.Idx) (z : S8192x64x256.Idx)
    (h0 : (z 0).val = 128 * t.val + (x 0).val) (h1 : (z 1).val = (x 1).val) (h2 : (z 2).val = (x 2).val) :
    (iblk m c 0 t : Vec Ideal S128x64x256 .f32) x = (m ((c : Thread nD τ).loc main_arg0) : S8192x64x256.Idx → EReal) z := by
  obtain ⟨e0, e1, e2, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 128 + 1 * (x 0).val = (z 0).val; rw [e0, h0]; omega
  | ⟨1, _⟩ => show win0_0.index t 1 * 64 + 1 * (x 1).val = (z 1).val; rw [e1, h1]; omega
  | ⟨2, _⟩ => show win0_0.index t 2 * 256 + 1 * (x 2).val = (z 2).val; rw [e2, h2]; omega

/-- ONE POINT'S BLOCK: where the staged block `x0` is rows `128 T …` of the array `X`, the body's result at `(b, k)` is the
    specification of `X` at the index `z` with row `128 T + b` and column `k`. -/
theorem point_eq (c : Dev nD) (i : grid0.Coords) (arg1 : Memref sig .tc .vmem S128x64x256 .f32) (harg1 : arg1.IsWhole)
    (arg2 : Memref sig .tc .vmem S128x2016 .f32) (harg2 : arg2.IsWhole)
    (x0 : Vec Ideal S128x64x256 .f32) (X : S8192x64x256.Idx → EReal) (T : Nat)
    (hx : ∀ (x : S128x64x256.Idx) (w : S8192x64x256.Idx), (w 0).val = 128 * T + (x 0).val → (w 1).val = (x 1).val →
      (w 2).val = (x 2).val → x0 x = X w)
    (y : S128x2016.Idx) (b : Fin 128) (k : Fin 2016) (hy : y = ix2 b k)
    (z : S8192x2016.Idx) (hz0 : (z 0).val = 128 * T + b.val) (hz1 : (z 1).val = k.val) :
    GenP.out0_A_1 (F := Ideal) c i arg1 harg1 arg2 harg2 x0 y = Cert.Spec.G X z := by
  subst hy
  rw [KPieces.out_apply]
  have e1 : z 1 = k := Fin.ext hz1
  show _ = Cert.Spec.gramAt X (z 0) (Cert.Spec.rowF (z 1)) (Cert.Spec.colF (z 1))
  rw [e1]
  unfold Cert.Spec.gramAt
  refine Finset.sum_congr rfl fun d _ => ?_
  rw [hx (ix3 b (Cert.Spec.rowF k) d) (ix3 (z 0) (Cert.Spec.rowF k) d) hz0 rfl rfl,
    hx (ix3 b (Cert.Spec.colF k) d) (ix3 (z 0) (Cert.Spec.colF k) d) hz0 rfl rfl]

/-- WHAT POINT `t` WRITES BACK is block `t` of the specification of the argument. -/
theorem flushed_eq (c : Dev nD) (t : Fin cfg0.N) :
    (dats m 0 c).flushed 1 t = ((cfg0.win 1).blk t).view.read (Elt Ideal) (Cert.Spec.G (m ((c : Thread nD τ).loc main_arg0))) := by
  rw [ValueP.flushed1_A]
  obtain ⟨-, -, -, e3, e4⟩ := idx_facts t
  funext y
  rw [View.read_apply]
  refine point_eq c (grid0.coords t) (ms0_0 t) (hs0_0 t) (ms0_1 t) (hs0_1 t) (iblk m c 0 t) _ t.val
    (fun x w h0 h1 h2 => iblk_apply m c t x w h0 h1 h2) y (y 0) (y 1) (eq_ix2 y) _ ?_ ?_
  · show win0_1.index t 0 * 128 + 1 * (y 0).val = 128 * t.val + (y 0).val
    rw [e3]; omega
  · show win0_1.index t 1 * 2016 + 1 * (y 1).val = (y 1).val
    rw [e4]; omega

/-- An index of the result array is in point `t`'s block iff each coordinate is in the block's range on its axis. -/
theorem mem_blk (t : Fin cfg0.N) (i : S8192x2016.Idx) :
    i ∈ ((cfg0.win 1).blk t).view.set ↔ ∀ a : Fin 2, win0_1.index t a * S128x2016.size a ≤ (i a).val
      ∧ (i a).val < win0_1.index t a * S128x2016.size a + S128x2016.size a := by
  show i ∈ ((View.whole main_v0).slice (win0_1.rect t)).set ↔ _
  rw [View.set_slice_whole, Rect.mem_set_unit]
  exact Iff.rfl

/-- THE BLOCKS COVER THE ARRAY: row `r` lies in the block of point `r / 128`, whose columns are all 2016. -/
theorem cover (i : S8192x2016.Idx) : ∃ t : Fin cfg0.N, (cfg0.win 1).flush t = true ∧ i ∈ ((cfg0.win 1).blk t).view.set := by
  have hi0 : (i 0).val < 8192 := (i 0).isLt
  have hi1 : (i 1).val < 2016 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨-, -, -, e3, e4⟩ := idx_facts t
  refine ⟨t, flush0_1 t, ?_⟩
  rw [mem_blk]
  intro a
  match a with
  | ⟨0, _⟩ =>
    show win0_1.index t 0 * 128 ≤ (i 0).val ∧ (i 0).val < win0_1.index t 0 * 128 + 128
    rw [e3, ht]; omega
  | ⟨1, _⟩ =>
    show win0_1.index t 1 * 2016 ≤ (i 1).val ∧ (i 1).val < win0_1.index t 1 * 2016 + 2016
    rw [e4]; omega

/-- THE RESULT ARRAY after the run is the specification of the argument. -/
theorem final (c : Dev nD) : (dats m 0 c).arrAt 1 cfg0.N = Cert.Spec.G (m ((c.tc : Thread nD τ).loc main_arg0)) :=
  (dats m 0 c).arrAt_eq_of_cover 1 (Cert.Spec.G (m ((c.tc : Thread nD τ).loc main_arg0))) (fun t _ => flushed_eq m c t) cover

/-- The run, read: the result array is the specification of the argument, the argument unchanged. -/
theorem run : θ_run defs (onTc (τ := τ) (main (F := Ideal))) ⟨m, fun _ => 0, ρ⟩ fun r => ∀ c : Dev nD,
      r.2.mem ((c.tc : Thread nD τ).loc main_v0) = Cert.Spec.G (m ((c.tc : Thread nD τ).loc main_arg0))
      ∧ r.2.mem ((c.tc : Thread nD τ).loc main_arg0) = m ((c.tc : Thread nD τ).loc main_arg0) :=
  (θ_run defs _ _).mono (fun r h c => ⟨(h c).1.trans (final m c), (h c).2⟩) (ValueP.run_blocks m ρ)

end Cert.KernelIdeal.KValue

end
-- ==== Proof.RefTerm.lean ====
/-
  The reference's result as ONE term of its argument, built from named stages.

  The reference forms the Gram array `Z[b, i, j] = ⟨x[b, i, :], x[b, j, :]⟩` and gathers its strict
  lower triangle.  The triangle's index table is computed by the program itself, from no input:
  the 64 × 64 mask `j < i` (a lower-triangular array of ones compared with zero), flattened; its
  running count `csum`; the count of positions per running count `bins` (a scatter-add of ones);
  the running sum of those, `flatv` — entry `k` is the flat position of the `k`-th mask bit —;
  and from it the row `(flatv / 64) mod 64` and the column `(flatv / 1) mod 64`, each by the
  floor-division and floor-remainder chains of signed words, then wrapped (`< 0 → + 64`) and laid
  side by side as the `[2016, 2]` table `tbl`.  Each stage below is the program's own operation
  on the stage before it.
-/
import proofs.«140513_j44092134261025_1_alg».proof.Proof.Gen.ReferenceIdeal

noncomputable section

namespace Cert.ReferenceIdeal.RefValue

open Cert.ReferenceIdeal Idealize.ShloMosaic
open Cert.ReferenceIdeal.Facts₀

variable {F : FTy → Type} [FloatOps F]

/-- A scalar word broadcast along the 2016 pairs. -/
abbrev bc2016 (v : IVec S_ 32) : IVec S2016 32 := broadcastInDim S2016 ![] bcast_S_S2016 v
/-- A scalar word broadcast along the 4096 positions. -/
abbrev bc4096 (v : IVec S_ 32) : IVec S4096 32 := broadcastInDim S4096 ![] bcast_S_S4096 v

/-- The lower-triangular array of ones: one where `i - 1 ≥ j` (signed), zero elsewhere. -/
def trilOnes : FVec F S64x64 .f32 :=
  select (cmpi .sge (addi (iotaInDim S64x64 32 0) (broadcastInDim S64x64 ![] bcast_S_S64x64 (constantI S_ 32 4294967295#32)))
      (iotaInDim S64x64 32 1))
    (broadcastInDim S64x64 ![] bcast_S_S64x64 (constant S_ .f32 0x3F800000#32))
    (broadcastInDim S64x64 ![] bcast_S_S64x64 (constant S_ .f32 0x00000000#32))

/-- The mask: where that array differs from zero. -/
def maskBits (F : FTy → Type) [FloatOps F] : IVec S64x64 1 :=
  cmpf .une (trilOnes (F := F)) (broadcastInDim S64x64 ![] bcast_S_S64x64 (constant S_ .f32 0x00000000#32))

/-- The mask flattened and widened to words. -/
def maskWords (F : FTy → Type) [FloatOps F] : IVec S4096 32 :=
  extui 32 (shapeCast S4096 (maskBits F) shapeCasts_S64x64_S4096) natLt_1_32

/-- The running count of mask bits. -/
def csum (F : FTy → Type) [FloatOps F] : IVec S4096 32 :=
  Host.reduceWindow IntOp.addi ![4096] ![1] ![4095] ![0] (maskWords F)
    (broadcastInDim S_ ![] bcast_S_S_ (constantI S_ 32 0#32)) reduceWindows_S4096_S4096_w4096s1p4095_0 h_S_

/-- The running count clipped below at zero and, where negative, wrapped by 2016: the scatter's indices. -/
def sidx (F : FTy → Type) [FloatOps F] : IVec S4096 32 :=
  let clipped : IVec S4096 32 := maxsi (bc4096 (id (constantI S_ 32 0#32))) (csum F)
  select (cmpi .slt clipped (bc4096 (constantI S_ 32 0#32))) (addi clipped (bc4096 (constantI S_ 32 2016#32))) clipped

/-- How many positions have each running count. -/
def bins (F : FTy → Type) [FloatOps F] : IVec S2016 32 :=
  Host.scatter scatter_S2016_S4096x1_S4096_n_0_0_1 IntOp.addi (bc2016 (constantI S_ 32 0#32))
    (broadcastInDim S4096x1 ![0] bcast_S4096_S4096x1_0 (sidx F)) (bc4096 (constantI S_ 32 1#32))

/-- The running sum of those: the flat position of each pair. -/
def flatv (F : FTy → Type) [FloatOps F] : IVec S2016 32 :=
  Host.reduceWindow IntOp.addi ![2016] ![1] ![2015] ![0] (bins F)
    (broadcastInDim S_ ![] bcast_S_S_ (constantI S_ 32 0#32)) reduceWindows_S2016_S2016_w2016s1p2015_0 h_S_

/-- Floor division of words by a scalar word: the truncated quotient, less one where the signs differ
    and the remainder is not zero. -/
def floorDiv (a : IVec S2016 32) (b : IVec S_ 32) : IVec S2016 32 :=
  let q : IVec S2016 32 := Host.divsi a (bc2016 b)
  let signsDiffer : IVec S2016 1 := cmpi .ne (signi a) (bc2016 (signi b))
  let remNonzero : IVec S2016 1 := cmpi .ne (Host.remsi a (bc2016 b)) (bc2016 (constantI S_ 32 0#32))
  select (andi signsDiffer remNonzero) (subi q (bc2016 (constantI S_ 32 1#32))) q

/-- Floor remainder of words by a scalar word (a zero divisor read as one): the truncated remainder,
    plus the divisor where it is not zero and its sign differs from the divisor's. -/
def floorRem (a : IVec S2016 32) (b : IVec S_ 32) : IVec S2016 32 :=
  let b0 : IVec S_ 32 := id b
  let d : IVec S_ 32 := select (cmpi .eq b0 (constantI S_ 32 0#32)) (constantI S_ 32 1#32) b0
  let r : IVec S2016 32 := Host.remsi a (bc2016 d)
  let rNonzero : IVec S2016 1 := cmpi .ne r (bc2016 (constantI S_ 32 0#32))
  let rNeg : IVec S2016 1 := cmpi .slt r (bc2016 (constantI S_ 32 0#32))
  let dNeg : IVec S2016 1 := broadcastInDim S2016 ![] bcast_S_S2016 (cmpi .slt d (constantI S_ 32 0#32))
  select (andi (cmpi .ne rNeg dNeg) rNonzero) (addi r (bc2016 d)) r

/-- A coordinate wrapped into `[0, 64)`: `+ 64` where negative. -/
def wrap64 (a : IVec S2016 32) : IVec S2016 32 :=
  select (cmpi .slt a (bc2016 (constantI S_ 32 0#32))) (addi a (bc2016 (constantI S_ 32 64#32))) a

/-- The pairs' rows. -/
def rowWords (F : FTy → Type) [FloatOps F] : IVec S2016 32 :=
  wrap64 (floorRem (floorDiv (flatv F) (constantI S_ 32 64#32)) (constantI S_ 32 64#32))

/-- The pairs' columns. -/
def colWords (F : FTy → Type) [FloatOps F] : IVec S2016 32 :=
  wrap64 (floorRem (floorDiv (flatv F) (constantI S_ 32 1#32)) (constantI S_ 32 64#32))

/-- The index table: row and column side by side. -/
def tbl (F : FTy → Type) [FloatOps F] : IVec S2016x2 32 :=
  concatenate S2016x2 1
    [⟨S2016x1, broadcastInDim S2016x1 ![0] bcast_S2016_S2016x1_0 (rowWords F)⟩,
     ⟨S2016x1, broadcastInDim S2016x1 ![0] bcast_S2016_S2016x1_0 (colWords F)⟩]
    concatenates_S2016x1_S2016x1_S2016x2_d1

/-- The Gram array. -/
def gram (x : FVec F S8192x64x256 .f32) : FVec F S8192x64x64 .f32 :=
  Host.dotGeneral dot_S8192x64x256_S8192x64x256_S8192x64x64_2_2_1_1_0_0 none x x

/-- The reference's result: the Gram array gathered at the table. -/
def refOut (x : FVec F S8192x64x256 .f32) : FVec F S8192x2016 .f32 :=
  Host.gather gather_S8192x64x64_S2016x2_S8192x2016_0_12_n_n_12_1_819211 (gram x) (tbl F)

end Cert.ReferenceIdeal.RefValue

end
-- ==== Proof.RefRun.lean ====
/-
  The reference program's run.

  The reference's @main is a straight line of tensor operations once each call of a module-local
  function is replaced by the callee's body over that call's own buffers (the substitution the
  compiler performs before it emits anything): the Gram product; the lower-triangular array of ones
  (@tril) and its mask; the mask's running count (@cumsum, through @cumsum_0); the clip at zero
  (@clip) and the wrap of negative counts; the scatter-add of ones that counts the positions per
  running count; its running sum (@cumsum_1, through @cumsum_2); the floor division and floor
  remainder chains (@floor_divide and @remainder, each through its select helper) that split the
  flat position into a row and a column; the wraps into [0, 64); the two columns laid side by side;
  the gather.  `ops` lists those 136 operations in the program's order, `main_eq` says @main IS that
  line, and `run` reads the line's fold back: every weakly fair execution terminates with the
  result buffer at the term `RefValue.refOut` of the argument's launch contents and the argument
  unchanged.
-/
import proofs.«140513_j44092134261025_1_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's 136 operations, in order: its own lines, and at each call the callee's lines over that
    call's record of buffers, the callee's formal arguments replaced by the operands. -/
abbrev ops : List (HloOp τ sig (Elt F)) :=
  [
    -- @main's own operations
    binary main_arg0 main_arg0 main_v0 ((fun l r => Host.dotGeneral dot_S8192x64x256_S8192x64x256_S8192x64x64_2_2_1_1_0_0 none l r) : (⟨S8192x64x256, .f32⟩ : BufTy).Contents (Elt F) → (⟨S8192x64x256, .f32⟩ : BufTy).Contents (Elt F) → (⟨S8192x64x64, .f32⟩ : BufTy).Contents (Elt F)),
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    -- the body of @tril over main_call0
    TRef.nullary main_call0.v0 (iotaInDim S64x64 32 0),
    TRef.nullary main_call0.c (constantI S_ 32 4294967295#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 (.of main_v1 : TRef sig ⟨S64x64, .f32⟩) main_call0.v5 main_call0.v6 select,
    -- @main's own operations
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)),
    -- the body of @cumsum over main_call1
    TRef.reshape (.of main_v4 : TRef sig ⟨S64x64, .i1⟩) main_call1.v0 rfl shapeCasts_S64x64_S4096,
    TRef.unary main_call1.v0 main_call1.v1 (extui 32 · natLt_1_32),
    -- the body of @cumsum over main_call1 → @cumsum_0 over main_call1.call0
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_),
    -- @main's own operations
    nullary main_c (constantI S_ 32 0#32),
    unary main_c main_v6 (broadcastInDim S2016 ![] bcast_S_S2016 : (⟨S_, .i32⟩ : BufTy).Contents (Elt F) → (⟨S2016, .i32⟩ : BufTy).Contents (Elt F)),
    nullary main_c_1 (constantI S_ 32 0#32),
    -- the body of @clip over main_call2
    TRef.unary (.of main_c_1 : TRef sig ⟨S_, .i32⟩) main_call2.v0 id,
    TRef.unary main_call2.v0 main_call2.v1 (broadcastInDim S4096 ![] bcast_S_S4096),
    TRef.binary main_call2.v1 (.of main_v5 : TRef sig ⟨S4096, .i32⟩) main_call2.v2 maxsi,
    -- @main's own operations
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    -- the body of @cumsum_1 over main_call3 → @cumsum_2 over main_call3.call0
    TRef.nullary main_call3.call0.c (constantI S_ 32 0#32),
    TRef.unary main_call3.call0.c main_call3.call0.v0 (broadcastInDim S_ ![] bcast_S_S_),
    TRef.binary (.of main_v15 : TRef sig ⟨S2016, .i32⟩) main_call3.call0.v0 main_call3.call0.v1 (fun x v => Host.reduceWindow IntOp.addi ![2016] ![1] ![2015] ![0] x v reduceWindows_S2016_S2016_w2016s1p2015_0 h_S_),
    -- @main's own operations
    nullary main_c_5 (constantI S_ 32 64#32),
    -- the body of @floor_divide over main_call4
    TRef.unary (.of main_c_5 : TRef sig ⟨S_, .i32⟩) main_call4.v0 (broadcastInDim S2016 ![] bcast_S_S2016),
    TRef.binary (.of main_v16 : TRef sig ⟨S2016, .i32⟩) main_call4.v0 main_call4.v1 Host.divsi,
    TRef.unary (.of main_v16 : TRef sig ⟨S2016, .i32⟩) main_call4.v2 signi,
    TRef.unary (.of main_c_5 : TRef sig ⟨S_, .i32⟩) main_call4.v3 signi,
    TRef.unary main_call4.v3 main_call4.v4 (broadcastInDim S2016 ![] bcast_S_S2016),
    TRef.binary main_call4.v2 main_call4.v4 main_call4.v5 (cmpi .ne),
    TRef.unary (.of main_c_5 : TRef sig ⟨S_, .i32⟩) main_call4.v6 (broadcastInDim S2016 ![] bcast_S_S2016),
    TRef.binary (.of main_v16 : TRef sig ⟨S2016, .i32⟩) main_call4.v6 main_call4.v7 Host.remsi,
    TRef.nullary main_call4.c (constantI S_ 32 0#32),
    TRef.unary main_call4.c main_call4.v8 (broadcastInDim S2016 ![] bcast_S_S2016),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2016 ![] bcast_S_S2016),
    TRef.binary main_call4.v1 main_call4.v11 main_call4.v12 subi,
    -- the body of @floor_divide over main_call4 → @where over main_call4.call0
    TRef.ternary main_call4.v10 main_call4.v12 main_call4.v1 main_call4.call0.v0 select,
    -- @main's own operations
    nullary main_c_6 (constantI S_ 32 64#32),
    -- the body of @remainder over main_call5
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    -- the body of @remainder over main_call5 → @where_3 over main_call5.call0
    TRef.ternary main_call5.v1 main_call5.c_0 main_call5.v0 main_call5.call0.v0 select,
    -- the body of @remainder over main_call5
    TRef.unary main_call5.call0.v0 main_call5.v3 (broadcastInDim S2016 ![] bcast_S_S2016),
    TRef.binary (.of main_v17 : TRef sig ⟨S2016, .i32⟩) main_call5.v3 main_call5.v4 Host.remsi,
    TRef.nullary main_call5.c_1 (constantI S_ 32 0#32),
    TRef.unary main_call5.c_1 main_call5.v5 (broadcastInDim S2016 ![] bcast_S_S2016),
    TRef.binary main_call5.v4 main_call5.v5 main_call5.v6 (cmpi .ne),
    TRef.nullary main_call5.c_2 (constantI S_ 32 0#32),
    TRef.unary main_call5.c_2 main_call5.v7 (broadcastInDim S2016 ![] bcast_S_S2016),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2016 ![] bcast_S_S2016),
    TRef.binary main_call5.v8 main_call5.v10 main_call5.v11 (cmpi .ne),
    TRef.binary main_call5.v11 main_call5.v6 main_call5.v12 andi,
    TRef.unary main_call5.call0.v0 main_call5.v13 (broadcastInDim S2016 ![] bcast_S_S2016),
    TRef.binary main_call5.v4 main_call5.v13 main_call5.v14 addi,
    TRef.ternary main_call5.v12 main_call5.v14 main_call5.v4 main_call5.v15 select,
    -- @main's own operations
    nullary main_c_7 (constantI S_ 32 1#32),
    -- the body of @floor_divide over main_call6
    TRef.unary (.of main_c_7 : TRef sig ⟨S_, .i32⟩) main_call6.v0 (broadcastInDim S2016 ![] bcast_S_S2016),
    TRef.binary (.of main_v16 : TRef sig ⟨S2016, .i32⟩) main_call6.v0 main_call6.v1 Host.divsi,
    TRef.unary (.of main_v16 : TRef sig ⟨S2016, .i32⟩) main_call6.v2 signi,
    TRef.unary (.of main_c_7 : TRef sig ⟨S_, .i32⟩) main_call6.v3 signi,
    TRef.unary main_call6.v3 main_call6.v4 (broadcastInDim S2016 ![] bcast_S_S2016),
    TRef.binary main_call6.v2 main_call6.v4 main_call6.v5 (cmpi .ne),
    TRef.unary (.of main_c_7 : TRef sig ⟨S_, .i32⟩) main_call6.v6 (broadcastInDim S2016 ![] bcast_S_S2016),
    TRef.binary (.of main_v16 : TRef sig ⟨S2016, .i32⟩) main_call6.v6 main_call6.v7 Host.remsi,
    TRef.nullary main_call6.c (constantI S_ 32 0#32),
    TRef.unary main_call6.c main_call6.v8 (broadcastInDim S2016 ![] bcast_S_S2016),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2016 ![] bcast_S_S2016),
    TRef.binary main_call6.v1 main_call6.v11 main_call6.v12 subi,
    -- the body of @floor_divide over main_call6 → @where over main_call6.call0
    TRef.ternary main_call6.v10 main_call6.v12 main_call6.v1 main_call6.call0.v0 select,
    -- @main's own operations
    nullary main_c_8 (constantI S_ 32 64#32),
    -- the body of @remainder over main_call7
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    -- the body of @remainder over main_call7 → @where_3 over main_call7.call0
    TRef.ternary main_call7.v1 main_call7.c_0 main_call7.v0 main_call7.call0.v0 select,
    -- the body of @remainder over main_call7
    TRef.unary main_call7.call0.v0 main_call7.v3 (broadcastInDim S2016 ![] bcast_S_S2016),
    TRef.binary (.of main_v19 : TRef sig ⟨S2016, .i32⟩) main_call7.v3 main_call7.v4 Host.remsi,
    TRef.nullary main_call7.c_1 (constantI S_ 32 0#32),
    TRef.unary main_call7.c_1 main_call7.v5 (broadcastInDim S2016 ![] bcast_S_S2016),
    TRef.binary main_call7.v4 main_call7.v5 main_call7.v6 (cmpi .ne),
    TRef.nullary main_call7.c_2 (constantI S_ 32 0#32),
    TRef.unary main_call7.c_2 main_call7.v7 (broadcastInDim S2016 ![] bcast_S_S2016),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2016 ![] bcast_S_S2016),
    TRef.binary main_call7.v8 main_call7.v10 main_call7.v11 (cmpi .ne),
    TRef.binary main_call7.v11 main_call7.v6 main_call7.v12 andi,
    TRef.unary main_call7.call0.v0 main_call7.v13 (broadcastInDim S2016 ![] bcast_S_S2016),
    TRef.binary main_call7.v4 main_call7.v13 main_call7.v14 addi,
    TRef.ternary main_call7.v12 main_call7.v14 main_call7.v4 main_call7.v15 select,
    -- @main's own operations
    nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)),
    binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S8192x64x64_S2016x2_S8192x2016_0_12_n_n_12_1_819211 x i) : (⟨S8192x64x64, .f32⟩ : BufTy).Contents (Elt F) → (⟨S2016x2, .i32⟩ : BufTy).Contents (Elt F) → (⟨S8192x2016, .f32⟩ : BufTy).Contents (Elt F)) ]

-- one hundred and thirty-six binds re-associated: the rewrite under the chain recurses once per statement
set_option maxRecDepth 8192 in
/-- @main is that straight line: the functions' definitions unfolded at their calls and the records at
    their fields, both sides are one chain of steps once sequencing is re-associated. -/
theorem main_eq (c : Dev nD) : main (F := F) c = seq ops := by
  simp only [main, fn_tril.body, fn_cumsum.body, fn_cumsum_0.body, fn_clip.body, fn_cumsum_1.body, fn_cumsum_2.body,
    fn_floor_divide.body, fn_where.body, fn_remainder.body, fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub ..⟩

/-- Contents moved to a buffer's own type and back are the contents: between a callee's operation that
    writes a buffer and the one that reads it nothing is done to the value. -/
theorem ofBuf_toBuf {T : BufTy} (x : TRef sig T) (v : T.Contents (Elt F)) : x.ofBuf (x.toBuf v) = v := by
  obtain ⟨r, rfl, _, _⟩ := x
  rfl

/-! ## The line in eight stretches

The fold of the line is computed stretch by stretch, each from ARBITRARY contents `W` — what the
stretches before it left is never looked into again. Each stretch's lemma says what ONE buffer holds
after it as a term of what a few buffers held before it (or that a buffer it never writes is
unchanged); composed in order they give the fold of the whole line. -/

/-- Operations 1–15: the Gram product, the lower-triangular array of ones, the mask. -/
abbrev opsA1 : List (HloOp τ sig (Elt F)) :=
  [
    binary main_arg0 main_arg0 main_v0 ((fun l r => Host.dotGeneral dot_S8192x64x256_S8192x64x256_S8192x64x64_2_2_1_1_0_0 none l r) : (⟨S8192x64x256, .f32⟩ : BufTy).Contents (Elt F) → (⟨S8192x64x256, .f32⟩ : BufTy).Contents (Elt F) → (⟨S8192x64x64, .f32⟩ : BufTy).Contents (Elt F)),
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    TRef.nullary main_call0.v0 (iotaInDim S64x64 32 0),
    TRef.nullary main_call0.c (constantI S_ 32 4294967295#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 (.of main_v1 : TRef sig ⟨S64x64, .f32⟩) main_call0.v5 main_call0.v6 select,
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)) ]

/-- Operations 16–20: the mask flattened and widened, its running count. -/
abbrev opsA2 : List (HloOp τ sig (Elt F)) :=
  [
    TRef.reshape (.of main_v4 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_) ]

/-- Operations 21–26: the scatter's operand of zeros; the running count clipped below at zero. -/
abbrev opsA3 : List (HloOp τ sig (Elt F)) :=
  [
    nullary main_c (constantI S_ 32 0#32),
    unary main_c main_v6 (broadcastInDim S2016 ![] bcast_S_S2016 : (⟨S_, .i32⟩ : BufTy).Contents (Elt F) → (⟨S2016, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S4096 ![] bcast_S_S4096),
    TRef.binary main_call2.v1 (.of main_v5 : TRef sig ⟨S4096, .i32⟩) main_call2.v2 maxsi ]

/-- Operations 27–37: the wrap of negative counts by 2016, the updates of ones, the scatter-add. -/
abbrev opsA4 : List (HloOp τ sig (Elt F)) :=
  [
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)) ]

/-- Operations 38–40: the running sum of the counts. -/
abbrev opsA5 : List (HloOp τ sig (Elt F)) :=
  [
    TRef.nullary main_call3.call0.c (constantI S_ 32 0#32),
    TRef.unary main_call3.call0.c main_call3.call0.v0 (broadcastInDim S_ ![] bcast_S_S_),
    TRef.binary (.of main_v15 : TRef sig ⟨S2016, .i32⟩) main_call3.call0.v0 main_call3.call0.v1 (fun x v => Host.reduceWindow IntOp.addi ![2016] ![1] ![2015] ![0] x v reduceWindows_S2016_S2016_w2016s1p2015_0 h_S_) ]

/-- Operations 41–79: the floor division of the flat positions by 64, then the floor remainder by 64. -/
abbrev opsB : List (HloOp τ sig (Elt F)) :=
  [
    nullary main_c_5 (constantI S_ 32 64#32),
    TRef.unary (.of main_c_5 : TRef sig ⟨S_, .i32⟩) main_call4.v0 (broadcastInDim S2016 ![] bcast_S_S2016),
    TRef.binary (.of main_v16 : TRef sig ⟨S2016, .i32⟩) main_call4.v0 main_call4.v1 Host.divsi,
    TRef.unary (.of main_v16 : TRef sig ⟨S2016, .i32⟩) main_call4.v2 signi,
    TRef.unary (.of main_c_5 : TRef sig ⟨S_, .i32⟩) main_call4.v3 signi,
    TRef.unary main_call4.v3 main_call4.v4 (broadcastInDim S2016 ![] bcast_S_S2016),
    TRef.binary main_call4.v2 main_call4.v4 main_call4.v5 (cmpi .ne),
    TRef.unary (.of main_c_5 : TRef sig ⟨S_, .i32⟩) main_call4.v6 (broadcastInDim S2016 ![] bcast_S_S2016),
    TRef.binary (.of main_v16 : TRef sig ⟨S2016, .i32⟩) main_call4.v6 main_call4.v7 Host.remsi,
    TRef.nullary main_call4.c (constantI S_ 32 0#32),
    TRef.unary main_call4.c main_call4.v8 (broadcastInDim S2016 ![] bcast_S_S2016),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2016 ![] bcast_S_S2016),
    TRef.binary main_call4.v1 main_call4.v11 main_call4.v12 subi,
    TRef.ternary main_call4.v10 main_call4.v12 main_call4.v1 main_call4.call0.v0 select,
    nullary main_c_6 (constantI S_ 32 64#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S2016 ![] bcast_S_S2016),
    TRef.binary (.of main_v17 : TRef sig ⟨S2016, .i32⟩) main_call5.v3 main_call5.v4 Host.remsi,
    TRef.nullary main_call5.c_1 (constantI S_ 32 0#32),
    TRef.unary main_call5.c_1 main_call5.v5 (broadcastInDim S2016 ![] bcast_S_S2016),
    TRef.binary main_call5.v4 main_call5.v5 main_call5.v6 (cmpi .ne),
    TRef.nullary main_call5.c_2 (constantI S_ 32 0#32),
    TRef.unary main_call5.c_2 main_call5.v7 (broadcastInDim S2016 ![] bcast_S_S2016),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2016 ![] bcast_S_S2016),
    TRef.binary main_call5.v8 main_call5.v10 main_call5.v11 (cmpi .ne),
    TRef.binary main_call5.v11 main_call5.v6 main_call5.v12 andi,
    TRef.unary main_call5.call0.v0 main_call5.v13 (broadcastInDim S2016 ![] bcast_S_S2016),
    TRef.binary main_call5.v4 main_call5.v13 main_call5.v14 addi,
    TRef.ternary main_call5.v12 main_call5.v14 main_call5.v4 main_call5.v15 select ]

/-- Operations 80–118: the floor division of the flat positions by 1, then the floor remainder by 64. -/
abbrev opsC : List (HloOp τ sig (Elt F)) :=
  [
    nullary main_c_7 (constantI S_ 32 1#32),
    TRef.unary (.of main_c_7 : TRef sig ⟨S_, .i32⟩) main_call6.v0 (broadcastInDim S2016 ![] bcast_S_S2016),
    TRef.binary (.of main_v16 : TRef sig ⟨S2016, .i32⟩) main_call6.v0 main_call6.v1 Host.divsi,
    TRef.unary (.of main_v16 : TRef sig ⟨S2016, .i32⟩) main_call6.v2 signi,
    TRef.unary (.of main_c_7 : TRef sig ⟨S_, .i32⟩) main_call6.v3 signi,
    TRef.unary main_call6.v3 main_call6.v4 (broadcastInDim S2016 ![] bcast_S_S2016),
    TRef.binary main_call6.v2 main_call6.v4 main_call6.v5 (cmpi .ne),
    TRef.unary (.of main_c_7 : TRef sig ⟨S_, .i32⟩) main_call6.v6 (broadcastInDim S2016 ![] bcast_S_S2016),
    TRef.binary (.of main_v16 : TRef sig ⟨S2016, .i32⟩) main_call6.v6 main_call6.v7 Host.remsi,
    TRef.nullary main_call6.c (constantI S_ 32 0#32),
    TRef.unary main_call6.c main_call6.v8 (broadcastInDim S2016 ![] bcast_S_S2016),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2016 ![] bcast_S_S2016),
    TRef.binary main_call6.v1 main_call6.v11 main_call6.v12 subi,
    TRef.ternary main_call6.v10 main_call6.v12 main_call6.v1 main_call6.call0.v0 select,
    nullary main_c_8 (constantI S_ 32 64#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S2016 ![] bcast_S_S2016),
    TRef.binary (.of main_v19 : TRef sig ⟨S2016, .i32⟩) main_call7.v3 main_call7.v4 Host.remsi,
    TRef.nullary main_call7.c_1 (constantI S_ 32 0#32),
    TRef.unary main_call7.c_1 main_call7.v5 (broadcastInDim S2016 ![] bcast_S_S2016),
    TRef.binary main_call7.v4 main_call7.v5 main_call7.v6 (cmpi .ne),
    TRef.nullary main_call7.c_2 (constantI S_ 32 0#32),
    TRef.unary main_call7.c_2 main_call7.v7 (broadcastInDim S2016 ![] bcast_S_S2016),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2016 ![] bcast_S_S2016),
    TRef.binary main_call7.v8 main_call7.v10 main_call7.v11 (cmpi .ne),
    TRef.binary main_call7.v11 main_call7.v6 main_call7.v12 andi,
    TRef.unary main_call7.call0.v0 main_call7.v13 (broadcastInDim S2016 ![] bcast_S_S2016),
    TRef.binary main_call7.v4 main_call7.v13 main_call7.v14 addi,
    TRef.ternary main_call7.v12 main_call7.v14 main_call7.v4 main_call7.v15 select ]

/-- Operations 119–136: the two wraps into [0, 64), the table, the gather. -/
abbrev opsD : List (HloOp τ sig (Elt F)) :=
  [
    nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)),
    binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S8192x64x64_S2016x2_S8192x2016_0_12_n_n_12_1_819211 x i) : (⟨S8192x64x64, .f32⟩ : BufTy).Contents (Elt F) → (⟨S2016x2, .i32⟩ : BufTy).Contents (Elt F) → (⟨S8192x2016, .f32⟩ : BufTy).Contents (Elt F)) ]

/-! ### Each stretch's fold, from any contents

A callee's operation moves its operands' contents from the buffers' own types to the types the
callee's text gives them, and its result back: at these literal buffers the two types are the same
and the moves are the identity (`cast_eq`; `ofBuf_toBuf` where a move meets its inverse). -/

set_option maxRecDepth 8192 in
/-- After the first stretch the mask's buffer holds the reference's mask, whatever was there before:
    every operand of the chain is a constant or an `iota`. The two sides are the same term up to the
    callee's moves between a buffer's own type and the value's, which are the identity: compared
    argument by argument. -/
theorem A1_mask (W : Valuation τ sig (Elt F)) :
    after opsA1 W (main_v4 : DevRef τ sig) = RefValue.maskBits F := by
  after_results_simp
  simp only [ofBuf_toBuf]
  unfold RefValue.maskBits RefValue.trilOnes
  congr 2

set_option maxRecDepth 8192 in
/-- After the first stretch the Gram buffer holds the Gram array of the argument. -/
theorem A1_gram (W : Valuation τ sig (Elt F)) :
    after opsA1 W (main_v0 : DevRef τ sig) = RefValue.gram (W (main_arg0 : DevRef τ sig)) := by
  after_results_simp
  rfl

set_option maxRecDepth 8192 in
theorem A1_arg (W : Valuation τ sig (Elt F)) :
    after opsA1 W (main_arg0 : DevRef τ sig) = W (main_arg0 : DevRef τ sig) := by
  after_results_simp

set_option maxRecDepth 8192 in
/-- After the second stretch the running count's buffer holds the running count of the mask's words. -/
theorem A2_csum (W : Valuation τ sig (Elt F)) :
    after opsA2 W (main_v5 : DevRef τ sig)
      = Host.reduceWindow IntOp.addi ![4096] ![1] ![4095] ![0]
          (extui 32 (shapeCast S4096 (W (main_v4 : DevRef τ sig)) shapeCasts_S64x64_S4096) natLt_1_32)
          (broadcastInDim S_ ![] bcast_S_S_ (constantI S_ 32 0#32)) reduceWindows_S4096_S4096_w4096s1p4095_0 h_S_ := by
  after_results_simp
  simp only [ofBuf_toBuf, cast_eq]
  rfl

set_option maxRecDepth 8192 in
theorem A2_gram (W : Valuation τ sig (Elt F)) :
    after opsA2 W (main_v0 : DevRef τ sig) = W (main_v0 : DevRef τ sig) := by
  after_results_simp

set_option maxRecDepth 8192 in
theorem A2_arg (W : Valuation τ sig (Elt F)) :
    after opsA2 W (main_arg0 : DevRef τ sig) = W (main_arg0 : DevRef τ sig) := by
  after_results_simp

set_option maxRecDepth 8192 in
/-- After the third stretch the clipped count's buffer holds the running count clipped below at zero. -/
theorem A3_clip (W : Valuation τ sig (Elt F)) :
    after opsA3 W (main_v7 : DevRef τ sig)
      = maxsi (RefValue.bc4096 (id (constantI S_ 32 0#32))) (W (main_v5 : DevRef τ sig)) := by
  after_results_simp
  simp only [ofBuf_toBuf]
  rfl

set_option maxRecDepth 8192 in
/-- … and the scatter's operand is zeros. -/
theorem A3_zero (W : Valuation τ sig (Elt F)) :
    after opsA3 W (main_v6 : DevRef τ sig) = RefValue.bc2016 (constantI S_ 32 0#32) := by
  after_results_simp

set_option maxRecDepth 8192 in
theorem A3_gram (W : Valuation τ sig (Elt F)) :
    after opsA3 W (main_v0 : DevRef τ sig) = W (main_v0 : DevRef τ sig) := by
  after_results_simp

set_option maxRecDepth 8192 in
theorem A3_arg (W : Valuation τ sig (Elt F)) :
    after opsA3 W (main_arg0 : DevRef τ sig) = W (main_arg0 : DevRef τ sig) := by
  after_results_simp

set_option maxRecDepth 8192 in
/-- After the fourth stretch the counts' buffer holds the scatter-add of ones at the wrapped indices. -/
theorem A4_bins (W : Valuation τ sig (Elt F)) :
    after opsA4 W (main_v15 : DevRef τ sig)
      = Host.scatter scatter_S2016_S4096x1_S4096_n_0_0_1 IntOp.addi (W (main_v6 : DevRef τ sig))
          (broadcastInDim S4096x1 ![0] bcast_S4096_S4096x1_0
            (select (cmpi .slt (W (main_v7 : DevRef τ sig)) (RefValue.bc4096 (constantI S_ 32 0#32)))
              (addi (W (main_v7 : DevRef τ sig)) (RefValue.bc4096 (constantI S_ 32 2016#32)))
              (W (main_v7 : DevRef τ sig))))
          (RefValue.bc4096 (constantI S_ 32 1#32)) := by
  after_results_simp

set_option maxRecDepth 8192 in
theorem A4_gram (W : Valuation τ sig (Elt F)) :
    after opsA4 W (main_v0 : DevRef τ sig) = W (main_v0 : DevRef τ sig) := by
  after_results_simp

set_option maxRecDepth 8192 in
theorem A4_arg (W : Valuation τ sig (Elt F)) :
    after opsA4 W (main_arg0 : DevRef τ sig) = W (main_arg0 : DevRef τ sig) := by
  after_results_simp

set_option maxRecDepth 8192 in
/-- After the fifth stretch the flat positions' buffer holds the running sum of the counts. -/
theorem A5_flat (W : Valuation τ sig (Elt F)) :
    after opsA5 W (main_v16 : DevRef τ sig)
      = Host.reduceWindow IntOp.addi ![2016] ![1] ![2015] ![0] (W (main_v15 : DevRef τ sig))
          (broadcastInDim S_ ![] bcast_S_S_ (constantI S_ 32 0#32)) reduceWindows_S2016_S2016_w2016s1p2015_0 h_S_ := by
  after_results_simp
  simp only [ofBuf_toBuf, cast_eq]

set_option maxRecDepth 8192 in
theorem A5_gram (W : Valuation τ sig (Elt F)) :
    after opsA5 W (main_v0 : DevRef τ sig) = W (main_v0 : DevRef τ sig) := by
  after_results_simp

set_option maxRecDepth 8192 in
theorem A5_arg (W : Valuation τ sig (Elt F)) :
    after opsA5 W (main_arg0 : DevRef τ sig) = W (main_arg0 : DevRef τ sig) := by
  after_results_simp

set_option maxRecDepth 8192 in
set_option maxHeartbeats 400000 in
/-- After the sixth stretch the rows' buffer holds the floor remainder by 64 of the floor quotient
    by 64 of what the flat positions' buffer held. -/
theorem B_row (W : Valuation τ sig (Elt F)) :
    after opsB W (main_v18 : DevRef τ sig)
      = RefValue.floorRem (RefValue.floorDiv (W (main_v16 : DevRef τ sig)) (constantI S_ 32 64#32)) (constantI S_ 32 64#32) := by
  after_results_simp
  simp only [ofBuf_toBuf, cast_eq]
  rfl

set_option maxRecDepth 8192 in
theorem B_flat (W : Valuation τ sig (Elt F)) :
    after opsB W (main_v16 : DevRef τ sig) = W (main_v16 : DevRef τ sig) := by
  after_results_simp

set_option maxRecDepth 8192 in
theorem B_gram (W : Valuation τ sig (Elt F)) :
    after opsB W (main_v0 : DevRef τ sig) = W (main_v0 : DevRef τ sig) := by
  after_results_simp

set_option maxRecDepth 8192 in
theorem B_arg (W : Valuation τ sig (Elt F)) :
    after opsB W (main_arg0 : DevRef τ sig) = W (main_arg0 : DevRef τ sig) := by
  after_results_simp

set_option maxRecDepth 8192 in
set_option maxHeartbeats 400000 in
/-- After the seventh stretch the columns' buffer holds the floor remainder by 64 of the floor quotient
    by 1 of what the flat positions' buffer held. -/
theorem C_col (W : Valuation τ sig (Elt F)) :
    after opsC W (main_v20 : DevRef τ sig)
      = RefValue.floorRem (RefValue.floorDiv (W (main_v16 : DevRef τ sig)) (constantI S_ 32 1#32)) (constantI S_ 32 64#32) := by
  after_results_simp
  simp only [ofBuf_toBuf, cast_eq]
  rfl

set_option maxRecDepth 8192 in
theorem C_row (W : Valuation τ sig (Elt F)) :
    after opsC W (main_v18 : DevRef τ sig) = W (main_v18 : DevRef τ sig) := by
  after_results_simp

set_option maxRecDepth 8192 in
theorem C_gram (W : Valuation τ sig (Elt F)) :
    after opsC W (main_v0 : DevRef τ sig) = W (main_v0 : DevRef τ sig) := by
  after_results_simp

set_option maxRecDepth 8192 in
theorem C_arg (W : Valuation τ sig (Elt F)) :
    after opsC W (main_arg0 : DevRef τ sig) = W (main_arg0 : DevRef τ sig) := by
  after_results_simp

set_option maxRecDepth 8192 in
set_option maxHeartbeats 400000 in
/-- After the last stretch the result buffer holds the gather, from what the Gram buffer held, at the
    table of the wrapped rows and the wrapped columns. -/
theorem D_out (W : Valuation τ sig (Elt F)) :
    after opsD W (main_v34 : DevRef τ sig)
      = Host.gather gather_S8192x64x64_S2016x2_S8192x2016_0_12_n_n_12_1_819211 (W (main_v0 : DevRef τ sig))
          (concatenate S2016x2 1
            [⟨S2016x1, broadcastInDim S2016x1 ![0] bcast_S2016_S2016x1_0 (RefValue.wrap64 (W (main_v18 : DevRef τ sig)))⟩,
             ⟨S2016x1, broadcastInDim S2016x1 ![0] bcast_S2016_S2016x1_0 (RefValue.wrap64 (W (main_v20 : DevRef τ sig)))⟩]
            concatenates_S2016x1_S2016x1_S2016x2_d1) := by
  after_results_simp
  rfl

set_option maxRecDepth 8192 in
theorem D_arg (W : Valuation τ sig (Elt F)) :
    after opsD W (main_arg0 : DevRef τ sig) = W (main_arg0 : DevRef τ sig) := by
  after_results_simp

/-- The line is its eight stretches in order. -/
theorem ops_split : (ops : List (HloOp τ sig (Elt F)))
    = opsA1 ++ (opsA2 ++ (opsA3 ++ (opsA4 ++ (opsA5 ++ (opsB ++ (opsC ++ opsD)))))) := rfl

/-- The fold of two lines run one after the other is the second's fold from the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The fold at the result and at the argument -/

/-- The line's fold at the result buffer is the reference's term of the argument's contents: the
    stretches' folds composed — the gather from the Gram array at the table of the wrapped floor
    remainders of the floor quotients of the running sum of the counts of the clipped running count
    of the mask — which is `refOut` with its stages' names unfolded. -/
theorem out_eq (V : Valuation τ sig (Elt F)) :
    after ops V (main_v34 : DevRef τ sig) = RefValue.refOut (V (main_arg0 : DevRef τ sig)) := by
  rw [ops_split, after_app, after_app, after_app, after_app, after_app, after_app, after_app,
    D_out, C_gram, B_gram, A5_gram, A4_gram, A3_gram, A2_gram, A1_gram,
    C_row, B_row, C_col, B_flat, A5_flat, A4_bins, A3_zero, A3_clip, A2_csum, A1_mask]
  simp only [RefValue.refOut, RefValue.tbl, RefValue.rowWords, RefValue.colWords, RefValue.flatv, RefValue.bins,
    RefValue.sidx, RefValue.csum, RefValue.maskWords]

/-- No operation of the line writes the argument. -/
theorem arg0_eq (V : Valuation τ sig (Elt F)) :
    after ops V (main_arg0 : DevRef τ sig) = V (main_arg0 : DevRef τ sig) := by
  rw [ops_split, after_app, after_app, after_app, after_app, after_app, after_app, after_app,
    D_arg, C_arg, B_arg, A5_arg, A4_arg, A3_arg, A2_arg, A1_arg]

/-! ## The run -/

/-- On every device, for any float values, from any memory with zero counters: every weakly fair
    execution of @main terminates with the result buffer at the reference's term of the argument's
    launch contents, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = RefValue.refOut (m ((c.tc : Thread nD τ).loc main_arg0))
      ∧ r.2.mem ((c.tc : Thread nD τ).loc main_arg0) = m ((c.tc : Thread nD τ).loc main_arg0) :=
  (θ_run defs _ _).mono (fun _ h c => ⟨(h c main_v34).trans (out_eq (launchContents m c)),
      (h c main_arg0).trans (arg0_eq (launchContents m c))⟩)
    (run_seq scopedRefs_eq scopedSems_eq defs main (fun _ => ops) main_eq (fun _ => ops_sub) m ρ)

end Cert.ReferenceIdeal.RefRun

end
-- ==== Proof.RefGather.lean ====
/-
  The reference's index table and its gather, read at an index.

  The table `tbl` is two [2016, 1] columns laid side by side along axis 1: column 0 of row `k` is the
  first column's entry `(k, 0)`, which is the row word at `k`; column 1 of row `k` is the second
  column's entry `(k, 0)`, the column word at `k`.

  The gather reads, for result index `(b, k)`, the operand at
  `(0 + b, clamp t[k, 0], clamp t[k, 1])`: operand axis 0 is an offset axis sliced whole (start 0,
  offset coordinate `b`); axes 1 and 2 are collapsed with slice size 1 and start at the two
  components of index vector `k`, read as signed words and clamped to `[0, 64 - 1]`.  Where the two
  components are `i < 64` and `j < 64` the clamps change nothing, so the element read is `(b, i, j)`.
-/
import proofs.«140513_j44092134261025_1_alg».proof.Proof.RefTerm
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefGather

open Cert.ReferenceIdeal Idealize.ShloMosaic
open Cert.ReferenceIdeal.Facts₀
open Idealize.ShloMosaic.ValueIdx

variable {F : FTy → Type} [FloatOps F]

/-- A vector kept as a [2016, 1] column reads, at `(k, 0)`, the vector at `k`. -/
theorem col_apply {α : Type} (v : S2016.Idx → α) (k : Fin 2016) :
    broadcastInDim S2016x1 ![0] bcast_S2016_S2016x1_0 v (ix2 k (0 : Fin 1)) = v (ix1 k) := by
  simp only [broadcastInDim]
  congr 1
  funext a
  match a with
  | ⟨0, _⟩ => rfl

/-- Two [2016, 1] columns laid side by side: column 0 of row `k` is the first column's entry `(k, 0)`. -/
theorem pair_apply_zero {α : Type} (u v : S2016x1.Idx → α) (k : Fin 2016) :
    concatenate S2016x2 1 [⟨S2016x1, u⟩, ⟨S2016x1, v⟩] concatenates_S2016x1_S2016x1_S2016x2_d1 (ix2 k (0 : Fin 2))
      = u (ix2 k (0 : Fin 1)) :=
  concatenate_pair_apply_left (1 : Fin 2) u v concatenates_S2016x1_S2016x1_S2016x2_d1 (ix2 k (0 : Fin 2)) rfl
    (ix2 k (0 : Fin 1)) (fun b => by match b with | ⟨0, _⟩ => rfl | ⟨1, _⟩ => rfl)

/-- Column 1 of row `k` is the second column's entry `(k, 0)`: the axis coordinate less the first column's extent 1. -/
theorem pair_apply_one {α : Type} (u v : S2016x1.Idx → α) (k : Fin 2016) :
    concatenate S2016x2 1 [⟨S2016x1, u⟩, ⟨S2016x1, v⟩] concatenates_S2016x1_S2016x1_S2016x2_d1 (ix2 k (1 : Fin 2))
      = v (ix2 k (0 : Fin 1)) :=
  concatenate_pair_apply_right (1 : Fin 2) u v concatenates_S2016x1_S2016x1_S2016x2_d1 (ix2 k (1 : Fin 2)) rfl rfl
    (ix2 k (0 : Fin 1)) (fun b hb => by match b with | ⟨0, _⟩ => rfl | ⟨1, _⟩ => exact absurd rfl hb) rfl

/-- Column 0 of the table's row `k` is the row word at `k`. -/
theorem tbl_row (k : Fin 2016) : RefValue.tbl F (ix2 k (0 : Fin 2)) = RefValue.rowWords F (ix1 k) := by
  unfold RefValue.tbl
  rw [pair_apply_zero, col_apply]

/-- Column 1 of the table's row `k` is the column word at `k`. -/
theorem tbl_col (k : Fin 2016) : RefValue.tbl F (ix2 k (1 : Fin 2)) = RefValue.colWords F (ix1 k) := by
  unfold RefValue.tbl
  rw [pair_apply_one, col_apply]

local notation "gd" => gather_S8192x64x64_S2016x2_S8192x2016_0_12_n_n_12_1_819211

/-- The start-indices index at which result index `(b, k)` reads component `c` of its index vector is `(k, c)`. -/
theorem siIdx_eq (b : Fin 8192) (k : Fin 2016) (c : Fin (gd).startIndexMap.length) :
    (gd).siIdx (ix2 b k) c = ix2 k (⟨c.val, c.isLt⟩ : Fin 2) := by
  funext a
  refine Fin.ext ?_
  match a with
  | ⟨0, _⟩ => rfl
  | ⟨1, _⟩ => rfl

/-- THE GATHER READ AT `(b, k)`: where index vector `k` holds the words of `i < 64` and `j < 64`, the operand at `(b, i, j)`. -/
theorem gather_apply {α : Type} (z : S8192x64x64.Idx → α) (t : IVec S2016x2 32) (b : Fin 8192) (k : Fin 2016) (i j : Fin 64)
    (hi : t (ix2 k (0 : Fin 2)) = BitVec.ofNat 32 i.val) (hj : t (ix2 k (1 : Fin 2)) = BitVec.ofNat 32 j.val) :
    Host.gather gd z t (ix2 b k) = z (ix3 b i j) := by
  unfold Host.gather
  congr 1
  funext a
  refine Fin.ext ?_
  match a with
  | ⟨0, _⟩ =>
    -- the offset axis: start 0 (not start-indexed), no batching, offset coordinate the result's axis 0
    show (gd).start (ix2 b k) t 0 + (gd).batchCoord (ix2 b k) 0 + (gd).offCoord (ix2 b k) 0 = b.val
    rw [GatherDims.batchCoord_eq_zero _ _ _ List.not_mem_nil]
    unfold GatherDims.start GatherDims.offCoord
    rw [dif_neg (by decide), dif_pos (by decide)]
    simp only [Nat.add_zero, Nat.zero_add]
    rfl
  | ⟨1, _⟩ =>
    -- a collapsed axis: start the first component of index vector k, clamped to [0, 63]
    show (gd).start (ix2 b k) t 1 + (gd).batchCoord (ix2 b k) 1 + (gd).offCoord (ix2 b k) 1 = i.val
    rw [GatherDims.batchCoord_eq_zero _ _ _ List.not_mem_nil,
      GatherDims.offCoord_eq_zero _ _ _ (by rw [GatherDims.mem_sKept]; decide)]
    unfold GatherDims.start
    rw [dif_pos (by decide), siIdx_eq]
    show min (t (ix2 k (0 : Fin 2))).toInt.toNat (64 - 1) + 0 + 0 = i.val
    rw [hi, StableHlo.Predicate.toInt_ofNat_small i.val (by omega), Int.toNat_natCast]
    omega
  | ⟨2, _⟩ =>
    -- the other collapsed axis: start the second component of index vector k, clamped to [0, 63]
    show (gd).start (ix2 b k) t 2 + (gd).batchCoord (ix2 b k) 2 + (gd).offCoord (ix2 b k) 2 = j.val
    rw [GatherDims.batchCoord_eq_zero _ _ _ List.not_mem_nil,
      GatherDims.offCoord_eq_zero _ _ _ (by rw [GatherDims.mem_sKept]; decide)]
    unfold GatherDims.start
    rw [dif_pos (by decide), siIdx_eq]
    show min (t (ix2 k (1 : Fin 2))).toInt.toNat (64 - 1) + 0 + 0 = j.val
    rw [hj, StableHlo.Predicate.toInt_ofNat_small j.val (by omega), Int.toNat_natCast]
    omega

end Cert.ReferenceIdeal.RefGather

end
-- ==== Proof.RefGram.lean ====
/-
  The reference's Gram array read at an entry.

  The host's `dot_general` with batch axes `[0] × [0]` and contracted axes `[2] × [2]`, applied to an
  array `x` of shape `[8192, 64, 256]` and itself, is at entry `(b, i, j)` the sum over the contraction
  index of the products of the operands read at the dot's operand indices.  The contraction index has
  one coordinate `d < 256`; the left operand's index at `(b, i, j)` and `d` is `(b, i, d)`, the right
  operand's is `(b, j, d)`.  So the entry is `∑ d < 256, x (b, i, d) · x (b, j, d)`.
-/
import proofs.«140513_j44092134261025_1_alg».proof.Proof.RefTerm
import proofs.«140513_j44092134261025_1_alg».proof.Proof.Spec
import Idealize.ShloMosaic.Lib.ValueIdx
import Idealize.ShloMosaic.PureOps.Ideal.Laws

noncomputable section

open scoped BigOperators

namespace Cert.ReferenceIdeal.RefGram

open Cert.ReferenceIdeal Idealize.ShloMosaic Idealize.ShloMosaic.ValueIdx

/-- The dot contracts one axis … -/
theorem contr_rank : (dot_S8192x64x256_S8192x64x256_S8192x64x64_2_2_1_1_0_0).contr.rank = 1 := rfl
/-- … of extent 256. -/
theorem contr_size :
    (dot_S8192x64x256_S8192x64x256_S8192x64x64_2_2_1_1_0_0).contr.size ⟨0, by rw [contr_rank]; exact Nat.one_pos⟩ = 256 := rfl

/-- The left operand's batch axis reads the result's batch coordinate. -/
theorem lhs_0 (j : S8192x64x64.Idx) (k : (dot_S8192x64x256_S8192x64x256_S8192x64x64_2_2_1_1_0_0).contr.Idx) :
    ((dot_S8192x64x256_S8192x64x256_S8192x64x64_2_2_1_1_0_0).lhsIdx j k 0).val = (j 0).val := rfl

/-- The left operand's row axis reads the result's row coordinate. -/
theorem lhs_1 (j : S8192x64x64.Idx) (k : (dot_S8192x64x256_S8192x64x256_S8192x64x64_2_2_1_1_0_0).contr.Idx) :
    ((dot_S8192x64x256_S8192x64x256_S8192x64x64_2_2_1_1_0_0).lhsIdx j k 1).val = (j 1).val := rfl

/-- The left operand's contracted axis reads the contraction coordinate. -/
theorem lhs_2 (j : S8192x64x64.Idx) (k : (dot_S8192x64x256_S8192x64x256_S8192x64x64_2_2_1_1_0_0).contr.Idx) :
    ((dot_S8192x64x256_S8192x64x256_S8192x64x64_2_2_1_1_0_0).lhsIdx j k 2).val = (k ⟨0, by rw [contr_rank]; exact Nat.one_pos⟩).val :=
  DotDims.lhsIdx_val_of_single _ rfl j k

/-- The right operand's batch axis reads the result's batch coordinate. -/
theorem rhs_0 (j : S8192x64x64.Idx) (k : (dot_S8192x64x256_S8192x64x256_S8192x64x64_2_2_1_1_0_0).contr.Idx) :
    ((dot_S8192x64x256_S8192x64x256_S8192x64x64_2_2_1_1_0_0).rhsIdx j k 0).val = (j 0).val := rfl

/-- The right operand's row axis reads the result's column coordinate. -/
theorem rhs_1 (j : S8192x64x64.Idx) (k : (dot_S8192x64x256_S8192x64x256_S8192x64x64_2_2_1_1_0_0).contr.Idx) :
    ((dot_S8192x64x256_S8192x64x256_S8192x64x64_2_2_1_1_0_0).rhsIdx j k 1).val = (j 2).val := rfl

/-- The right operand's contracted axis reads the contraction coordinate. -/
theorem rhs_2 (j : S8192x64x64.Idx) (k : (dot_S8192x64x256_S8192x64x256_S8192x64x64_2_2_1_1_0_0).contr.Idx) :
    ((dot_S8192x64x256_S8192x64x256_S8192x64x64_2_2_1_1_0_0).rhsIdx j k 2).val = (k ⟨0, by rw [contr_rank]; exact Nat.one_pos⟩).val :=
  DotDims.rhsIdx_val_of_single _ rfl j k

/-- The left operand's index at result entry `(b, i, j)` and contraction coordinate `d` is `(b, i, d)`. -/
theorem lhsIdx_eq (b : Fin 8192) (i j : Fin 64) (d : Fin 256) :
    (dot_S8192x64x256_S8192x64x256_S8192x64x64_2_2_1_1_0_0).lhsIdx (ix3 b i j) ((contrEquiv1 dot_S8192x64x256_S8192x64x256_S8192x64x64_2_2_1_1_0_0 256 contr_rank contr_size).symm d) = ix3 b i d := by
  funext a
  match a with
  | ⟨0, _⟩ => exact Fin.ext (lhs_0 _ _)
  | ⟨1, _⟩ => exact Fin.ext (lhs_1 _ _)
  | ⟨2, _⟩ => exact Fin.ext ((lhs_2 _ _).trans (contrEquiv1_symm_val _ 256 contr_rank contr_size d))

/-- The right operand's index there is `(b, j, d)`. -/
theorem rhsIdx_eq (b : Fin 8192) (i j : Fin 64) (d : Fin 256) :
    (dot_S8192x64x256_S8192x64x256_S8192x64x64_2_2_1_1_0_0).rhsIdx (ix3 b i j) ((contrEquiv1 dot_S8192x64x256_S8192x64x256_S8192x64x64_2_2_1_1_0_0 256 contr_rank contr_size).symm d) = ix3 b j d := by
  funext a
  match a with
  | ⟨0, _⟩ => exact Fin.ext (rhs_0 _ _)
  | ⟨1, _⟩ => exact Fin.ext (rhs_1 _ _)
  | ⟨2, _⟩ => exact Fin.ext ((rhs_2 _ _).trans (contrEquiv1_symm_val _ 256 contr_rank contr_size d))

/-- The Gram array read at an entry: the inner product of rows `i` and `j` of batch `b`. -/
theorem gram_apply (x : FVec Ideal S8192x64x256 .f32) (b : Fin 8192) (i j : Fin 64) :
    RefValue.gram (F := Ideal) x (ix3 b i j) = Cert.Spec.gramAt x b i j := by
  unfold RefValue.gram Cert.Spec.gramAt
  simp only [Host.dotGeneral]
  rw [Ideal.dotGeneral_apply,
    ← Equiv.sum_comp (contrEquiv1 dot_S8192x64x256_S8192x64x256_S8192x64x64_2_2_1_1_0_0 256 contr_rank contr_size).symm]
  exact Finset.sum_congr rfl fun d _ => by rw [lhsIdx_eq, rhsIdx_eq]

end Cert.ReferenceIdeal.RefGram

end
-- ==== Proof.RefDivMod.lean ====
/-
  Floor division, floor remainder and the negative-index wrap of signed 32-bit words, read at one
  element for a non-negative dividend and a positive divisor.

  For 0 ≤ v < 2³¹ and 0 < d < 2³¹ the truncated signed quotient and remainder of v by d are the
  natural-number v / d and v % d: neither operand has its sign bit set, so signed division is unsigned
  division, and neither corner (a zero divisor, the least word divided by minus one) is met.
  Floor division then subtracts one only where the sign words differ AND the remainder is non-zero;
  the sign of d is 1 and the sign of v is 0 or 1, so they differ only at v = 0, where the remainder
  0 % d is zero: the correction never fires.  Floor remainder adds the divisor only where the
  remainder's negativity differs from the divisor's: neither is negative.  The wrap adds 64 only to
  negative words.
-/
import proofs.«140513_j44092134261025_1_alg».proof.Proof.RefTerm
import Idealize.ShloMosaic.Lib.ValueIdx
import Idealize.ShloMosaic.Lib.StableHlo.Predicate

namespace Cert.ReferenceIdeal.RefDivMod

open Cert.ReferenceIdeal Idealize.ShloMosaic
open Idealize.ShloMosaic.StableHlo.Predicate Idealize.ShloMosaic.ValueIdx

/-! ## Words -/

theorem toNat_ofNat_small (v : ℕ) (hv : v < 2 ^ 31) : (BitVec.ofNat 32 v).toNat = v := by
  rw [BitVec.toNat_ofNat]; exact Nat.mod_eq_of_lt (by omega)

theorem msb_ofNat_small (v : ℕ) (hv : v < 2 ^ 31) : (BitVec.ofNat 32 v).msb = false :=
  BitVec.msb_eq_false_iff_two_mul_lt.mpr (by rw [toNat_ofNat_small v hv]; omega)

theorem ofNat_ne_zero (d : ℕ) (hd : 0 < d) (hd' : d < 2 ^ 31) : BitVec.ofNat 32 d ≠ 0#32 := by
  intro h
  have := congrArg BitVec.toNat h
  rw [toNat_ofNat_small d hd'] at this
  simp at this; omega

theorem not_corner (x : BitVec 32) (d : ℕ) (hd : 0 < d) (hd' : d < 2 ^ 31) :
    ¬ IntOp.SDivCorner x (BitVec.ofNat 32 d) := by
  intro hc
  rcases hc with hc | ⟨_, hc⟩
  · exact ofNat_ne_zero d hd hd' hc
  · have := congrArg BitVec.toNat hc
    rw [toNat_ofNat_small d hd'] at this
    simp at this; omega

/-- The truncated signed quotient of a non-negative word by a positive word is the quotient of the values. -/
theorem divsi_small (v d : ℕ) (hv : v < 2 ^ 31) (hd : 0 < d) (hd' : d < 2 ^ 31) :
    IntOp.divsi .host (BitVec.ofNat 32 v) (BitVec.ofNat 32 d) = BitVec.ofNat 32 (v / d) := by
  simp only [IntOp.divsi, if_neg (not_corner _ d hd hd'), BitVec.sdiv_eq, msb_ofNat_small v hv, msb_ofNat_small d hd',
    BitVec.udiv_eq]
  apply BitVec.eq_of_toNat_eq
  have hq : v / d < 2 ^ 31 := lt_of_le_of_lt (Nat.div_le_self v d) hv
  rw [BitVec.toNat_udiv, toNat_ofNat_small v hv, toNat_ofNat_small d hd', toNat_ofNat_small _ hq]

/-- The truncated signed remainder of a non-negative word by a positive word is the remainder of the values. -/
theorem remsi_small (v d : ℕ) (hv : v < 2 ^ 31) (hd : 0 < d) (hd' : d < 2 ^ 31) :
    IntOp.remsi .host (BitVec.ofNat 32 v) (BitVec.ofNat 32 d) = BitVec.ofNat 32 (v % d) := by
  simp only [IntOp.remsi, if_neg (not_corner _ d hd hd'), BitVec.srem_eq, msb_ofNat_small v hv, msb_ofNat_small d hd',
    BitVec.umod_eq]
  apply BitVec.eq_of_toNat_eq
  have hq : v % d < 2 ^ 31 := lt_of_le_of_lt (Nat.mod_le v d) hv
  rw [BitVec.toNat_umod, toNat_ofNat_small v hv, toNat_ofNat_small d hd', toNat_ofNat_small _ hq]

/-! ## Signs and comparisons of small words -/

/-- The sign word of a small positive word is one. -/
theorem sign_pos (d : ℕ) (hd : 0 < d) (hd' : d < 2 ^ 31) :
    (if BitVec.ofNat 32 d = 0 then (0 : BitVec 32) else if (BitVec.ofNat 32 d).msb then -1 else 1) = 1#32 := by
  rw [if_neg (show ¬ BitVec.ofNat 32 d = (0 : BitVec 32) from ofNat_ne_zero d hd hd'), msb_ofNat_small d hd']; rfl

/-- A small word is not negative. -/
theorem slt_zero_small (v : ℕ) (hv : v < 2 ^ 31) : IntOp.cmpi .slt (BitVec.ofNat 32 v) 0#32 = 0#1 := by
  apply eq_zero_of_ne_one
  intro h
  have := (slt_iff_toNat (a := BitVec.ofNat 32 v) (b := 0#32) (by rw [toNat_ofNat_small v hv]; exact hv) (by decide)).mp h
  simp at this

/-- `ne` of a word with itself is the zero bit; of different words, the one bit. -/
theorem cmpi_ne_self {w : ℕ} (x : BitVec w) : IntOp.cmpi .ne x x = 0#1 := by
  simp [IntOp.cmpi]

/-! ## The three chains at one element -/

theorem floorDiv_eval (a : IVec S2016 32) (c : BitVec 32) (k : S2016.Idx) :
    RefValue.floorDiv a (constantI S_ 32 c) k =
      Scalar.select
        (IntOp.andi
          (IntOp.cmpi .ne (if a k = 0 then (0 : BitVec 32) else if (a k).msb then -1 else 1)
            (if c = 0 then (0 : BitVec 32) else if c.msb then -1 else 1))
          (IntOp.cmpi .ne (IntOp.remsi .host (a k) c) 0#32))
        (IntOp.subi (IntOp.divsi .host (a k) c) 1#32) (IntOp.divsi .host (a k) c) := rfl

theorem floorRem_eval (a : IVec S2016 32) (c : BitVec 32) (k : S2016.Idx) :
    RefValue.floorRem a (constantI S_ 32 c) k =
      Scalar.select
        (IntOp.andi
          (IntOp.cmpi .ne (IntOp.cmpi .slt (IntOp.remsi .host (a k) (Scalar.select (IntOp.cmpi .eq c 0#32) 1#32 c)) 0#32)
            (IntOp.cmpi .slt (Scalar.select (IntOp.cmpi .eq c 0#32) 1#32 c) 0#32))
          (IntOp.cmpi .ne (IntOp.remsi .host (a k) (Scalar.select (IntOp.cmpi .eq c 0#32) 1#32 c)) 0#32))
        (IntOp.addi (IntOp.remsi .host (a k) (Scalar.select (IntOp.cmpi .eq c 0#32) 1#32 c)) (Scalar.select (IntOp.cmpi .eq c 0#32) 1#32 c))
        (IntOp.remsi .host (a k) (Scalar.select (IntOp.cmpi .eq c 0#32) 1#32 c)) := rfl

theorem wrap64_eval (a : IVec S2016 32) (k : S2016.Idx) :
    RefValue.wrap64 a k = Scalar.select (IntOp.cmpi .slt (a k) 0#32) (IntOp.addi (a k) 64#32) (a k) := rfl

theorem floorDiv_apply (a : IVec S2016 32) (d : ℕ) (hd : 0 < d) (hd' : d < 2 ^ 31) (k : S2016.Idx) (v : ℕ) (hv : v < 2 ^ 31)
    (ha : a k = BitVec.ofNat 32 v) :
    RefValue.floorDiv a (constantI S_ 32 (BitVec.ofNat 32 d)) k = BitVec.ofNat 32 (v / d) := by
  rw [floorDiv_eval, ha, divsi_small v d hv hd hd', remsi_small v d hv hd hd', sign_pos d hd hd']
  by_cases h0 : v = 0
  · -- at v = 0 the sign words differ, and the remainder 0 % d is zero
    subst h0
    rw [Nat.zero_mod, cmpi_ne_self]
    have : IntOp.andi (IntOp.cmpi .ne (if BitVec.ofNat 32 0 = 0 then (0 : BitVec 32) else if (BitVec.ofNat 32 0).msb then -1 else 1) 1#32) 0#1 = 0#1 := by
      simp [IntOp.andi]
    rw [this, select_zero]
  · -- at v > 0 both sign words are one
    have hv0 : 0 < v := Nat.pos_of_ne_zero h0
    rw [sign_pos v hv0 hv, cmpi_ne_self]
    have : ∀ x : BitVec 1, IntOp.andi 0#1 x = 0#1 := by intro x; simp [IntOp.andi]
    rw [this, select_zero]

theorem floorRem_apply (a : IVec S2016 32) (d : ℕ) (hd : 0 < d) (hd' : d < 2 ^ 31) (k : S2016.Idx) (v : ℕ) (hv : v < 2 ^ 31)
    (ha : a k = BitVec.ofNat 32 v) :
    RefValue.floorRem a (constantI S_ 32 (BitVec.ofNat 32 d)) k = BitVec.ofNat 32 (v % d) := by
  have hsel : Scalar.select (IntOp.cmpi .eq (BitVec.ofNat 32 d) 0#32) 1#32 (BitVec.ofNat 32 d) = BitVec.ofNat 32 d := by
    have : IntOp.cmpi .eq (BitVec.ofNat 32 d) 0#32 = 0#1 :=
      eq_zero_of_ne_one (fun h => ofNat_ne_zero d hd hd' (cmpi_eq_iff.mp h))
    rw [this, select_zero]
  have hr : v % d < 2 ^ 31 := lt_of_le_of_lt (Nat.mod_le v d) hv
  rw [floorRem_eval, hsel, ha, remsi_small v d hv hd hd', slt_zero_small _ hr, slt_zero_small d hd', cmpi_ne_self]
  have : ∀ x : BitVec 1, IntOp.andi 0#1 x = 0#1 := by intro x; simp [IntOp.andi]
  rw [this, select_zero]

theorem wrap64_apply (a : IVec S2016 32) (k : S2016.Idx) (v : ℕ) (hv : v < 2 ^ 31) (ha : a k = BitVec.ofNat 32 v) :
    RefValue.wrap64 a k = BitVec.ofNat 32 v := by
  rw [wrap64_eval, ha, slt_zero_small v hv, select_zero]

end Cert.ReferenceIdeal.RefDivMod
-- ==== Proof.LibCumsum.lean ====
/-
  A one-axis running sum of 32-bit words.

  `reduce_window` with an `add` body, a window as long as the axis, stride one and the whole
  padding on the low side is the inclusive prefix sum: element `p` of the result adds the operand's
  elements `0 … p` (the window of element `p` covers padded positions `p … p + n - 1`, that is the
  operand's positions `p - (n - 1) … p`, of which the non-negative ones are real and the rest hold
  the initial value zero).  Word addition is addition modulo 2 ^ 32, so the result is the word of
  the sum of the values whether or not that sum wraps.
-/
import Idealize.ShloMosaic.PureOps
import Idealize.ShloMosaic.Lib.ValueIdx
import Mathlib.Algebra.BigOperators.Fin
import Mathlib.Algebra.BigOperators.Intervals

noncomputable section

namespace Idealize.ShloMosaic.LibCumsum

open Idealize.ShloMosaic Idealize.ShloMosaic.ValueIdx

/-- A left fold of word addition adds to the accumulator the word of the sum of the values:
    word addition is addition modulo `2 ^ 32`, and reduction modulo `2 ^ 32` is additive. -/
theorem foldl_addi_eq {α : Type} (l : List α) (g : α → BitVec 32) (v : BitVec 32) :
    l.foldl (fun r a => IntOp.addi r (g a)) v
      = v + BitVec.ofNat 32 ((l.map fun a => (g a).toNat).sum) := by
  induction l generalizing v with
  | nil => simp
  | cons a l ih =>
    rw [List.foldl_cons, ih, List.map_cons, List.sum_cons, BitVec.ofNat_add, ← BitVec.add_assoc]
    congr 1
    show v + g a = v + BitVec.ofNat 32 (g a).toNat
    rw [BitVec.ofNat_toNat, BitVec.setWidth_eq]

/-- The rank-1 indices of an axis of length `n` are its `n` coordinates. -/
def idxEquiv1 {n : ℕ} : Fin n ≃ (⟨1, ![n]⟩ : Shape).Idx where
  toFun := ix1
  invFun := fun i => i 0
  left_inv := fun _ => rfl
  right_inv := fun i => (eq_ix1 i).symm

/-- The window positions `k` of element `p` that fall on the operand (`lo ≤ p + k`) read its
    positions `p + k - lo = 0 … p`, each once: the shift `k ↦ p + k - lo` is a bijection from
    `lo - p … lo` onto `0 … p`. -/
theorem sum_window_eq {n lo : ℕ} (hlo : lo + 1 = n) (f : ℕ → ℕ) (p : ℕ) (hp : p < n) :
    (∑ k ∈ Finset.range n, if lo ≤ p + k then f (p + k - lo) else 0)
      = ∑ q ∈ Finset.range n, if q ≤ p then f q else 0 := by
  rw [← Finset.sum_filter, ← Finset.sum_filter]
  refine Finset.sum_nbij' (fun k => p + k - lo) (fun q => q + lo - p) ?_ ?_ ?_ ?_ ?_
  · intro k hk
    simp only [Finset.mem_filter, Finset.mem_range] at hk ⊢
    omega
  · intro q hq
    simp only [Finset.mem_filter, Finset.mem_range] at hq ⊢
    omega
  · intro k hk
    simp only [Finset.mem_filter, Finset.mem_range] at hk
    show p + k - lo + lo - p = k
    omega
  · intro q hq
    simp only [Finset.mem_filter, Finset.mem_range] at hq
    show p + (q + lo - p) - lo = q
    omega
  · intro k _
    rfl

/-- The inclusive prefix sum: element `p` is the word of the sum of the values of elements `0 … p`. -/
theorem cumsum_apply {n lo : ℕ} (hlo : lo + 1 = n)
    (x : (⟨1, ![n]⟩ : Shape).Idx → BitVec 32) (init : (⟨0, ![]⟩ : Shape).Idx → BitVec 32)
    (h0 : init ix0 = 0#32)
    (h : (⟨1, ![n]⟩ : Shape).ReduceWindows (![n] : Fin 1 → ℕ) ![1] ![lo] ![0] ⟨1, ![n]⟩)
    (hu : 0 < (⟨0, ![]⟩ : Shape).numel) (p : Fin n) :
    Host.reduceWindow IntOp.addi (![n] : Fin 1 → ℕ) ![1] ![lo] ![0] x init h hu (ix1 p)
      = BitVec.ofNat 32 (∑ q : Fin n, if q.val ≤ p.val then (x (ix1 q)).toNat else 0) := by
  have hv : init (Shape.Idx.first hu) = 0#32 := by rw [eq_ix0 (Shape.Idx.first hu)]; exact h0
  -- the operand's values as a function of a natural position, zero past the end
  set f : ℕ → ℕ := fun m => if hm : m < n then (x (ix1 ⟨m, hm⟩)).toNat else 0 with hf
  unfold Host.reduceWindow
  simp only []
  rw [foldl_addi_eq, hv, BitVec.zero_add]
  congr 1
  rw [← Fin.sum_univ_def]
  have hp : p.val < n := p.isLt
  -- the window positions in row-major order are the rank-1 indices, that is the coordinates `k`
  let e : Fin (⟨1, ![n]⟩ : Shape).numel ≃ Fin n :=
    (⟨1, ![n]⟩ : Shape).rowMajor.symm.trans idxEquiv1.symm
  refine (Fintype.sum_equiv e _
    (fun k : Fin n => if lo ≤ p.val + k.val then f (p.val + k.val - lo) else 0) ?_).trans ?_
  · -- position `k` of the window of element `p` is padded position `p + k`: operand position
    -- `p + k - lo` when `lo ≤ p + k` (then below `n`, as `p + k ≤ 2 * lo`), else padding
    intro i
    show _ = if lo ≤ p.val + ((⟨1, ![n]⟩ : Shape).rowMajor.symm i 0).val
      then f (p.val + ((⟨1, ![n]⟩ : Shape).rowMajor.symm i 0).val - lo) else 0
    have hk : ((⟨1, ![n]⟩ : Shape).rowMajor.symm i 0).val < n := ((⟨1, ![n]⟩ : Shape).rowMajor.symm i 0).isLt
    split
    · rename_i hin
      have h1 : lo ≤ p.val * 1 + ((⟨1, ![n]⟩ : Shape).rowMajor.symm i 0).val ∧ p.val * 1 + ((⟨1, ![n]⟩ : Shape).rowMajor.symm i 0).val - lo < n := hin 0
      rw [if_pos (by omega), hf]
      simp only []
      rw [dif_pos (by omega)]
      congr 2
      funext a
      match a with
      | ⟨0, _⟩ => exact Fin.ext (by
          show p.val * 1 + ((⟨1, ![n]⟩ : Shape).rowMajor.symm i 0).val - lo = p.val + ((⟨1, ![n]⟩ : Shape).rowMajor.symm i 0).val - lo; omega)
    · rename_i hin
      rw [if_neg]
      · rfl
      · intro hc
        exact hin (Fin.forall_fin_one.mpr (by
          show lo ≤ p.val * 1 + ((⟨1, ![n]⟩ : Shape).rowMajor.symm i 0).val ∧ p.val * 1 + ((⟨1, ![n]⟩ : Shape).rowMajor.symm i 0).val - lo < n; omega))
  · -- the shift to operand positions, then the values past the end never enter
    rw [Fin.sum_univ_eq_sum_range (fun k => if lo ≤ p.val + k then f (p.val + k - lo) else 0) n,
      sum_window_eq hlo f p.val hp, ← Fin.sum_univ_eq_sum_range (fun q => if q ≤ p.val then f q else 0) n]
    refine Finset.sum_congr rfl fun q _ => ?_
    rw [hf]
    simp only []
    rw [dif_pos q.isLt]

end Idealize.ShloMosaic.LibCumsum

end
-- ==== Proof.LibBincount.lean ====
/-
  Counting with a scatter-add of ones.

  A `scatter` with an `add` body of `n` scalar updates, all equal to one, into a length-`N` array
  of zeros, update `p` landing at the index word `idx p` read as a signed integer (an update whose
  index falls outside `[0, N)` is dropped, none is clamped): element `k` of the result is the number
  of updates whose index is `k`, as a 32-bit word.
-/
import Idealize.ShloMosaic.PureOps
import Idealize.ShloMosaic.Lib.ValueIdx

noncomputable section

namespace Idealize.ShloMosaic.LibBincount

open Idealize.ShloMosaic Idealize.ShloMosaic.ValueIdx

/-- The dimension numbers of `x.at[idx].add(v)` on a flat array: the operand's one axis inserted,
    the index vector on axis 1 of the `[n, 1]` index array. -/
abbrev addAtDims (N n : ℕ) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section
variable {N n : ℕ} (wf : ScatterDims.WF ⟨1, ![N]⟩ ⟨2, ![n, 1]⟩ ⟨1, ![n]⟩ [] [0] [0] 1)

/-- The one coordinate of a rank-1 index. -/
theorem ix1_val {m : ℕ} (p : Fin m) (X : Fin 1) : (ix1 p X).val = p.val := by
  obtain rfl : X = 0 := Subsingleton.elim _ _
  rfl

/-- The window start of update `p` on the operand's one axis: the index word of row `p`, read signed. -/
theorem start_eq (idx : IVec ⟨2, ![n, 1]⟩ 32) (p : Fin n) :
    (addAtDims N n wf).start (ix1 p) idx 0 = (idx (ix2 p (0 : Fin 1))).toInt := by
  unfold ScatterDims.start
  rw [dif_pos (show (0 : Fin 1) ∈ (addAtDims N n wf).scatterDimsToOperandDims from List.mem_singleton.mpr rfl)]
  congr 2
  funext b
  refine Fin.ext ?_
  match b with
  | ⟨0, _⟩ => exact ix1_val p _
  | ⟨1, _⟩ => rfl

/-- The operand's one axis is inserted: the window coordinate on it is zero. -/
theorem window_eq (p : Fin n) : (addAtDims N n wf).window (ix1 p) 0 = 0 := by
  unfold ScatterDims.window
  rw [dif_neg]
  simp [ScatterDims.sKept, Shape.kept]

/-- Update `p` lands at its index word read signed, when that is inside the operand; it is dropped otherwise. -/
theorem resultIdx?_eq (idx : IVec ⟨2, ![n, 1]⟩ 32) (p : Fin n) :
    (addAtDims N n wf).resultIdx? (ix1 p) idx =
      if h : 0 ≤ (idx (ix2 p (0 : Fin 1))).toInt ∧ (idx (ix2 p (0 : Fin 1))).toInt < (N : ℤ) then
        some (ix1 ⟨(idx (ix2 p (0 : Fin 1))).toInt.toNat, by omega⟩)
      else none := by
  unfold ScatterDims.resultIdx?
  have hall : (∀ a : Fin 1, 0 ≤ (addAtDims N n wf).start (ix1 p) idx a + ((addAtDims N n wf).window (ix1 p) a : ℤ) ∧
      (addAtDims N n wf).start (ix1 p) idx a + ((addAtDims N n wf).window (ix1 p) a : ℤ) < ((⟨1, ![N]⟩ : Shape).size a : ℤ)) ↔
      (0 ≤ (idx (ix2 p (0 : Fin 1))).toInt ∧ (idx (ix2 p (0 : Fin 1))).toInt < (N : ℤ)) := by
    constructor
    · intro h
      have := h 0
      rw [start_eq, window_eq] at this
      simpa using this
    · intro h a
      obtain rfl : a = 0 := Subsingleton.elim _ _
      rw [start_eq, window_eq]
      simpa using h
  by_cases h : 0 ≤ (idx (ix2 p (0 : Fin 1))).toInt ∧ (idx (ix2 p (0 : Fin 1))).toInt < (N : ℤ)
  · rw [dif_pos (hall.2 h), dif_pos h]
    congr 1
    funext a
    obtain rfl : a = 0 := Subsingleton.elim _ _
    refine Fin.ext ?_
    show ((addAtDims N n wf).start (ix1 p) idx 0 + ((addAtDims N n wf).window (ix1 p) 0 : ℤ)).toNat = _
    rw [start_eq, window_eq, Nat.cast_zero, add_zero]
    rfl
  · rw [dif_neg (fun h' => h (hall.1 h')), dif_neg h]

/-- Rank-1 indices are equal exactly when their coordinates are. -/
theorem ix1_inj {m : ℕ} (a b : Fin m) : ix1 a = ix1 b ↔ a = b :=
  ⟨fun h => congrFun h 0, fun h => by rw [h]⟩

/-- A fold whose step, read at element `k`, adds one when the position's signed index is `k` and nothing otherwise:
    read at `k`, it is the start value plus the number of listed positions whose signed index is `k`. -/
theorem fold_apply {M : ℕ} (c : Fin M → ℤ) (k : Fin N)
    (step : ((⟨1, ![N]⟩ : Shape).Idx → BitVec 32) → Fin M → (⟨1, ![N]⟩ : Shape).Idx → BitVec 32)
    (hstep : ∀ r m, step r m (ix1 k) = r (ix1 k) + (if c m = (k.val : ℤ) then 1#32 else 0#32))
    (L : List (Fin M)) (r : (⟨1, ![N]⟩ : Shape).Idx → BitVec 32) :
    (L.foldl step r) (ix1 k) = r (ix1 k) + BitVec.ofNat 32 (L.countP fun m => decide (c m = (k.val : ℤ))) := by
  induction L generalizing r with
  | nil => simp
  | cons m L ih =>
    rw [List.foldl_cons, ih, hstep, List.countP_cons, BitVec.add_assoc]
    congr 1
    by_cases hk : c m = (k.val : ℤ)
    · simp [hk, BitVec.ofNat_add, BitVec.add_comm]
    · simp [hk]

/-- A flat position of a one-axis shape and its one coordinate. -/
def flat1 (n : ℕ) : Fin (⟨1, ![n]⟩ : Shape).numel ≃ Fin n :=
  (⟨1, ![n]⟩ : Shape).rowMajor.symm.trans
    { toFun := fun j => j 0, invFun := fun p => ix1 p, left_inv := fun j => (eq_ix1 j).symm, right_inv := fun _ => rfl }

/-- Counting along the list of all positions is the size of the filter. -/
theorem countP_finRange (M : ℕ) (P : Fin M → Prop) [DecidablePred P] :
    (List.finRange M).countP (fun m => decide (P m)) = (Finset.univ.filter P).card := by
  rw [Finset.card_def, Finset.filter_val, ← Multiset.countP_eq_card_filter, Fin.univ_def]
  simp

end

/-- Element `k` counts the updates whose signed index is `k`. -/
theorem bincount_apply {N n : ℕ} (wf : ScatterDims.WF ⟨1, ![N]⟩ ⟨2, ![n, 1]⟩ ⟨1, ![n]⟩ [] [0] [0] 1)
    (idx : IVec ⟨2, ![n, 1]⟩ 32) (k : Fin N) :
    Host.scatter (addAtDims N n wf) IntOp.addi (fun _ => (0#32 : BitVec 32)) idx (fun _ => (1#32 : BitVec 32)) (ix1 k)
      = BitVec.ofNat 32 ((Finset.univ.filter fun p : Fin n => (idx (ix2 p (0 : Fin 1))).toInt = (k.val : ℤ)).card) := by
  unfold Host.scatter
  refine (fold_apply (fun m => (idx (ix2 ((⟨1, ![n]⟩ : Shape).rowMajor.symm m 0) (0 : Fin 1))).toInt) k _
    (fun r m => ?_) (List.finRange _) (fun _ => 0#32)).trans ?_
  · -- one step at update position `m`, read at element `k`
    beta_reduce
    generalize (⟨1, ![n]⟩ : Shape).rowMajor.symm m = j
    obtain ⟨q, rfl⟩ : ∃ q : Fin n, j = ix1 q := ⟨j 0, eq_ix1 j⟩
    rw [resultIdx?_eq]
    show _ = r (ix1 k) + (if (idx (ix2 q (0 : Fin 1))).toInt = (k.val : ℤ) then 1#32 else 0#32)
    by_cases h : 0 ≤ (idx (ix2 q (0 : Fin 1))).toInt ∧ (idx (ix2 q (0 : Fin 1))).toInt < (N : ℤ)
    · rw [dif_pos h]
      show (if ix1 k = ix1 _ then IntOp.addi (r (ix1 _)) 1#32 else r (ix1 k)) = _
      by_cases hk : (idx (ix2 q (0 : Fin 1))).toInt = (k.val : ℤ)
      · have hk' : k = ⟨(idx (ix2 q (0 : Fin 1))).toInt.toNat, by omega⟩ := Fin.ext (by simp [hk])
        rw [if_pos ((ix1_inj _ _).2 hk'), if_pos hk, ← hk']
        rfl
      · have hk' : ¬ k = ⟨(idx (ix2 q (0 : Fin 1))).toInt.toNat, by omega⟩ := fun e => hk (by
          have := congrArg Fin.val e
          simp at this
          omega)
        rw [if_neg (fun e => hk' ((ix1_inj _ _).1 e)), if_neg hk, BitVec.add_zero]
    · rw [dif_neg h]
      have hk : ¬ (idx (ix2 q (0 : Fin 1))).toInt = (k.val : ℤ) := fun e => h (by
        have := k.isLt
        omega)
      rw [if_neg hk, BitVec.add_zero]
  · rw [BitVec.zero_add]
    congr 1
    rw [countP_finRange _ (fun m => (idx (ix2 ((⟨1, ![n]⟩ : Shape).rowMajor.symm m 0) (0 : Fin 1))).toInt = (k.val : ℤ))]
    refine Finset.card_equiv (flat1 n) (fun i => ?_)
    simp only [Finset.mem_filter, Finset.mem_univ, true_and]
    rfl

end Idealize.ShloMosaic.LibBincount

end
-- ==== Proof.RefCount.lean ====
/-
  The reference's mask, its running count and the scatter's indices, read at one position.

  The lower-triangular array of ones holds 1 at (i, j) exactly when i - 1 ≥ j as signed words, that is
  when j < i (at i = 0 the left side is -1, below every column); elsewhere it holds 0.  Comparing it
  with zero "unordered or not equal" on the extended reals gives the bit [j < i].  Flattening a
  64 × 64 array reads position p at (p / 64, p % 64), so the widened flat mask at p is the word
  [p % 64 < p / 64].  The inclusive running sum of those words at p is the word of the number of
  positions q ≤ p below the diagonal, `Tri.cnt p`.  That count is at most 2016 < 2 ^ 31, so as a signed
  word it is not negative: clipping it below at zero leaves it, and the wrap for negative words is
  not taken.
-/
import proofs.«140513_j44092134261025_1_alg».proof.Proof.RefTerm
import proofs.«140513_j44092134261025_1_alg».proof.Proof.Tri
import proofs.«140513_j44092134261025_1_alg».proof.Proof.LibCumsum
import Idealize.ShloMosaic.Lib.ValueIdx
import Idealize.ShloMosaic.Lib.StableHlo.Predicate
import Idealize.ShloMosaic.PureOps.Ideal
import Idealize.ShloMosaic.PureOps.Ideal.Laws
import Idealize.ShloMosaic.Lib.Pipeline.Value

noncomputable section

namespace Cert.ReferenceIdeal.RefCount

open Cert.ReferenceIdeal Idealize.ShloMosaic Idealize.ShloMosaic.ValueIdx
open Cert.ReferenceIdeal.Facts₀
open Idealize.ShloMosaic.StableHlo

/-- For row `i` and column `j` below 64, the signed comparison `i + (-1) ≥ j` of words holds exactly when
`j < i`: at `i = 0` the left side is the word of -1, otherwise it is the word of `i - 1`. -/
theorem sge_pred_iff (i j : ℕ) (hi : i < 64) (hj : j < 64) :
    IntOp.cmpi .sge (IntOp.addi (BitVec.ofNat 32 i) 4294967295#32) (BitVec.ofNat 32 j) = 1#1 ↔ j < i := by
  rcases Nat.eq_zero_or_pos i with rfl | hpos
  · have e : IntOp.addi (BitVec.ofNat 32 0) 4294967295#32 = 4294967295#32 := by decide
    rw [e]
    show BitVec.ofBool ((BitVec.ofNat 32 j).sle 4294967295#32) = 1#1 ↔ j < 0
    rw [Predicate.ofBool_eq_one_iff]
    have h1 : (4294967295#32 : BitVec 32).toInt = -1 := by decide
    have h2 := Predicate.toInt_ofNat_small j (by omega)
    simp only [BitVec.sle, h1, h2, decide_eq_true_eq]
    omega
  · have hm : (4294967295#32 : BitVec 32) = -1#32 := by decide
    have e : IntOp.addi (BitVec.ofNat 32 i) 4294967295#32 = BitVec.ofNat 32 (i - 1) := by
      show BitVec.ofNat 32 i + 4294967295#32 = BitVec.ofNat 32 (i - 1)
      rw [hm, BitVec.add_neg_eq_sub, Predicate.sub_one_ofNat i hpos (by omega)]
    have h1 : (BitVec.ofNat 32 (i - 1)).toNat = i - 1 := by
      rw [BitVec.toNat_ofNat]; exact Nat.mod_eq_of_lt (by omega)
    have h2 : (BitVec.ofNat 32 j).toNat = j := by
      rw [BitVec.toNat_ofNat]; exact Nat.mod_eq_of_lt (by omega)
    rw [e, Predicate.sge_iff_toNat (by rw [h1]; omega) (by rw [h2]; omega), h1, h2]
    omega

/-- The f32 pattern of one (sign 0, exponent field 127, fraction 0) denotes `2 ^ 23 · 2 ^ (-23) = 1`. -/
theorem ofBits_one_f32 : Ideal.ofBits .f32 0x3F800000#32 = 1 := by
  show Ideal.ieee 8 23 (0x3F800000#32 : BitVec 32) = 1
  unfold Ideal.ieee
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  simp only [hneg, hex, hfr]
  norm_num

/-- The lower-triangular array of ones at (i, j): 1 where `j < i`, else 0. -/
theorem trilOnes_apply (i j : Fin 64) :
    RefValue.trilOnes (F := Ideal) (ix2 i j) = if j.val < i.val then (1 : EReal) else 0 := by
  have h : RefValue.trilOnes (F := Ideal) (ix2 i j)
      = Scalar.select (IntOp.cmpi .sge (IntOp.addi (BitVec.ofNat 32 i.val) 4294967295#32) (BitVec.ofNat 32 j.val))
          (Ideal.ofBits .f32 0x3F800000#32) (Ideal.ofBits .f32 0x00000000#32) := rfl
  rw [h]
  by_cases hlt : j.val < i.val
  · rw [(sge_pred_iff i.val j.val i.isLt j.isLt).mpr hlt, select_one, if_pos hlt, ofBits_one_f32]
  · rw [eq_zero_of_ne_one (mt (sge_pred_iff i.val j.val i.isLt j.isLt).mp hlt), select_zero, if_neg hlt,
      Ideal.ofBits_zero_f32]

/-- The mask at (i, j) is the bit `[j < i]`. -/
theorem maskBits_apply (i j : Fin 64) :
    RefValue.maskBits Ideal (ix2 i j) = if j.val < i.val then 1#1 else 0#1 := by
  unfold RefValue.maskBits
  rw [cmpf_apply, trilOnes_apply]
  show Ideal.cmp .une (if j.val < i.val then (1 : EReal) else 0) (Ideal.ofBits .f32 0x00000000#32) = _
  rw [Ideal.ofBits_zero_f32]
  unfold Ideal.cmp
  by_cases hlt : j.val < i.val
  · simp [hlt]
  · simp [hlt]

/-- The flat mask, widened, at position `p`: the word `[p % 64 < p / 64]`. -/
theorem maskWords_apply (p : Fin 4096) :
    RefValue.maskWords Ideal (ix1 p) = if Cert.Tri.mask p.val = true then 1#32 else 0#32 := by
  have hp := p.isLt
  have h : RefValue.maskWords Ideal (ix1 p)
      = (shapeCast S4096 (RefValue.maskBits Ideal) shapeCasts_S64x64_S4096 (ix1 p)).setWidth 32 := rfl
  rw [h, shapeCast_apply _ _ (ix1 p) (ix2 (⟨p.val / 64, by omega⟩ : Fin 64) (⟨p.val % 64, by omega⟩ : Fin 64))
    (by rw [Shape.rowMajor_val_two, Shape.rowMajor_val_one]; show p.val / 64 * 64 + p.val % 64 = p.val; omega),
    maskBits_apply]
  unfold Cert.Tri.mask
  by_cases hlt : p.val % 64 < p.val / 64
  · simp [hlt]
  · simp [hlt]

/-- Adding the mask's values over the positions `q ≤ p` counts the positions `≤ p` below the diagonal. -/
theorem sum_mask_eq_cnt (p : ℕ) (hp : p < 4096) :
    (∑ q : Fin 4096, if q.val ≤ p then (if Cert.Tri.mask q.val = true then 1 else 0) else 0) = Cert.Tri.cnt p := by
  rw [Fin.sum_univ_eq_sum_range (fun q => if q ≤ p then (if Cert.Tri.mask q = true then 1 else 0) else 0) 4096,
    ← Finset.sum_filter]
  have hset : (Finset.range 4096).filter (fun q => q ≤ p) = Finset.range (p + 1) := by
    ext q
    simp only [Finset.mem_filter, Finset.mem_range]
    omega
  rw [hset]
  unfold Cert.Tri.cnt
  rw [Finset.card_filter]

/-- The running count at position `p` is the word of `Tri.cnt p`. -/
theorem csum_apply (p : Fin 4096) :
    RefValue.csum Ideal (ix1 p) = BitVec.ofNat 32 (Cert.Tri.cnt p.val) := by
  unfold RefValue.csum
  refine (LibCumsum.cumsum_apply (n := 4096) (lo := 4095) rfl (RefValue.maskWords Ideal)
    (broadcastInDim S_ ![] bcast_S_S_ (constantI S_ 32 0#32)) rfl
    reduceWindows_S4096_S4096_w4096s1p4095_0 h_S_ p).trans ?_
  refine congrArg (BitVec.ofNat 32) ?_
  rw [← sum_mask_eq_cnt p.val p.isLt]
  refine Finset.sum_congr rfl fun q _ => ?_
  rw [maskWords_apply]
  split_ifs <;> rfl

/-- The scatter's index at position `p` is the running count itself: it is not negative as a signed word. -/
theorem sidx_apply (p : Fin 4096) :
    RefValue.sidx Ideal (ix1 p) = BitVec.ofNat 32 (Cert.Tri.cnt p.val) := by
  have hc := Cert.Tri.cnt_le p.val p.isLt
  have h : RefValue.sidx Ideal (ix1 p)
      = Scalar.select (IntOp.cmpi .slt (IntOp.maxsi 0#32 (RefValue.csum Ideal (ix1 p))) 0#32)
          (IntOp.addi (IntOp.maxsi 0#32 (RefValue.csum Ideal (ix1 p))) 2016#32)
          (IntOp.maxsi 0#32 (RefValue.csum Ideal (ix1 p))) := rfl
  rw [h, csum_apply]
  have hti : (BitVec.ofNat 32 (Cert.Tri.cnt p.val)).toInt = (Cert.Tri.cnt p.val : ℤ) :=
    Predicate.toInt_ofNat_small _ (by omega)
  have h0 : (0#32 : BitVec 32).toInt = 0 := by decide
  have hslt : (BitVec.ofNat 32 (Cert.Tri.cnt p.val)).slt 0#32 = false := by
    simp only [BitVec.slt, hti, h0, decide_eq_false_iff_not]
    omega
  have hmax : IntOp.maxsi 0#32 (BitVec.ofNat 32 (Cert.Tri.cnt p.val)) = BitVec.ofNat 32 (Cert.Tri.cnt p.val) := by
    unfold IntOp.maxsi
    rw [hslt]
    rfl
  have hcmp : IntOp.cmpi .slt (BitVec.ofNat 32 (Cert.Tri.cnt p.val)) 0#32 = 0#1 := by
    show BitVec.ofBool ((BitVec.ofNat 32 (Cert.Tri.cnt p.val)).slt 0#32) = 0#1
    rw [hslt]
    rfl
  rw [hmax, hcmp, select_zero]

end Cert.ReferenceIdeal.RefCount

end
-- ==== Proof.RefFlat.lean ====
/-
  The pair-position table's first two stages after the running count, read at an index.

  `bins` scatters 4096 ones, the one of position `p` at index `cnt p` (the running count of mask bits
  up to `p`, at most 2016, so the index word read signed is `cnt p` itself), into 2016 zeros: entry `k`
  is the number of positions whose count is `k` (an index 2016 falls outside and is dropped, and is
  never equal to a `k < 2016`).  `flatv` is the running sum of `bins`: entry `k` adds the numbers of
  positions with count `0`, `1`, …, `k`, that is the number of positions with count at most `k`,
  `Tri.flat k`.  No sum here exceeds 4096, so no word wraps.
-/
import proofs.«140513_j44092134261025_1_alg».proof.Proof.RefTerm
import proofs.«140513_j44092134261025_1_alg».proof.Proof.Tri
import proofs.«140513_j44092134261025_1_alg».proof.Proof.LibCumsum
import proofs.«140513_j44092134261025_1_alg».proof.Proof.LibBincount
import proofs.«140513_j44092134261025_1_alg».proof.Proof.RefCount
import Idealize.ShloMosaic.Lib.ValueIdx
import Idealize.ShloMosaic.Lib.StableHlo.Predicate
import Mathlib.Algebra.BigOperators.Fin
import Mathlib.Algebra.BigOperators.Intervals
import Mathlib.Data.Finset.Card

noncomputable section

namespace Cert.ReferenceIdeal.RefFlat

open Cert.ReferenceIdeal Idealize.ShloMosaic Idealize.ShloMosaic.ValueIdx

/-- Counting a predicate of the value over `Fin n` is counting it over `range n`. -/
theorem card_filter_fin (n : ℕ) (P : ℕ → Prop) [DecidablePred P] :
    (Finset.univ.filter fun p : Fin n => P p.val).card = ((Finset.range n).filter P).card := by
  rw [Finset.card_filter, Finset.card_filter, Fin.sum_univ_eq_sum_range (fun i => if P i then 1 else 0)]

/-- The positions whose value is at most `k` are those whose value is `0`, or `1`, …, or `k`:
    each position is counted once, under its own value. -/
theorem sum_card_fibers (c : ℕ → ℕ) (N n k : ℕ) (hk : k < N) :
    (∑ q ∈ Finset.range N, if q ≤ k then ((Finset.range n).filter fun p => c p = q).card else 0)
      = ((Finset.range n).filter fun p => c p ≤ k).card := by
  simp only [Finset.card_filter]
  have h1 : ∀ q, (if q ≤ k then ∑ p ∈ Finset.range n, (if c p = q then 1 else 0) else 0)
      = ∑ p ∈ Finset.range n, if c p = q then (if q ≤ k then 1 else 0) else 0 := by
    intro q
    split_ifs with h
    · rfl
    · simp
  simp only [h1]
  rw [Finset.sum_comm]
  refine Finset.sum_congr rfl fun p _ => ?_
  rw [Finset.sum_ite_eq]
  simp only [Finset.mem_range]
  split_ifs <;> omega

/-- A vector as a `[4096, 1]` column reads, at `(p, 0)`, the vector at `p`. -/
theorem col_apply {α : Type} (h : S4096.BroadcastsInDim S4096x1 (![0] : Fin 1 → Fin S4096x1.rank))
    (v : S4096.Idx → α) (p : Fin 4096) :
    broadcastInDim S4096x1 ![0] h v (ix2 p (0 : Fin 1)) = v (ix1 p) := by
  unfold broadcastInDim
  congr 1
  funext a
  match a with
  | ⟨0, _⟩ =>
    split
    · next h1 => change (4096 : ℕ) = 1 at h1; omega
    · rfl

/-- Entry `k` of `bins` is the number of positions whose running count is `k`. -/
theorem bins_apply (k : Fin 2016) :
    RefValue.bins Ideal (ix1 k)
      = BitVec.ofNat 32 ((Finset.univ.filter fun p : Fin 4096 => Cert.Tri.cnt p.val = k.val).card) := by
  have h := LibBincount.bincount_apply (N := 2016) (n := 4096) Facts₀.scatter_S2016_S4096x1_S4096_n_0_0_1_wf
    (broadcastInDim S4096x1 ![0] Facts₀.bcast_S4096_S4096x1_0 (RefValue.sidx Ideal)) k
  refine Eq.trans ?_ (h.trans ?_)
  · rfl
  · refine congrArg (fun s : Finset (Fin 4096) => BitVec.ofNat 32 s.card) ?_
    refine Finset.filter_congr fun p _ => ?_
    have hc : Cert.Tri.cnt p.val ≤ 2016 := Cert.Tri.cnt_le p.val p.isLt
    rw [col_apply, RefCount.sidx_apply, StableHlo.Predicate.toInt_ofNat_small _ (by omega)]
    exact Int.natCast_inj

/-- Entry `k` of `flatv` is the number of positions whose running count is at most `k`. -/
theorem flatv_apply (k : Fin 2016) :
    RefValue.flatv Ideal (ix1 k) = BitVec.ofNat 32 (Cert.Tri.flat k.val) := by
  unfold RefValue.flatv
  refine (LibCumsum.cumsum_apply (n := 2016) (lo := 2015) rfl (RefValue.bins Ideal) _ rfl _ _ k).trans ?_
  refine congrArg (BitVec.ofNat 32) ?_
  have hb : ∀ q : Fin 2016, ((RefValue.bins Ideal) (ix1 q)).toNat
      = ((Finset.range 4096).filter fun p => Cert.Tri.cnt p = q.val).card := by
    intro q
    rw [bins_apply, card_filter_fin 4096 (fun p => Cert.Tri.cnt p = q.val), BitVec.toNat_ofNat]
    apply Nat.mod_eq_of_lt
    have hle := Finset.card_filter_le (Finset.range 4096) (fun p => Cert.Tri.cnt p = q.val)
    rw [Finset.card_range] at hle
    omega
  simp only [hb]
  rw [Fin.sum_univ_eq_sum_range
    (fun q => if q ≤ k.val then ((Finset.range 4096).filter fun p => Cert.Tri.cnt p = q).card else 0) 2016,
    sum_card_fibers Cert.Tri.cnt 2016 4096 k.val k.isLt]
  rfl

end Cert.ReferenceIdeal.RefFlat

end
-- ==== Proof.RefIdx.lean ====
/-
  The index table's two columns, entry by entry.

  Entry `k` of the running sum `flatv` is the flat position `64 · row k + col k` of the `k`-th pair of the
  strict lower triangle, with `col k < row k < 64`; so it is below `4096`, the floor division by `64` followed
  by the floor remainder by `64` gives `row k`, the floor division by `1` followed by the floor remainder by
  `64` gives `col k`, and the wrap into `[0, 64)` leaves both as they are.
-/
import proofs.«140513_j44092134261025_1_alg».proof.Proof.RefTerm
import proofs.«140513_j44092134261025_1_alg».proof.Proof.Tri
import proofs.«140513_j44092134261025_1_alg».proof.Proof.RefDivMod
import proofs.«140513_j44092134261025_1_alg».proof.Proof.RefFlat
import Idealize.ShloMosaic.Lib.ValueIdx

noncomputable section

namespace Cert.ReferenceIdeal.RefIdx

open Cert.ReferenceIdeal Idealize.ShloMosaic
open Idealize.ShloMosaic.ValueIdx

/-- The row of pair `k`: its flat position `64 · row + col`, with `col < row < 64`, divided by 64 and reduced mod 64. -/
theorem rowWords_apply (k : Fin 2016) : RefValue.rowWords Ideal (ix1 k) = BitVec.ofNat 32 (Cert.Tri.row k.val) := by
  have hk := k.isLt
  have hflat := Cert.Tri.flat_eq k.val hk
  have hr := Cert.Tri.row_lt k.val hk
  have hc := Cert.Tri.col_lt_row k.val hk
  have h1 := RefFlat.flatv_apply k
  have h2 := RefDivMod.floorDiv_apply (RefValue.flatv Ideal) 64 (by norm_num) (by norm_num) (ix1 k) _ (by omega) h1
  have h3 := RefDivMod.floorRem_apply _ 64 (by norm_num) (by norm_num) (ix1 k) _ (by omega) h2
  have h4 := RefDivMod.wrap64_apply _ (ix1 k) _ (by omega) h3
  refine h4.trans ?_
  congr 1
  omega

/-- The column of pair `k`: its flat position divided by 1 and reduced mod 64. -/
theorem colWords_apply (k : Fin 2016) : RefValue.colWords Ideal (ix1 k) = BitVec.ofNat 32 (Cert.Tri.col k.val) := by
  have hk := k.isLt
  have hflat := Cert.Tri.flat_eq k.val hk
  have hr := Cert.Tri.row_lt k.val hk
  have hc := Cert.Tri.col_lt_row k.val hk
  have h1 := RefFlat.flatv_apply k
  have h2 := RefDivMod.floorDiv_apply (RefValue.flatv Ideal) 1 (by norm_num) (by norm_num) (ix1 k) _ (by omega) h1
  have h3 := RefDivMod.floorRem_apply _ 64 (by norm_num) (by norm_num) (ix1 k) _ (by omega) h2
  have h4 := RefDivMod.wrap64_apply _ (ix1 k) _ (by omega) h3
  refine h4.trans ?_
  congr 1
  omega

end Cert.ReferenceIdeal.RefIdx

end
-- ==== Proof.RefResult.lean ====
/-
  The reference's result is the specification.

  The reference gathers the Gram array at its own index table.  Entry `k` of the table is the pair
  `(row k, col k)` (the table's two columns are the words of `row k` and `col k`, both below 64, so the
  gather's clamp leaves them alone), and the Gram array at `(b, i, j)` is the inner product of rows `i`
  and `j` of batch `b`: entry `(b, k)` of the result is `G x (b, k)`.
-/
import proofs.«140513_j44092134261025_1_alg».proof.Proof.RefTerm
import proofs.«140513_j44092134261025_1_alg».proof.Proof.Spec
import proofs.«140513_j44092134261025_1_alg».proof.Proof.Tri
import proofs.«140513_j44092134261025_1_alg».proof.Proof.RefGather
import proofs.«140513_j44092134261025_1_alg».proof.Proof.RefGram
import proofs.«140513_j44092134261025_1_alg».proof.Proof.RefIdx

noncomputable section

namespace Cert.ReferenceIdeal.RefResult

open Cert.ReferenceIdeal Idealize.ShloMosaic Idealize.ShloMosaic.ValueIdx

/-- The table's first column at pair `k` is the word of the pair's row. -/
theorem tbl_row_word (k : Fin 2016) :
    RefValue.tbl Ideal (ix2 k (0 : Fin 2)) = BitVec.ofNat 32 (Cert.Spec.rowF k).val := by
  rw [RefGather.tbl_row, RefIdx.rowWords_apply]
  show BitVec.ofNat 32 (Cert.Tri.row k.val) = BitVec.ofNat 32 (Cert.Tri.row k.val % 64)
  rw [Nat.mod_eq_of_lt (Cert.Tri.row_lt _ k.isLt)]

/-- The table's second column at pair `k` is the word of the pair's column. -/
theorem tbl_col_word (k : Fin 2016) :
    RefValue.tbl Ideal (ix2 k (1 : Fin 2)) = BitVec.ofNat 32 (Cert.Spec.colF k).val := by
  rw [RefGather.tbl_col, RefIdx.colWords_apply]
  show BitVec.ofNat 32 (Cert.Tri.col k.val) = BitVec.ofNat 32 (Cert.Tri.col k.val % 64)
  have h1 := Cert.Tri.col_lt_row _ k.isLt
  have h2 := Cert.Tri.row_lt _ k.isLt
  rw [Nat.mod_eq_of_lt (by omega)]

/-- The reference's result array is `G` of its argument. -/
theorem refOut_eq (x : FVec Ideal S8192x64x256 .f32) : RefValue.refOut (F := Ideal) x = Cert.Spec.G x := by
  funext y
  obtain ⟨b, k, rfl⟩ : ∃ (b : Fin 8192) (k : Fin 2016), y = ix2 b k := ⟨y 0, y 1, eq_ix2 y⟩
  unfold RefValue.refOut
  rw [RefGather.gather_apply (RefValue.gram x) (RefValue.tbl Ideal) b k (Cert.Spec.rowF k) (Cert.Spec.colF k)
    (tbl_row_word k) (tbl_col_word k), RefGram.gram_apply, Cert.Spec.G_apply]

end Cert.ReferenceIdeal.RefResult

end
-- ==== Proof.lean ====
/- The proof of `Cert.Claim`: the three frames, the (empty) idealization ledger, and the equivalence over the
   extended reals of the kernel and its reference.

   Both programs compute, for each batch `b` and each pair `(i, j)` of the strict lower triangle `j < i < 64`
   taken in row-major order (pair number `k = i (i - 1) / 2 + j`), the inner product of rows `i` and `j` of
   batch `b`: `G x (b, k) = ∑ d < 256, x (b, i, d) · x (b, j, d)` (Proof/Spec.lean).  The kernel forms the Gram
   block of 128 batches with one batched matrix product and stores row `i`'s first `i` entries at columns
   `[i (i - 1) / 2, i (i - 1) / 2 + i)` (Proof/KPieces.lean, Proof/KValue.lean).  The reference forms the whole
   Gram array and gathers it at an index table it computes itself by counting the bits of the triangle's mask
   (Proof/RefCount.lean, Proof/RefFlat.lean, Proof/RefIdx.lean over the counting lemmas of Proof/Tri.lean);
   Proof/RefResult.lean reads its result as `G`.  The sums are the same sums of the same products, so no
   finiteness of the input is used. -/
import proofs.«140513_j44092134261025_1_alg».proof.Defs
import proofs.«140513_j44092134261025_1_alg».proof.Proof.Gen.Kernel
import proofs.«140513_j44092134261025_1_alg».proof.Proof.Gen.Kernel.Skeleton
import proofs.«140513_j44092134261025_1_alg».proof.Proof.Gen.Kernel.Launch
import proofs.«140513_j44092134261025_1_alg».proof.Proof.Gen.Kernel.Points
import proofs.«140513_j44092134261025_1_alg».proof.Proof.KernelFrameP
import proofs.«140513_j44092134261025_1_alg».proof.Proof.Gen.KernelIdeal
import proofs.«140513_j44092134261025_1_alg».proof.Proof.Gen.KernelIdeal.Skeleton
import proofs.«140513_j44092134261025_1_alg».proof.Proof.Gen.KernelIdeal.Launch
import proofs.«140513_j44092134261025_1_alg».proof.Proof.Gen.KernelIdeal.Points
import proofs.«140513_j44092134261025_1_alg».proof.Proof.KernelIdealFrameP
import proofs.«140513_j44092134261025_1_alg».proof.Proof.KernelIdealValueP
import proofs.«140513_j44092134261025_1_alg».proof.Proof.Gen.ReferenceIdeal
import proofs.«140513_j44092134261025_1_alg».proof.Proof.Gen.Pre_finite_inputs
import proofs.«140513_j44092134261025_1_alg».proof.Proof.KValue
import proofs.«140513_j44092134261025_1_alg».proof.Proof.RefRun
import proofs.«140513_j44092134261025_1_alg».proof.Proof.RefResult
import Idealize.ShloMosaic.Adequacy
import Idealize.ShloMosaic.Init

noncomputable section

namespace Cert.Proof

open Idealize.ShloMosaic Idealize.SL.Sem Cert.Kernel

/-- The word-level kernel runs and leaves its argument unchanged. -/
theorem frame_kernel : Cert.frame_Kernel := fun m ρ _ => Cert.Kernel.GenP.frame m ρ

/-- The idealized kernel runs and leaves its argument unchanged. -/
theorem frame_kernelIdeal : Cert.frame_KernelIdeal := fun m ρ _ => Cert.KernelIdeal.GenP.frame m ρ

/-- The idealized reference runs and leaves its argument unchanged: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the argument, the kernel's result array and the reference's are both `G` of it. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefResult.refOut_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
